-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S36864 : Shape := ⟨1, ![36864]⟩
abbrev S4096 : Shape := ⟨1, ![4096]⟩
abbrev S32768 : Shape := ⟨1, ![32768]⟩
abbrev S4096x32768 : Shape := ⟨2, ![4096, 32768]⟩
abbrev S512 : Shape := ⟨1, ![512]⟩
abbrev S3584 : Shape := ⟨1, ![3584]⟩
abbrev S512x3584 : Shape := ⟨2, ![512, 3584]⟩
abbrev S1024x512 : Shape := ⟨2, ![1024, 512]⟩
abbrev S512x128 : Shape := ⟨2, ![512, 128]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S4096x32768 : S_.BroadcastsInDim S4096x32768 (![] : Fin 0 → Fin S4096x32768.rank)
  reducesTo_S4096x32768_S_d0_1 : S4096x32768.ReducesTo [0, 1] S_
  bcast_S_S512x3584 : S_.BroadcastsInDim S512x3584 (![] : Fin 0 → Fin S512x3584.rank)
  reducesTo_S512x3584_S_d0_1 : S512x3584.ReducesTo [0, 1] S_
  bcast_S_S1024x512 : S_.BroadcastsInDim S1024x512 (![] : Fin 0 → Fin S1024x512.rank)
  reducesTo_S1024x512_S_d0_1 : S1024x512.ReducesTo [0, 1] S_
  bcast_S_S512x128 : S_.BroadcastsInDim S512x128 (![] : Fin 0 → Fin S512x128.rank)
  reducesTo_S512x128_S_d0_1 : S512x128.ReducesTo [0, 1] S_
  bcast_S_S36864 : S_.BroadcastsInDim S36864 (![] : Fin 0 → Fin S36864.rank)
  reducesTo_S36864_S_d0 : S36864.ReducesTo [0] S_
  bcast_S_S4096 : S_.BroadcastsInDim S4096 (![] : Fin 0 → Fin S4096.rank)
  reducesTo_S4096_S_d0 : S4096.ReducesTo [0] S_
  bcast_S_S32768 : S_.BroadcastsInDim S32768 (![] : Fin 0 → Fin S32768.rank)
  reducesTo_S32768_S_d0 : S32768.ReducesTo [0] S_
  bcast_S_S512 : S_.BroadcastsInDim S512 (![] : Fin 0 → Fin S512.rank)
  reducesTo_S512_S_d0 : S512.ReducesTo [0] S_
  bcast_S_S3584 : S_.BroadcastsInDim S3584 (![] : Fin 0 → Fin S3584.rank)
  reducesTo_S3584_S_d0 : S3584.ReducesTo [0] S_

variable [Facts]

def fn_part3 {F : FTy → Type} [FloatOps F] (main_arg5 : IVec S512 32) (main_arg6 : IVec S3584 32) (main_v49 : IVec S_ 1) (main_c_19 : IVec S_ 32) : IVec S_ 1 :=
  let main_v50 : IVec S512 32 := broadcastInDim S512 ![] bcast_S_S512 main_c_19
  let main_v51 : IVec S512 1 := cmpi .sge main_arg5 main_v50
  let main_c_20 : IVec S_ 32 := constantI S_ 32 4096#32
  let main_v52 : IVec S512 32 := broadcastInDim S512 ![] bcast_S_S512 main_c_20
  let main_v53 : IVec S512 1 := cmpi .slt main_arg5 main_v52
  let main_v54 : IVec S512 1 := andi main_v51 main_v53
  let main_c_21 : IVec S_ 1 := constantI S_ 1 1#1
  let main_v55 : IVec S_ 1 := (fun x v => Host.reduce IntOp.andi x v reducesTo_S512_S_d0 h_S_) main_v54 main_c_21
  let main_v56 : IVec S_ 1 := andi main_v49 main_v55
  let main_c_22 : IVec S_ 32 := constantI S_ 32 0#32
  let main_v57 : IVec S3584 32 := broadcastInDim S3584 ![] bcast_S_S3584 main_c_22
  let main_v58 : IVec S3584 1 := cmpi .sge main_arg6 main_v57
  let main_c_23 : IVec S_ 32 := constantI S_ 32 4096#32
  let main_v59 : IVec S3584 32 := broadcastInDim S3584 ![] bcast_S_S3584 main_c_23
  let main_v60 : IVec S3584 1 := cmpi .slt main_arg6 main_v59
  let main_v61 : IVec S3584 1 := andi main_v58 main_v60
  let main_c_24 : IVec S_ 1 := constantI S_ 1 1#1
  let main_v62 : IVec S_ 1 := (fun x v => Host.reduce IntOp.andi x v reducesTo_S3584_S_d0 h_S_) main_v61 main_c_24
  let main_v63 : IVec S_ 1 := andi main_v56 main_v62
  main_v63

def fn_part2 {F : FTy → Type} [FloatOps F] (main_arg2 : IVec S4096 32) (main_arg3 : IVec S32768 32) (main_arg5 : IVec S512 32) (main_arg6 : IVec S3584 32) (main_v28 : IVec S_ 1) (main_v33 : IVec S36864 1) : IVec S_ 1 :=
  let main_c_12 : IVec S_ 1 := constantI S_ 1 1#1
  let main_v34 : IVec S_ 1 := (fun x v => Host.reduce IntOp.andi x v reducesTo_S36864_S_d0 h_S_) main_v33 main_c_12
  let main_v35 : IVec S_ 1 := andi main_v28 main_v34
  let main_c_13 : IVec S_ 32 := constantI S_ 32 0#32
  let main_v36 : IVec S4096 32 := broadcastInDim S4096 ![] bcast_S_S4096 main_c_13
  let main_v37 : IVec S4096 1 := cmpi .sge main_arg2 main_v36
  let main_c_14 : IVec S_ 32 := constantI S_ 32 36864#32
  let main_v38 : IVec S4096 32 := broadcastInDim S4096 ![] bcast_S_S4096 main_c_14
  let main_v39 : IVec S4096 1 := cmpi .slt main_arg2 main_v38
  let main_v40 : IVec S4096 1 := andi main_v37 main_v39
  let main_c_15 : IVec S_ 1 := constantI S_ 1 1#1
  let main_v41 : IVec S_ 1 := (fun x v => Host.reduce IntOp.andi x v reducesTo_S4096_S_d0 h_S_) main_v40 main_c_15
  let main_v42 : IVec S_ 1 := andi main_v35 main_v41
  let main_c_16 : IVec S_ 32 := constantI S_ 32 0#32
  let main_v43 : IVec S32768 32 := broadcastInDim S32768 ![] bcast_S_S32768 main_c_16
  let main_v44 : IVec S32768 1 := cmpi .sge main_arg3 main_v43
  let main_c_17 : IVec S_ 32 := constantI S_ 32 36864#32
  let main_v45 : IVec S32768 32 := broadcastInDim S32768 ![] bcast_S_S32768 main_c_17
  let main_v46 : IVec S32768 1 := cmpi .slt main_arg3 main_v45
  let main_v47 : IVec S32768 1 := andi main_v44 main_v46
  let main_c_18 : IVec S_ 1 := constantI S_ 1 1#1
  let main_v48 : IVec S_ 1 := (fun x v => Host.reduce IntOp.andi x v reducesTo_S32768_S_d0 h_S_) main_v47 main_c_18
  let main_v49 : IVec S_ 1 := andi main_v42 main_v48
  let main_c_19 : IVec S_ 32 := constantI S_ 32 0#32
  fn_part3 (F := F) main_arg5 main_arg6 main_v49 main_c_19

def fn_part1 {F : FTy → Type} [FloatOps F] (main_arg1 : IVec S36864 32) (main_arg2 : IVec S4096 32) (main_arg3 : IVec S32768 32) (main_arg5 : IVec S512 32) (main_arg6 : IVec S3584 32) (main_arg9 : FVec F S1024x512 .f32) (main_arg10 : FVec F S512x128 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg9
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512x128 .f32 := Host.absf main_arg10
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_c_10 : IVec S_ 32 := constantI S_ 32 0#32
  let main_v29 : IVec S36864 32 := broadcastInDim S36864 ![] bcast_S_S36864 main_c_10
  let main_v30 : IVec S36864 1 := cmpi .sge main_arg1 main_v29
  let main_c_11 : IVec S_ 32 := constantI S_ 32 100000#32
  let main_v31 : IVec S36864 32 := broadcastInDim S36864 ![] bcast_S_S36864 main_c_11
  let main_v32 : IVec S36864 1 := cmpi .slt main_arg1 main_v31
  let main_v33 : IVec S36864 1 := andi main_v30 main_v32
  fn_part2 (F := F) main_arg2 main_arg3 main_arg5 main_arg6 main_v28 main_v33

def fn {F : FTy → Type} [FloatOps F] (main_arg0 : FVec F S100000x512 .f32) (main_arg1 : IVec S36864 32) (main_arg2 : IVec S4096 32) (main_arg3 : IVec S32768 32) (main_arg4 : FVec F S4096x32768 .f32) (main_arg5 : IVec S512 32) (main_arg6 : IVec S3584 32) (main_arg7 : FVec F S512x3584 .f32) (main_arg8 : FVec F S1024x512 .f32) (main_arg9 : FVec F S1024x512 .f32) (main_arg10 : FVec F S512x128 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S4096x32768 .f32 := Host.absf main_arg4
  let main_cst_0 : FVec F S_ .f32 := constant S_ .f32 0x7F800000#32
  let main_v5 : FVec F S4096x32768 .f32 := broadcastInDim S4096x32768 ![] bcast_S_S4096x32768 main_cst_0
  let main_v6 : IVec S4096x32768 1 := cmpf .olt main_v4 main_v5
  let main_c_1 : IVec S_ 1 := constantI S_ 1 1#1
  let main_v7 : IVec S_ 1 := (fun x v => Host.reduce IntOp.andi x v reducesTo_S4096x32768_S_d0_1 h_S_) main_v6 main_c_1
  let main_v8 : IVec S_ 1 := andi main_v3 main_v7
  let main_v9 : FVec F S512x3584 .f32 := Host.absf main_arg7
  let main_cst_2 : FVec F S_ .f32 := constant S_ .f32 0x7F800000#32
  let main_v10 : FVec F S512x3584 .f32 := broadcastInDim S512x3584 ![] bcast_S_S512x3584 main_cst_2
  let main_v11 : IVec S512x3584 1 := cmpf .olt main_v9 main_v10
  let main_c_3 : IVec S_ 1 := constantI S_ 1 1#1
  let main_v12 : IVec S_ 1 := (fun x v => Host.reduce IntOp.andi x v reducesTo_S512x3584_S_d0_1 h_S_) main_v11 main_c_3
  let main_v13 : IVec S_ 1 := andi main_v8 main_v12
  let main_v14 : FVec F S1024x512 .f32 := Host.absf main_arg8
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg1 main_arg2 main_arg3 main_arg5 main_arg6 main_arg9 main_arg10 main_v13 main_v16
-- ==== Kernel.lean ====
abbrev S100000x512 : Shape := ⟨2, ![100000, 512]⟩
abbrev S36864 : Shape := ⟨1, ![36864]⟩
abbrev S4096 : Shape := ⟨1, ![4096]⟩
abbrev S32768 : Shape := ⟨1, ![32768]⟩
abbrev S4096x32768 : Shape := ⟨2, ![4096, 32768]⟩
abbrev S512 : Shape := ⟨1, ![512]⟩
abbrev S3584 : Shape := ⟨1, ![3584]⟩
abbrev S512x3584 : Shape := ⟨2, ![512, 3584]⟩
abbrev S1024x512 : Shape := ⟨2, ![1024, 512]⟩
abbrev S512x128 : Shape := ⟨2, ![512, 128]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S4096x1 : Shape := ⟨2, ![4096, 1]⟩
abbrev S32768x512 : Shape := ⟨2, ![32768, 512]⟩
abbrev S4096x512 : Shape := ⟨2, ![4096, 512]⟩
abbrev S512x512 : Shape := ⟨2, ![512, 512]⟩
abbrev S1024x2048 : Shape := ⟨2, ![1024, 2048]⟩
abbrev S2048x512 : Shape := ⟨2, ![2048, 512]⟩
abbrev S3584x1 : Shape := ⟨2, ![3584, 1]⟩
abbrev S3584x512 : Shape := ⟨2, ![3584, 512]⟩
abbrev S512x1 : Shape := ⟨2, ![512, 1]⟩
abbrev S256x3584 : Shape := ⟨2, ![256, 3584]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 163
  | .vmem => 21
  | .smem => 0
  | _ => 0

abbrev hbmTy0_0 (i : Nat) : BufTy := match i % 128 with
  | 0 => ⟨S100000x512, .f32⟩
  | 1 => ⟨S36864, .i32⟩
  | 2 => ⟨S4096, .i32⟩
  | 3 => ⟨S32768, .i32⟩
  | 4 => ⟨S4096x32768, .f32⟩
  | 5 => ⟨S512, .i32⟩
  | 6 => ⟨S3584, .i32⟩
  | 7 => ⟨S512x3584, .f32⟩
  | 8 => ⟨S1024x512, .f32⟩
  | 9 => ⟨S1024x512, .f32⟩
  | 10 => ⟨S512x128, .f32⟩
  | 11 => ⟨S_, .i32⟩
  | 12 => ⟨S32768, .i32⟩
  | 13 => ⟨S32768, .i1⟩
  | 14 => ⟨S_, .i32⟩
  | 15 => ⟨S32768, .i32⟩
  | 16 => ⟨S32768, .i32⟩
  | 17 => ⟨S32768, .i32⟩
  | 18 => ⟨S32768x1, .i32⟩
  | 19 => ⟨S1, .i32⟩
  | 20 => ⟨S_, .i32⟩
  | 21 => ⟨S32768x1, .i32⟩
  | 22 => ⟨S32768x1, .i1⟩
  | 23 => ⟨S1x1, .i32⟩
  | 24 => ⟨S32768x1, .i32⟩
  | 25 => ⟨S32768x1, .i1⟩
  | 26 => ⟨S32768x1, .i1⟩
  | 27 => ⟨S_, .i1⟩
  | 28 => ⟨S32768, .i1⟩
  | 29 => ⟨S32768, .i32⟩
  | 30 => ⟨S_, .i32⟩
  | 31 => ⟨S32768, .i32⟩
  | 32 => ⟨S32768, .i32⟩
  | 33 => ⟨S_, .i32⟩
  | 34 => ⟨S4096, .i32⟩
  | 35 => ⟨S4096, .i1⟩
  | 36 => ⟨S_, .i32⟩
  | 37 => ⟨S4096, .i32⟩
  | 38 => ⟨S4096, .i32⟩
  | 39 => ⟨S4096, .i32⟩
  | 40 => ⟨S4096x1, .i32⟩
  | 41 => ⟨S1, .i32⟩
  | 42 => ⟨S_, .i32⟩
  | 43 => ⟨S4096x1, .i32⟩
  | 44 => ⟨S4096x1, .i1⟩
  | 45 => ⟨S1x1, .i32⟩
  | 46 => ⟨S4096x1, .i32⟩
  | 47 => ⟨S4096x1, .i1⟩
  | 48 => ⟨S4096x1, .i1⟩
  | 49 => ⟨S_, .i1⟩
  | 50 => ⟨S4096, .i1⟩
  | 51 => ⟨S4096, .i32⟩
  | 52 => ⟨S_, .i32⟩
  | 53 => ⟨S4096, .i32⟩
  | 54 => ⟨S4096, .i32⟩
  | 55 => ⟨S_, .i32⟩
  | 56 => ⟨S32768, .i32⟩
  | 57 => ⟨S32768, .i1⟩
  | 58 => ⟨S_, .i32⟩
  | 59 => ⟨S32768, .i32⟩
  | 60 => ⟨S32768, .i32⟩
  | 61 => ⟨S32768, .i32⟩
  | 62 => ⟨S32768x1, .i32⟩
  | 63 => ⟨S1, .i32⟩
  | 64 => ⟨S_, .i32⟩
  | 65 => ⟨S32768x1, .i32⟩
  | 66 => ⟨S32768x1, .i1⟩
  | 67 => ⟨S1x1, .i32⟩
  | 68 => ⟨S32768x1, .i32⟩
  | 69 => ⟨S32768x1, .i1⟩
  | 70 => ⟨S32768x1, .i1⟩
  | 71 => ⟨S_, .i1⟩
  | 72 => ⟨S32768, .i1⟩
  | 73 => ⟨S32768x512, .f32⟩
  | 74 => ⟨S32768x512, .i1⟩
  | 75 => ⟨S_, .f32⟩
  | 76 => ⟨S32768x512, .f32⟩
  | 77 => ⟨S32768x512, .f32⟩
  | 78 => ⟨S32768x512, .bf16⟩
  | 79 => ⟨S_, .i32⟩
  | 80 => ⟨S4096, .i32⟩
  | 81 => ⟨S4096, .i1⟩
  | 82 => ⟨S_, .i32⟩
  | 83 => ⟨S4096, .i32⟩
  | 84 => ⟨S4096, .i32⟩
  | 85 => ⟨S4096, .i32⟩
  | 86 => ⟨S4096x1, .i32⟩
  | 87 => ⟨S1, .i32⟩
  | 88 => ⟨S_, .i32⟩
  | 89 => ⟨S4096x1, .i32⟩
  | 90 => ⟨S4096x1, .i1⟩
  | 91 => ⟨S1x1, .i32⟩
  | 92 => ⟨S4096x1, .i32⟩
  | 93 => ⟨S4096x1, .i1⟩
  | 94 => ⟨S4096x1, .i1⟩
  | 95 => ⟨S_, .i1⟩
  | 96 => ⟨S4096, .i1⟩
  | 97 => ⟨S4096x512, .f32⟩
  | 98 => ⟨S4096x512, .i1⟩
  | 99 => ⟨S_, .f32⟩
  | 100 => ⟨S4096x512, .f32⟩
  | 101 => ⟨S4096x512, .f32⟩
  | 102 => ⟨S4096x512, .bf16⟩
  | 103 => ⟨S512x512, .f32⟩
  | 104 => ⟨S512x512, .bf16⟩
  | 105 => ⟨S512x512, .f32⟩
  | 106 => ⟨S512x512, .bf16⟩
  | 107 => ⟨S4096x512, .f32⟩
  | 108 => ⟨S_, .i32⟩
  | 109 => ⟨S3584, .i32⟩
  | 110 => ⟨S3584, .i1⟩
  | 111 => ⟨S_, .i32⟩
  | 112 => ⟨S3584, .i32⟩
  | 113 => ⟨S3584, .i32⟩
  | 114 => ⟨S3584, .i32⟩
  | 115 => ⟨S3584x1, .i32⟩
  | 116 => ⟨S1, .i32⟩
  | 117 => ⟨S_, .i32⟩
  | 118 => ⟨S3584x1, .i32⟩
  | 119 => ⟨S3584x1, .i1⟩
  | 120 => ⟨S1x1, .i32⟩
  | 121 => ⟨S3584x1, .i32⟩
  | 122 => ⟨S3584x1, .i1⟩
  | 123 => ⟨S3584x1, .i1⟩
  | 124 => ⟨S_, .i1⟩
  | 125 => ⟨S3584, .i1⟩
  | 126 => ⟨S3584x512, .f32⟩
  | 127 => ⟨S3584x512, .i1⟩
  | _ => ⟨S100000x512, .f32⟩

abbrev hbmTy0_1 (i : Nat) : BufTy := match i % 128 with
  | 0 => ⟨S_, .f32⟩
  | 1 => ⟨S3584x512, .f32⟩
  | 2 => ⟨S3584x512, .f32⟩
  | 3 => ⟨S3584x512, .bf16⟩
  | 4 => ⟨S_, .i32⟩
  | 5 => ⟨S512, .i32⟩
  | 6 => ⟨S512, .i1⟩
  | 7 => ⟨S_, .i32⟩
  | 8 => ⟨S512, .i32⟩
  | 9 => ⟨S512, .i32⟩
  | 10 => ⟨S512, .i32⟩
  | 11 => ⟨S512x1, .i32⟩
  | 12 => ⟨S1, .i32⟩
  | 13 => ⟨S_, .i32⟩
  | 14 => ⟨S512x1, .i32⟩
  | 15 => ⟨S512x1, .i1⟩
  | 16 => ⟨S1x1, .i32⟩
  | 17 => ⟨S512x1, .i32⟩
  | 18 => ⟨S512x1, .i1⟩
  | 19 => ⟨S512x1, .i1⟩
  | 20 => ⟨S_, .i1⟩
  | 21 => ⟨S512, .i1⟩
  | 22 => ⟨S512x512, .f32⟩
  | 23 => ⟨S512x512, .i1⟩
  | 24 => ⟨S_, .f32⟩
  | 25 => ⟨S512x512, .f32⟩
  | 26 => ⟨S512x512, .f32⟩
  | 27 => ⟨S512x512, .bf16⟩
  | 28 => ⟨S512x3584, .bf16⟩
  | 29 => ⟨S512x512, .f32⟩
  | 30 => ⟨S512x512, .bf16⟩
  | 31 => ⟨S512x512, .f32⟩
  | 32 => ⟨S512x512, .bf16⟩
  | 33 => ⟨S512x128, .bf16⟩
  | 34 => ⟨S512x128, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S256x3584, .bf16⟩
  | .local _ .vmem, ⟨12, _⟩ => ⟨S256x3584, .bf16⟩
  | .local _ .vmem, ⟨13, _⟩ => ⟨S3584x512, .bf16⟩
  | .local _ .vmem, ⟨14, _⟩ => ⟨S256x512, .bf16⟩
  | .local _ .vmem, ⟨15, _⟩ => ⟨S256x512, .bf16⟩
  | .local _ .vmem, ⟨16, _⟩ => ⟨S512x512, .bf16⟩
  | .local _ .vmem, ⟨17, _⟩ => ⟨S512x512, .bf16⟩
  | .local _ .vmem, ⟨18, _⟩ => ⟨S512x128, .bf16⟩
  | .local _ .vmem, ⟨19, _⟩ => ⟨S256x128, .f32⟩
  | .local _ .vmem, ⟨20, _⟩ => ⟨S256x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_c_4 : Ref sig .tc := ⟨.hbm, 30, rfl⟩
abbrev main_call0_v14 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_c_4 : Ref sig .tc := ⟨.hbm, 52, rfl⟩
abbrev main_call1_v14 : Ref sig .tc := ⟨.hbm, 53, rfl⟩
abbrev main_v1 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v2 : Ref sig .tc := ⟨.hbm, 77, rfl⟩
abbrev main_v3 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_c_1 : Ref sig .tc := ⟨.hbm, 87, rfl⟩
abbrev main_call3_c_2 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_3 : Ref sig .tc := ⟨.hbm, 95, rfl⟩
abbrev main_call3_v12 : Ref sig .tc := ⟨.hbm, 96, rfl⟩
abbrev main_call3_v13 : Ref sig .tc := ⟨.hbm, 97, rfl⟩
abbrev main_call3_v14 : Ref sig .tc := ⟨.hbm, 98, rfl⟩
abbrev main_call3_cst : Ref sig .tc := ⟨.hbm, 99, rfl⟩
abbrev main_call3_v15 : Ref sig .tc := ⟨.hbm, 100, rfl⟩
abbrev main_v4 : Ref sig .tc := ⟨.hbm, 101, rfl⟩
abbrev main_v5 : Ref sig .tc := ⟨.hbm, 102, rfl⟩
abbrev main_v6 : Ref sig .tc := ⟨.hbm, 103, rfl⟩
abbrev main_v7 : Ref sig .tc := ⟨.hbm, 104, rfl⟩
abbrev main_v8 : Ref sig .tc := ⟨.hbm, 105, rfl⟩
abbrev main_v9 : Ref sig .tc := ⟨.hbm, 106, rfl⟩
abbrev main_v10 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_call4_cst : Ref sig .tc := ⟨.hbm, 128, rfl⟩
abbrev main_call4_v15 : Ref sig .tc := ⟨.hbm, 129, rfl⟩
abbrev main_v11 : Ref sig .tc := ⟨.hbm, 130, rfl⟩
abbrev main_v12 : Ref sig .tc := ⟨.hbm, 131, rfl⟩
abbrev main_call5_c : Ref sig .tc := ⟨.hbm, 132, rfl⟩
abbrev main_call5_v0 : Ref sig .tc := ⟨.hbm, 133, rfl⟩
abbrev main_call5_v1 : Ref sig .tc := ⟨.hbm, 134, rfl⟩
abbrev main_call5_c_0 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_c_1 : Ref sig .tc := ⟨.hbm, 140, rfl⟩
abbrev main_call5_c_2 : Ref sig .tc := ⟨.hbm, 141, rfl⟩
abbrev main_call5_v6 : Ref sig .tc := ⟨.hbm, 142, rfl⟩
abbrev main_call5_v7 : Ref sig .tc := ⟨.hbm, 143, rfl⟩
abbrev main_call5_v8 : Ref sig .tc := ⟨.hbm, 144, rfl⟩
abbrev main_call5_v9 : Ref sig .tc := ⟨.hbm, 145, rfl⟩
abbrev main_call5_v10 : Ref sig .tc := ⟨.hbm, 146, rfl⟩
abbrev main_call5_v11 : Ref sig .tc := ⟨.hbm, 147, rfl⟩
abbrev main_call5_c_3 : Ref sig .tc := ⟨.hbm, 148, rfl⟩
abbrev main_call5_v12 : Ref sig .tc := ⟨.hbm, 149, rfl⟩
abbrev main_call5_v13 : Ref sig .tc := ⟨.hbm, 150, rfl⟩
abbrev main_call5_v14 : Ref sig .tc := ⟨.hbm, 151, rfl⟩
abbrev main_call5_cst : Ref sig .tc := ⟨.hbm, 152, rfl⟩
abbrev main_call5_v15 : Ref sig .tc := ⟨.hbm, 153, rfl⟩
abbrev main_v13 : Ref sig .tc := ⟨.hbm, 154, rfl⟩
abbrev main_v14 : Ref sig .tc := ⟨.hbm, 155, rfl⟩
abbrev main_v15 : Ref sig .tc := ⟨.hbm, 156, rfl⟩
abbrev main_v16 : Ref sig .tc := ⟨.hbm, 157, rfl⟩
abbrev main_v17 : Ref sig .tc := ⟨.hbm, 158, rfl⟩
abbrev main_v18 : Ref sig .tc := ⟨.hbm, 159, rfl⟩
abbrev main_v19 : Ref sig .tc := ⟨.hbm, 160, rfl⟩
abbrev main_v20 : Ref sig .tc := ⟨.hbm, 161, rfl⟩
abbrev main_v21 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3584x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x1_S4096x1_0_1 : S1x1.BroadcastsInDim S4096x1 (![0, 1] : Fin 2 → Fin S4096x1.rank)
  reducesTo_S4096x1_S4096_d1 : S4096x1.ReducesTo [1] S4096
  bcast_S32768_S32768x512_0 : S32768.BroadcastsInDim S32768x512 (![0] : Fin 1 → Fin S32768x512.rank)
  bcast_S_S32768x512 : S_.BroadcastsInDim S32768x512 (![] : Fin 0 → Fin S32768x512.rank)
  bitsLt_bf16_f32 : FTy.bits .bf16 < FTy.bits .f32
  bcast_S4096_S4096x512_0 : S4096.BroadcastsInDim S4096x512 (![0] : Fin 1 → Fin S4096x512.rank)
  bcast_S_S4096x512 : S_.BroadcastsInDim S4096x512 (![] : Fin 0 → Fin S4096x512.rank)
  slices_S1024x512_S512x512_0_0 : S1024x512.Slices ![0, 0] S512x512
  slices_S1024x512_S512x512_512_0 : S1024x512.Slices ![512, 0] S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bcast_S_S3584 : S_.BroadcastsInDim S3584 (![] : Fin 0 → Fin S3584.rank)
  bcast_S3584_S3584x1_0 : S3584.BroadcastsInDim S3584x1 (![0] : Fin 1 → Fin S3584x1.rank)
  bcast_S_S3584x1 : S_.BroadcastsInDim S3584x1 (![] : Fin 0 → Fin S3584x1.rank)
  bcast_S1x1_S3584x1_0_1 : S1x1.BroadcastsInDim S3584x1 (![0, 1] : Fin 2 → Fin S3584x1.rank)
  reducesTo_S3584x1_S3584_d1 : S3584x1.ReducesTo [1] S3584
  bcast_S3584_S3584x512_0 : S3584.BroadcastsInDim S3584x512 (![0] : Fin 1 → Fin S3584x512.rank)
  bcast_S_S3584x512 : S_.BroadcastsInDim S3584x512 (![] : Fin 0 → Fin S3584x512.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S512x512_0 : S512.BroadcastsInDim S512x512 (![0] : Fin 1 → Fin S512x512.rank)
  bcast_S_S512x512 : S_.BroadcastsInDim S512x512 (![] : Fin 0 → Fin S512x512.rank)
  inb_S256x3584_S256x3584_0_0 : ∀ a, (![0, 0] : Fin 2 → Nat) a + S256x3584.size a ≤ S256x3584.size a
  h_S256x3584 : 0 < S256x3584.numel
  shapeCasts_S256x3584_S256x3584 : S256x3584.ShapeCasts S256x3584
  inb_S3584x512_S3584x512_0_0 : ∀ a, (![0, 0] : Fin 2 → Nat) a + S3584x512.size a ≤ S3584x512.size a
  h_S3584x512 : 0 < S3584x512.numel
  shapeCasts_S3584x512_S3584x512 : S3584x512.ShapeCasts S3584x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S256x128_S256 : S256x128.Reduces [1] S256
  shapeCasts_S256_S256x1 : S256.ShapeCasts S256x1
  broadcasts_S256x1_S256x128 : S256x1.Broadcasts S256x128
  inb_S256x128_S256x128_0_0 : ∀ a, (![0, 0] : Fin 2 → Nat) a + S256x128.size a ≤ S256x128.size a
  h_S256x128 : 0 < S256x128.numel
  gather_S36864_S32768x1_S32768_n_0_n_n_0_1_1_wf : GatherDims.WF S36864 S32768x1 S32768 [] [0] [] [0] [] 1 ![1]
  gather_S36864_S4096x1_S4096_n_0_n_n_0_1_1_wf : GatherDims.WF S36864 S4096x1 S4096 [] [0] [] [0] [] 1 ![1]
  gather_S100000x512_S32768x1_S32768x512_1_0_n_n_0_1_1512_wf : GatherDims.WF S100000x512 S32768x1 S32768x512 [1] [0] [] [0] [] 1 ![1, 512]
  gather_S100000x512_S4096x1_S4096x512_1_0_n_n_0_1_1512_wf : GatherDims.WF S100000x512 S4096x1 S4096x512 [1] [0] [] [0] [] 1 ![1, 512]
  dot_S1024x2048_S2048x512_S1024x512_1_0_0_1_n_n_wf : DotDims.WF S1024x2048 S2048x512 S1024x512 [1] [0] [0] [1] [] []
  dot_S1024x512_S512x512_S1024x512_1_0_0_1_n_n_wf : DotDims.WF S1024x512 S512x512 S1024x512 [1] [0] [0] [1] [] []
  gather_S4096x512_S3584x1_S3584x512_1_0_n_n_0_1_1512_wf : GatherDims.WF S4096x512 S3584x1 S3584x512 [1] [0] [] [0] [] 1 ![1, 512]
  gather_S4096x512_S512x1_S512x512_1_0_n_n_0_1_1512_wf : GatherDims.WF S4096x512 S512x1 S512x512 [1] [0] [] [0] [] 1 ![1, 512]
  dot_S256x3584_S3584x512_S256x512_1_0_0_1_n_n_wf : DotDims.WF S256x3584 S3584x512 S256x512 [1] [0] [0] [1] [] []
  dot_S256x512_S512x512_S256x512_1_0_0_1_n_n_wf : DotDims.WF S256x512 S512x512 S256x512 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x32768.size a
  hwx0_0 : ∀ i : grid0.Coords, EltTy.bits .f32 = 32 ∨ (Rect.block (s := S4096x32768) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .bf16 = 32 ∨ (Rect.block (s := S32768x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .bf16 = 32 ∨ (Rect.block (s := S4096x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S4096x512.size a
  hwx0_5 : ∀ i : grid0.Coords, EltTy.bits .f32 = 32 ∨ (Rect.block (s := S4096x512) S1024x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x3584.size a ≤ S512x3584.size a
  hwx1_0 : ∀ i : grid1.Coords, EltTy.bits .bf16 = 32 ∨ (Rect.block (s := S512x3584) S256x3584.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3584x512.size a ≤ S3584x512.size a
  hwx1_1 : ∀ i : grid1.Coords, EltTy.bits .bf16 = 32 ∨ (Rect.block (s := S3584x512) S3584x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S512x512.size a
  hwx1_2 : ∀ i : grid1.Coords, EltTy.bits .bf16 = 32 ∨ (Rect.block (s := S512x512) S256x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .bf16 = 32 ∨ (Rect.block (s := S512x512) S512x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S512x128.size a
  hwx1_5 : ∀ i : grid1.Coords, EltTy.bits .bf16 = 32 ∨ (Rect.block (s := S512x128) S512x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x128.size a ≤ S512x128.size a
  hwx1_6 : ∀ i : grid1.Coords, EltTy.bits .f32 = 32 ∨ (Rect.block (s := S512x128) S256x128.size (cc1_transform_6 i) (hinb1_6 i)).WholeWords (EltTy.packing .f32)

variable [Facts₀]

def gather_S36864_S32768x1_S32768_n_0_n_n_0_1_1 : GatherDims S36864 S32768x1 S32768 where
  offsetDims := []
  collapsedSliceDims := [0]
  operandBatchingDims := []
  startIndicesBatchingDims := []
  startIndexMap := [0]
  indexVectorDim := 1
  sliceSizes := ![1]
  wf := gather_S36864_S32768x1_S32768_n_0_n_n_0_1_1_wf
def gather_S36864_S4096x1_S4096_n_0_n_n_0_1_1 : GatherDims S36864 S4096x1 S4096 where
  offsetDims := []
  collapsedSliceDims := [0]
  operandBatchingDims := []
  startIndicesBatchingDims := []
  startIndexMap := [0]
  indexVectorDim := 1
  sliceSizes := ![1]
  wf := gather_S36864_S4096x1_S4096_n_0_n_n_0_1_1_wf
def gather_S100000x512_S32768x1_S32768x512_1_0_n_n_0_1_1512 : GatherDims S100000x512 S32768x1 S32768x512 where
  offsetDims := [1]
  collapsedSliceDims := [0]
  operandBatchingDims := []
  startIndicesBatchingDims := []
  startIndexMap := [0]
  indexVectorDim := 1
  sliceSizes := ![1, 512]
  wf := gather_S100000x512_S32768x1_S32768x512_1_0_n_n_0_1_1512_wf
def gather_S100000x512_S4096x1_S4096x512_1_0_n_n_0_1_1512 : GatherDims S100000x512 S4096x1 S4096x512 where
  offsetDims := [1]
  collapsedSliceDims := [0]
  operandBatchingDims := []
  startIndicesBatchingDims := []
  startIndexMap := [0]
  indexVectorDim := 1
  sliceSizes := ![1, 512]
  wf := gather_S100000x512_S4096x1_S4096x512_1_0_n_n_0_1_1512_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def gather_S4096x512_S3584x1_S3584x512_1_0_n_n_0_1_1512 : GatherDims S4096x512 S3584x1 S3584x512 where
  offsetDims := [1]
  collapsedSliceDims := [0]
  operandBatchingDims := []
  startIndicesBatchingDims := []
  startIndexMap := [0]
  indexVectorDim := 1
  sliceSizes := ![1, 512]
  wf := gather_S4096x512_S3584x1_S3584x512_1_0_n_n_0_1_1512_wf
def gather_S4096x512_S512x1_S512x512_1_0_n_n_0_1_1512 : GatherDims S4096x512 S512x1 S512x512 where
  offsetDims := [1]
  collapsedSliceDims := [0]
  operandBatchingDims := []
  startIndicesBatchingDims := []
  startIndexMap := [0]
  indexVectorDim := 1
  sliceSizes := ![1, 512]
  wf := gather_S4096x512_S512x1_S512x512_1_0_n_n_0_1_1512_wf
def dot_S256x3584_S3584x512_S256x512_1_0_0_1_n_n : DotDims S256x3584 S3584x512 S256x512 where
  lhsContracting := [1]
  rhsContracting := [0]
  lhsNonContracting := [0]
  rhsNonContracting := [1]
  lhsBatch := []
  rhsBatch := []
  wf := dot_S256x3584_S3584x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_arg4) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v15) S256x3584.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S3584x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S256x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S512x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S256x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x512 : Shape := ⟨2, ![100000, 512]⟩
abbrev S36864 : Shape := ⟨1, ![36864]⟩
abbrev S4096 : Shape := ⟨1, ![4096]⟩
abbrev S32768 : Shape := ⟨1, ![32768]⟩
abbrev S4096x32768 : Shape := ⟨2, ![4096, 32768]⟩
abbrev S512 : Shape := ⟨1, ![512]⟩
abbrev S3584 : Shape := ⟨1, ![3584]⟩
abbrev S512x3584 : Shape := ⟨2, ![512, 3584]⟩
abbrev S1024x512 : Shape := ⟨2, ![1024, 512]⟩
abbrev S512x128 : Shape := ⟨2, ![512, 128]⟩
abbrev S_ : Shape := ⟨0, ![]⟩
abbrev S36864x1 : Shape := ⟨2, ![36864, 1]⟩
abbrev S36864x512 : Shape := ⟨2, ![36864, 512]⟩
abbrev S32768x1 : Shape := ⟨2, ![32768, 1]⟩
abbrev S32768x512 : Shape := ⟨2, ![32768, 512]⟩
abbrev S4096x512 : Shape := ⟨2, ![4096, 512]⟩
abbrev S4096x1 : Shape := ⟨2, ![4096, 1]⟩
abbrev S4096x1024 : Shape := ⟨2, ![4096, 1024]⟩
abbrev S3584x1 : Shape := ⟨2, ![3584, 1]⟩
abbrev S3584x512 : Shape := ⟨2, ![3584, 512]⟩
abbrev S512x512 : Shape := ⟨2, ![512, 512]⟩
abbrev S512x1 : Shape := ⟨2, ![512, 1]⟩
abbrev S512x1024 : Shape := ⟨2, ![512, 1024]⟩

abbrev nBuf : Space → Nat
  | .hbm => 83
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S36864, .i32⟩
  | .hbm, ⟨2, _⟩ => ⟨S4096, .i32⟩
  | .hbm, ⟨3, _⟩ => ⟨S32768, .i32⟩
  | .hbm, ⟨4, _⟩ => ⟨S4096x32768, .f32⟩
  | .hbm, ⟨5, _⟩ => ⟨S512, .i32⟩
  | .hbm, ⟨6, _⟩ => ⟨S3584, .i32⟩
  | .hbm, ⟨7, _⟩ => ⟨S512x3584, .f32⟩
  | .hbm, ⟨8, _⟩ => ⟨S1024x512, .f32⟩
  | .hbm, ⟨9, _⟩ => ⟨S1024x512, .f32⟩
  | .hbm, ⟨10, _⟩ => ⟨S512x128, .f32⟩
  | .hbm, ⟨11, _⟩ => ⟨S_, .i32⟩
  | .hbm, ⟨12, _⟩ => ⟨S36864, .i32⟩
  | .hbm, ⟨13, _⟩ => ⟨S36864, .i1⟩
  | .hbm, ⟨14, _⟩ => ⟨S_, .i32⟩
  | .hbm, ⟨15, _⟩ => ⟨S36864, .i32⟩
  | .hbm, ⟨16, _⟩ => ⟨S36864, .i32⟩
  | .hbm, ⟨17, _⟩ => ⟨S36864, .i32⟩
  | .hbm, ⟨18, _⟩ => ⟨S36864x1, .i32⟩
  | .hbm, ⟨19, _⟩ => ⟨S36864x512, .f32⟩
  | .hbm, ⟨20, _⟩ => ⟨S_, .i32⟩
  | .hbm, ⟨21, _⟩ => ⟨S32768, .i32⟩
  | .hbm, ⟨22, _⟩ => ⟨S32768, .i1⟩
  | .hbm, ⟨23, _⟩ => ⟨S_, .i32⟩
  | .hbm, ⟨24, _⟩ => ⟨S32768, .i32⟩
  | .hbm, ⟨25, _⟩ => ⟨S32768, .i32⟩
  | .hbm, ⟨26, _⟩ => ⟨S32768, .i32⟩
  | .hbm, ⟨27, _⟩ => ⟨S32768x1, .i32⟩
  | .hbm, ⟨28, _⟩ => ⟨S32768x512, .f32⟩
  | .hbm, ⟨29, _⟩ => ⟨S4096x512, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S4096x512, .f32⟩
  | .hbm, ⟨39, _⟩ => ⟨S4096x1024, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .i32⟩
  | .hbm, ⟨45, _⟩ => ⟨S3584, .i32⟩
  | .hbm, ⟨46, _⟩ => ⟨S3584, .i1⟩
  | .hbm, ⟨47, _⟩ => ⟨S_, .i32⟩
  | .hbm, ⟨48, _⟩ => ⟨S3584, .i32⟩
  | .hbm, ⟨49, _⟩ => ⟨S3584, .i32⟩
  | .hbm, ⟨50, _⟩ => ⟨S3584, .i32⟩
  | .hbm, ⟨51, _⟩ => ⟨S3584x1, .i32⟩
  | .hbm, ⟨52, _⟩ => ⟨S3584x512, .f32⟩
  | .hbm, ⟨53, _⟩ => ⟨S512x512, .f32⟩
  | .hbm, ⟨54, _⟩ => ⟨S_, .i32⟩
  | .hbm, ⟨55, _⟩ => ⟨S512, .i32⟩
  | .hbm, ⟨56, _⟩ => ⟨S512, .i1⟩
  | .hbm, ⟨57, _⟩ => ⟨S_, .i32⟩
  | .hbm, ⟨58, _⟩ => ⟨S512, .i32⟩
  | .hbm, ⟨59, _⟩ => ⟨S512, .i32⟩
  | .hbm, ⟨60, _⟩ => ⟨S512, .i32⟩
  | .hbm, ⟨61, _⟩ => ⟨S512x1, .i32⟩
  | .hbm, ⟨62, _⟩ => ⟨S512x512, .f32⟩
  | .hbm, ⟨63, _⟩ => ⟨S512x1024, .f32⟩
  | .hbm, ⟨64, _⟩ => ⟨S512x512, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S512x128, .f32⟩
  | .hbm, ⟨69, _⟩ => ⟨S_, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512x1, .f32⟩
  | .hbm, ⟨75, _⟩ => ⟨S512x128, .f32⟩
  | .hbm, ⟨76, _⟩ => ⟨S512x128, .f32⟩
  | .hbm, ⟨77, _⟩ => ⟨S512x128, .f32⟩
  | .hbm, ⟨78, _⟩ => ⟨S_, .f32⟩
  | .hbm, ⟨79, _⟩ => ⟨S512, .f32⟩
  | .hbm, ⟨80, _⟩ => ⟨S512x1, .f32⟩
  | .hbm, ⟨81, _⟩ => ⟨S512x128, .f32⟩
  | .hbm, ⟨82, _⟩ => ⟨S512x128, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_cst : Ref sig .tc := ⟨.hbm, 65, rfl⟩
abbrev main_call1_v0 : Ref sig .tc := ⟨.hbm, 66, rfl⟩
abbrev main_v42 : Ref sig .tc := ⟨.hbm, 67, rfl⟩
abbrev main_v43 : Ref sig .tc := ⟨.hbm, 68, rfl⟩
abbrev main_cst : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]

class Facts₀ : Prop where
  bcast_S_S36864 : S_.BroadcastsInDim S36864 (![] : Fin 0 → Fin S36864.rank)
  bcast_S36864_S36864x1_0 : S36864.BroadcastsInDim S36864x1 (![0] : Fin 1 → Fin S36864x1.rank)
  bcast_S_S32768 : S_.BroadcastsInDim S32768 (![] : Fin 0 → Fin S32768.rank)
  bcast_S32768_S32768x1_0 : S32768.BroadcastsInDim S32768x1 (![0] : Fin 1 → Fin S32768x1.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x512_S4096x512_S4096x1024_d1 : Shape.Concatenates [S4096x512, S4096x512] S4096x1024 1
  bcast_S_S4096x512 : S_.BroadcastsInDim S4096x512 (![] : Fin 0 → Fin S4096x512.rank)
  bcast_S_S3584 : S_.BroadcastsInDim S3584 (![] : Fin 0 → Fin S3584.rank)
  bcast_S3584_S3584x1_0 : S3584.BroadcastsInDim S3584x1 (![0] : Fin 1 → Fin S3584x1.rank)
  bcast_S_S512 : S_.BroadcastsInDim S512 (![] : Fin 0 → Fin S512.rank)
  bcast_S512_S512x1_0 : S512.BroadcastsInDim S512x1 (![0] : Fin 1 → Fin S512x1.rank)
  concatenates_S512x512_S512x512_S512x1024_d1 : Shape.Concatenates [S512x512, S512x512] S512x1024 1
  bcast_S_S512x512 : S_.BroadcastsInDim S512x512 (![] : Fin 0 → Fin S512x512.rank)
  reducesTo_S512x128_S512_d1 : S512x128.ReducesTo [1] S512
  h_S_ : 0 < S_.numel
  bcast_S512x1_S512x128_0_1 : S512x1.BroadcastsInDim S512x128 (![0, 1] : Fin 2 → Fin S512x128.rank)
  gather_S100000x512_S36864x1_S36864x512_1_0_n_n_0_1_1512_wf : GatherDims.WF S100000x512 S36864x1 S36864x512 [1] [0] [] [0] [] 1 ![1, 512]
  gather_S36864x512_S32768x1_S32768x512_1_0_n_n_0_1_1512_wf : GatherDims.WF S36864x512 S32768x1 S32768x512 [1] [0] [] [0] [] 1 ![1, 512]
  dot_S4096x32768_S32768x512_S4096x512_1_0_0_1_n_n_wf : DotDims.WF S4096x32768 S32768x512 S4096x512 [1] [0] [0] [1] [] []
  gather_S36864x512_S4096x1_S4096x512_1_0_n_n_0_1_1512_wf : GatherDims.WF S36864x512 S4096x1 S4096x512 [1] [0] [] [0] [] 1 ![1, 512]
  dot_S4096x1024_S1024x512_S4096x512_1_0_0_1_n_n_wf : DotDims.WF S4096x1024 S1024x512 S4096x512 [1] [0] [0] [1] [] []
  gather_S4096x512_S3584x1_S3584x512_1_0_n_n_0_1_1512_wf : GatherDims.WF S4096x512 S3584x1 S3584x512 [1] [0] [] [0] [] 1 ![1, 512]
  dot_S512x3584_S3584x512_S512x512_1_0_0_1_n_n_wf : DotDims.WF S512x3584 S3584x512 S512x512 [1] [0] [0] [1] [] []
  gather_S4096x512_S512x1_S512x512_1_0_n_n_0_1_1512_wf : GatherDims.WF S4096x512 S512x1 S512x512 [1] [0] [] [0] [] 1 ![1, 512]
  dot_S512x1024_S1024x512_S512x512_1_0_0_1_n_n_wf : DotDims.WF S512x1024 S1024x512 S512x512 [1] [0] [0] [1] [] []
  dot_S512x512_S512x128_S512x128_1_0_0_1_n_n_wf : DotDims.WF S512x512 S512x128 S512x128 [1] [0] [0] [1] [] []

variable [Facts₀]

def gather_S100000x512_S36864x1_S36864x512_1_0_n_n_0_1_1512 : GatherDims S100000x512 S36864x1 S36864x512 where
  offsetDims := [1]
  collapsedSliceDims := [0]
  operandBatchingDims := []
  startIndicesBatchingDims := []
  startIndexMap := [0]
  indexVectorDim := 1
  sliceSizes := ![1, 512]
  wf := gather_S100000x512_S36864x1_S36864x512_1_0_n_n_0_1_1512_wf
def gather_S36864x512_S32768x1_S32768x512_1_0_n_n_0_1_1512 : GatherDims S36864x512 S32768x1 S32768x512 where
  offsetDims := [1]
  collapsedSliceDims := [0]
  operandBatchingDims := []
  startIndicesBatchingDims := []
  startIndexMap := [0]
  indexVectorDim := 1
  sliceSizes := ![1, 512]
  wf := gather_S36864x512_S32768x1_S32768x512_1_0_n_n_0_1_1512_wf
def dot_S4096x32768_S32768x512_S4096x512_1_0_0_1_n_n : DotDims S4096x32768 S32768x512 S4096x512 where
  lhsContracting := [1]
  rhsContracting := [0]
  lhsNonContracting := [0]
  rhsNonContracting := [1]
  lhsBatch := []
  rhsBatch := []
  wf := dot_S4096x32768_S32768x512_S4096x512_1_0_0_1_n_n_wf
def gather_S36864x512_S4096x1_S4096x512_1_0_n_n_0_1_1512 : GatherDims S36864x512 S4096x1 S4096x512 where
  offsetDims := [1]
  collapsedSliceDims := [0]
  operandBatchingDims := []
  startIndicesBatchingDims := []
  startIndexMap := [0]
  indexVectorDim := 1
  sliceSizes := ![1, 512]
  wf := gather_S36864x512_S4096x1_S4096x512_1_0_n_n_0_1_1512_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def gather_S4096x512_S3584x1_S3584x512_1_0_n_n_0_1_1512 : GatherDims S4096x512 S3584x1 S3584x512 where
  offsetDims := [1]
  collapsedSliceDims := [0]
  operandBatchingDims := []
  startIndicesBatchingDims := []
  startIndexMap := [0]
  indexVectorDim := 1
  sliceSizes := ![1, 512]
  wf := gather_S4096x512_S3584x1_S3584x512_1_0_n_n_0_1_1512_wf
def dot_S512x3584_S3584x512_S512x512_1_0_0_1_n_n : DotDims S512x3584 S3584x512 S512x512 where
  lhsContracting := [1]
  rhsContracting := [0]
  lhsNonContracting := [0]
  rhsNonContracting := [1]
  lhsBatch := []
  rhsBatch := []
  wf := dot_S512x3584_S3584x512_S512x512_1_0_0_1_n_n_wf
def gather_S4096x512_S512x1_S512x512_1_0_n_n_0_1_1512 : GatherDims S4096x512 S512x1 S512x512 where
  offsetDims := [1]
  collapsedSliceDims := [0]
  operandBatchingDims := []
  startIndicesBatchingDims := []
  startIndexMap := [0]
  indexVectorDim := 1
  sliceSizes := ![1, 512]
  wf := gather_S4096x512_S512x1_S512x512_1_0_n_n_0_1_1512_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

class Facts : Prop extends Facts₀ where

variable [Facts]
-- ==== Proof.K.Defs0.lean ====
/-
  The first pallas_call (the first layer) as the pipeline runs it. The grid is 4 × 16: point t = 16·i + k works on
  rows 1024·i … 1024·i + 1023 of the diffusion matrix and on its columns 2048·k … 2048·k + 2047. A scratch
  accumulator of the kernel's own is carried from point to point: cleared where k = 0, then a block product added at
  every point; where k = 15 the layer's output block is computed from it and stored. Here: the windows' blocks at a
  point, what the scratch and the output window's buffer hold after each point, the invariant that carries the
  scratch, and the proof data the launch theorem takes — all at a parameter V, the contents of the core's buffers
  when the call is entered.
-/
import proofs.«424208_j60103772340409_3_alg».proof.Proof.Gen.Kernel.Launch
import proofs.«424208_j60103772340409_3_alg».proof.Proof.Gen.Kernel.Skeleton
import proofs.«424208_j60103772340409_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The kernel's scratch accumulator, a whole scoped buffer of its own. -/
abbrev scM0 : Memref sig .tc .vmem S1024x512 .f32 := Memref.whole cc0_scratch0

/-- THE ACCUMULATION. What the scratch holds after the body at position `n`: where the position starts a row block
    (n ≡ 0 mod 16) the block product added to the cleared accumulator, elsewhere added to what the position before left. -/
def acc0 (c : Dev nD) : (n : ℕ) → n < cfg0.N → Vec F S1024x512 .f32
  | 0, hn => k0_pay2 (iblk0 V c 0 ⟨0, hn⟩) (k0_pay1 (F := F)) (iblk0 V c 1 ⟨0, hn⟩)
  | n + 1, hn =>
    if (n + 1) % 16 = 0 then k0_pay2 (iblk0 V c 0 ⟨n + 1, hn⟩) (k0_pay1 (F := F)) (iblk0 V c 1 ⟨n + 1, hn⟩)
    else k0_pay2 (iblk0 V c 0 ⟨n + 1, hn⟩) (acc0 c n (Nat.lt_of_succ_lt hn)) (iblk0 V c 1 ⟨n + 1, hn⟩)

/-- What the body stores into the output window's buffer at a position that ends a row block (n ≡ 15 mod 16): the
    layer's output block from the accumulator, the first weight half, the destination rows and the second weight half.
    (At the other positions the body stores nothing there and the buffer is not written back.) -/
def out0At (c : Dev nD) (n : ℕ) (hn : n < cfg0.N) : Vec F S1024x512 .f32 :=
  k0_pay3 (acc0 V c n hn) (iblk0 V c 3 ⟨n, hn⟩) (iblk0 V c 2 ⟨n, hn⟩) (iblk0 V c 4 ⟨n, hn⟩)

/-- The second call's staging buffers, scoped buffers this call does not use, each whole at some contents. -/
def scOthers0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The invariant before position `n`: before the first position every scoped buffer that is no staging buffer of this
    call at some contents and the generator register at some state; afterwards the same with the scratch at what the
    position before left in it. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ scOthers0 c ∗ (∃ r, prngReg c r))

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0At V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0At V c t.val t.isLt := by dsimp only [dat0]

/-- The accumulator at a position that starts a row block. -/
theorem acc0_start (c : Dev nD) (t : Fin cfg0.N) (h : t.val % 16 = 0) :
    acc0 V c t.val t.isLt = k0_pay2 (iblk0 V c 0 t) (k0_pay1 (F := F)) (iblk0 V c 1 t) := by
  obtain ⟨n, hn⟩ := t
  cases n with
  | zero => rfl
  | succ n => exact if_pos h

/-- The accumulator at any other position, over what the position before left. -/
theorem acc0_step (c : Dev nD) (t : Fin cfg0.N) (h : ¬t.val % 16 = 0) :
    acc0 V c t.val t.isLt = k0_pay2 (iblk0 V c 0 t) (acc0 V c (t.val - 1) (Nat.lt_of_le_of_lt (Nat.sub_le _ _) t.isLt)) (iblk0 V c 1 t) := by
  obtain ⟨n, hn⟩ := t
  cases n with
  | zero => exact absurd (Nat.zero_mod _) h
  | succ n => exact if_neg h

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ scOthers0 c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ scOthers0 c ∗ (∃ r, prngReg c r)) := by
  cases n with
  | zero => exact absurd rfl hz
  | succ n => rfl

/-- The invariant at a position's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- The class invariant with the scratch as a memref owned at some contents. -/
theorem PhiA0_eq (c : Dev nD) :
    (Pipeline.ΦA spec0 c : sProp 𝕄)
      = iprop(iprop((∃ d, owns (c : Thread nD τ) scM0 fullShare d) ∗ scOthers0 c) ∗ (∃ r, prngReg c r)) := by
  unfold Pipeline.ΦA scOthers0; rw [scopedRest0_eq]; simp only [scM0, owns_whole]; try rfl

end Cert.Kernel.Gen

end
-- ==== Proof.K.Body0.lean ====
/-
  The first pallas_call's body, position by position. The body's two conditionals depend on the inner grid coordinate
  k alone (position t = 16·i + k): the first is taken where k = 0, the second where k = 15. So three cases occur. A
  position that starts a row block clears the scratch accumulator and adds the product of the two input blocks to it;
  a position inside a row block adds the product to what the position before left; a position that ends a row block
  does the same and then stores the layer's output block, computed from that sum, the two weight halves and the
  destination rows, over the output window's buffer. Here: the two conditions and the windows' idle table in closed
  form over the grid; what the body finds in the inputs' buffers; the body's triple in each case, on any whole
  memrefs, every load and store going through its whole buffer; the body obligation of the proof data `dat0`; and the
  invariant at the call's two ends.
-/
import proofs.«424208_j60103772340409_3_alg».proof.Proof.K.Defs0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals over the grid -/

/-- The first conditional's condition (the position starts a row block: inner coordinate 0), as the body computes it
    from the grid coordinates. -/
abbrev startsRow0 (i : grid0.Coords) : Prop :=
  (Scalar.cmpi .ne (Scalar.extui (Scalar.cmpi .eq (BitVec.ofNat 32 (i 1).val) 0#32)) 0#32) = 1#1

/-- It holds exactly at the positions ≡ 0 (mod 16). -/
theorem startsRow0_iff : ∀ t : Fin cfg0.N, startsRow0 (grid0.coords t) ↔ t.val % 16 = 0 :=
  (by decide +kernel : ∀ t : Fin grid0.N, startsRow0 (grid0.coords t) ↔ t.val % 16 = 0)

/-- The second conditional's condition (the position ends a row block: inner coordinate 15). -/
abbrev endsRow0 (i : grid0.Coords) : Prop := k0_cond2 i = 1#1

/-- It holds exactly at the positions ≡ 15 (mod 16). -/
theorem endsRow0_iff : ∀ t : Fin cfg0.N, endsRow0 (grid0.coords t) ↔ t.val % 16 = 15 :=
  (by decide +kernel : ∀ t : Fin grid0.N, endsRow0 (grid0.coords t) ↔ t.val % 16 = 15)

/-! ## Where the windows are idle -/

/-- The five inputs are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel

/-- The output window is idle at the positions that do not end a row block: nothing is stored into it there, -/
theorem idle0_5 : ∀ t : Fin cfg0.N, ¬t.val % 16 = 15 → cfg0.idle 5 (grid0.coords t) = true :=
  (by decide +kernel : ∀ t : Fin grid0.N, ¬t.val % 16 = 15 → cfg0.idle 5 (grid0.coords t) = true)

/-- nor is its block written back there; -/
theorem noFlush0_5 (t : Fin cfg0.N) (h : ¬t.val % 16 = 15) : (cfg0.win 5).flush t = false :=
  Bool.eq_false_iff.mpr fun hf => h ((flush0_5 t).mp hf)

/-- and live at the positions that end one. -/
theorem live0_5 : ∀ t : Fin cfg0.N, t.val % 16 = 15 → cfg0.idle 5 (grid0.coords t) = false :=
  (by decide +kernel : ∀ t : Fin grid0.N, t.val % 16 = 15 → cfg0.idle 5 (grid0.coords t) = false)

/-! ## The body's loads and stores: whole buffers at zero offsets -/

/-- The offsets of every load and store of the body are zero. -/
theorem offs0_zero : (![0, 0] : Fin 2 → Nat) = fun _ => 0 := by
  funext a; fin_cases a <;> rfl

/-! ## The body, case by case, on any whole memrefs -/

set_option maxHeartbeats 1000000 in
/-- A position that starts a row block (and does not end one): the scratch, whatever it held, is cleared, then the
    product of the two input blocks is added to it; the other operands are not touched. -/
theorem run0_A (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole)
    (hc0 : startsRow0 i) (hc1 : ¬endsRow0 i)
    (x0 : Vec F S1024x2048 .f32) (x1 : Vec F S2048x512 .bf16)
    (E : Set ℕ) (K : PUnit → sProp 𝕄) :
    iprop(owns (c : Thread nD τ) arg2 fullShare x0 ∗ owns (c : Thread nD τ) arg3 fullShare x1 ∗ (∃ d, owns (c : Thread nD τ) arg8 fullShare d)
        ∗ (iprop(owns (c : Thread nD τ) arg2 fullShare x0 ∗ owns (c : Thread nD τ) arg3 fullShare x1
            ∗ owns (c : Thread nD τ) arg8 fullShare (k0_pay2 x0 (k0_pay1 (F := F)) x1)) -∗ K ⟨⟩))
      ⊢ wp frame (wpE (defs₀ (F := F)) Variants.none c none) E (cc0__layer1_kernel i arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  -- two whole-buffer stores, the later over the earlier; the later's payload read the cleared accumulator back
  rw [View.read_writes_eq_canon _ _ _ (fun y => ⟨_, List.mem_cons_self, View.mem_set_unit_zero offs0_zero inb_S1024x512_S1024x512_0_0 y⟩)]
  rw [View.canon_cons_unit_zero offs0_zero]
  simp only [View.readAt_eq_ld, harg2.read_unread, harg3.read_unread]
  rw [View.readCov_unit_zero (S := S1024x512) _ offs0_zero, View.ld_unit_zero (S := S1024x2048) offs0_zero, View.ld_unit_zero (S := S2048x512) offs0_zero]

set_option maxHeartbeats 1000000 in
/-- A position inside a row block: the product of the two input blocks is added to what the scratch held. -/
theorem run0_B (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole)
    (hc0 : ¬startsRow0 i) (hc1 : ¬endsRow0 i)
    (x0 : Vec F S1024x2048 .f32) (x1 : Vec F S2048x512 .bf16) (xs : Vec F S1024x512 .f32)
    (E : Set ℕ) (K : PUnit → sProp 𝕄) :
    iprop(owns (c : Thread nD τ) arg2 fullShare x0 ∗ owns (c : Thread nD τ) arg3 fullShare x1 ∗ owns (c : Thread nD τ) arg8 fullShare xs
        ∗ (iprop(owns (c : Thread nD τ) arg2 fullShare x0 ∗ owns (c : Thread nD τ) arg3 fullShare x1
            ∗ owns (c : Thread nD τ) arg8 fullShare (k0_pay2 x0 xs x1)) -∗ K ⟨⟩))
      ⊢ wp frame (wpE (defs₀ (F := F)) Variants.none c none) E (cc0__layer1_kernel i arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  -- one whole-buffer store of the sum over the loaded contents
  rw [View.read_writes_eq_canon _ _ _ (fun y => ⟨_, List.mem_singleton_self _, View.mem_set_unit_zero offs0_zero inb_S1024x512_S1024x512_0_0 y⟩)]
  rw [View.canon_unit_zero offs0_zero]
  simp only [View.readAt_eq_ld, harg2.read_unread, harg3.read_unread, harg8.read_unread]
  rw [View.ld_unit_zero (S := S1024x2048) offs0_zero, View.ld_unit_zero (S := S1024x512) offs0_zero, View.ld_unit_zero (S := S2048x512) offs0_zero]

set_option maxHeartbeats 1000000 in
/-- A position that ends a row block: the product is added to what the scratch held, and the layer's output block,
    computed from that sum, the two weight halves and the destination rows, is stored over the output buffer,
    whatever it held. -/
theorem run0_C (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole)
    (hc0 : ¬startsRow0 i) (hc1 : endsRow0 i)
    (x0 : Vec F S1024x2048 .f32) (x1 : Vec F S2048x512 .bf16) (x2 : Vec F S1024x512 .bf16) (x3 : Vec F S512x512 .bf16)
    (x4 : Vec F S512x512 .bf16) (xs : Vec F S1024x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay3 (k0_pay2 x0 xs x1) x3 x2 x4)
            ∗ owns (c : Thread nD τ) arg8 fullShare (k0_pay2 x0 xs x1)) -∗ K ⟨⟩))
      ⊢ wp frame (wpE (defs₀ (F := F)) Variants.none c none) E (cc0__layer1_kernel i arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%dout, %fout, -, HO⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HO]
  · iexists _; isplitr
    swap; · iexact HO
    ipureintro
    sl_unfold_words
    -- one whole-buffer store of the output block; its first operand is the scratch read back after the sum's store
    rw [View.read_writes_eq_canon _ _ _ (fun y => ⟨_, List.mem_singleton_self _, View.mem_set_unit_zero offs0_zero inb_S1024x512_S1024x512_0_0 y⟩)]
    rw [View.canon_unit_zero offs0_zero]
    simp only [View.readAt_eq_ld, harg2.read_unread, harg3.read_unread, harg4.read_unread, harg5.read_unread,
      harg6.read_unread, harg8.read_unread]
    rw [View.readCov_unit_zero (S := S1024x512) _ offs0_zero, View.ld_unit_zero (S := S1024x2048) offs0_zero, View.ld_unit_zero (S := S1024x512) offs0_zero, View.ld_unit_zero (S := S2048x512) offs0_zero,
      View.ld_unit_zero (S := S512x512) offs0_zero, View.ld_unit_zero (S := S1024x512) offs0_zero, View.ld_unit_zero (S := S512x512) offs0_zero]
  iexists _; isplitr
  swap; · iexact HS
  ipureintro
  sl_unfold_words
  rw [View.read_writes_eq_canon _ _ _ (fun y => ⟨_, List.mem_singleton_self _, View.mem_set_unit_zero offs0_zero inb_S1024x512_S1024x512_0_0 y⟩)]
  rw [View.canon_unit_zero offs0_zero]
  simp only [View.readAt_eq_ld, harg2.read_unread, harg3.read_unread, harg8.read_unread]
  rw [View.ld_unit_zero (S := S1024x2048) offs0_zero, View.ld_unit_zero (S := S1024x512) offs0_zero, View.ld_unit_zero (S := S2048x512) offs0_zero]

variable (V : (c : Dev nD) → (b : Ref sig .tc) → Buf (Elt F) ((c : Thread nD τ).loc b))

/-! ## What the body finds in the inputs' buffers -/

/-- Each input's current staging buffer holds the window's block at every position, fetched there or not (a window
    not fetched at a position has the block index it had at the position before; none is cut, none is ever idle). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation -/

/-- Each window's current staging memref at position `t`, as the pipeline passes it to the body, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)

/-- What the body is called with at position `t`: the invariant, what the core owes, every window's current buffer at
    what it then holds, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any position. The inputs' buffers hold their blocks; the position's residue mod 16 says which case it
    is in. The invariant hands the body the scratch at what the position before left (at anything before the first
    position) and takes it back at this position's sum; the output buffer is handed back untouched where the position
    does not end a row block (idle there and not written back), and holds the output block where it does. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  by_cases h0 : t.val % 16 = 0
  · have h1 : ¬t.val % 16 = 15 := by omega
    rw [Dat.leavesExact_idle (dat0 V c) 5 t (idle0_5 t h1) (noFlush0_5 t h1)]
    rw [acc0_start V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, H5⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((startsRow0_iff t).mpr h0) (fun h => h1 ((endsRow0_iff t).mp h)) (iblk0 V c 0 t) (iblk0 V c 1 t) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS0_castSucc V c t, PhiS0_pos V c _ _ hz]
      iintro ⟨⟨HS, Hoth, Hg⟩, Ho, ⟨%d0, H0⟩, ⟨%d1, H1⟩, ⟨%d2, H2⟩, ⟨%d3, H3⟩, ⟨%d4, H4⟩, H5⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((startsRow0_iff t).mpr h0) (fun h => h1 ((endsRow0_iff t).mp h)) (iblk0 V c 0 t) (iblk0 V c 1 t) Set.univ _)
      isplitl [H0]; · iexact H0
      isplitl [H1]; · iexact H1
      isplitl [HS]; · iexists _; iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [acc0_step V c t h0]
    rw [PhiS0_castSucc V c t, PhiS0_pos V c _ _ hz]
    by_cases h1 : t.val % 16 = 15
    · rw [show (dat0 V c).leavesExact 5 t = owns (c : Thread nD τ) (ms0_5 t) fullShare ((dat0 V c).after 5 t) from by
        unfold Dat.leavesExact; rw [live0_5 t h1], after0_5]
      unfold out0At
      rw [acc0_step V c t h0]
      iintro ⟨⟨HS, Hoth, Hg⟩, Ho, ⟨%d0, H0⟩, ⟨%d1, H1⟩, ⟨%d2, H2⟩, ⟨%d3, H3⟩, ⟨%d4, H4⟩, ⟨%d5, H5⟩⟩
      iapply (run0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((startsRow0_iff t).mp h)) ((endsRow0_iff t).mpr h1) (iblk0 V c 0 t) (iblk0 V c 1 t) (iblk0 V c 2 t) (iblk0 V c 3 t) (iblk0 V c 4 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idle0_5 t h1) (noFlush0_5 t h1)]
      iintro ⟨⟨HS, Hoth, Hg⟩, Ho, ⟨%d0, H0⟩, ⟨%d1, H1⟩, ⟨%d2, H2⟩, ⟨%d3, H3⟩, ⟨%d4, H4⟩, H5⟩
      iapply (run0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((startsRow0_iff t).mp h)) (fun h => h1 ((endsRow0_iff t).mp h)) (iblk0 V c 0 t) (iblk0 V c 1 t) (acc0 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every position. -/
theorem body_obligation0 (c : Dev nD) : BodyObligation (dat0 (F := F) V c) (defs₀ (F := F)) Variants.none () Set.univ := fun t => by
  rw [bigSep_W0, bigSep_W0]
  exact sound_body0 V c t

/-! ## The invariant at the call's two ends -/

/-- What the launch hands the call is the invariant before the first position. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last position the invariant gives it back: what the scratch holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨HS, Hoth, Hg⟩
  isplitl [HS Hoth]
  · isplitl [HS]; · iexists _; iexact HS
    iexact Hoth
  iexact Hg

end Cert.Kernel.Gen

end
-- ==== Proof.K.Defs1.lean ====
/-
  The second pallas_call (the second layer, the classifier and the softmax) as the pipeline runs it: its seven
  windows' blocks at a grid point, what the body leaves in the output window's buffer, and the proof data the
  launch theorem takes. The grid has two points; point t works on rows 256·t … 256·t + 255. Everything is stated
  at a parameter V, the contents of the core's buffers when the call is entered.
-/
import proofs.«424208_j60103772340409_3_alg».proof.Proof.Gen.Kernel.Launch
import proofs.«424208_j60103772340409_3_alg».proof.Proof.Gen.Kernel.Skeleton
import proofs.«424208_j60103772340409_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_dif : Rect S256x3584 := Rect.unit (s := S256x3584) ![0, 0] S256x3584.size inb_S256x3584_S256x3584_0_0
abbrev r1_src : Rect S3584x512 := Rect.unit (s := S3584x512) ![0, 0] S3584x512.size inb_S3584x512_S3584x512_0_0
abbrev r1_dst : Rect S256x512 := Rect.unit (s := S256x512) ![0, 0] S256x512.size inb_S256x512_S256x512_0_0
abbrev r1_w : Rect S512x512 := Rect.unit (s := S512x512) ![0, 0] S512x512.size inb_S512x512_S512x512_0_0
abbrev r1_cls : Rect S512x128 := Rect.unit (s := S512x128) ![0, 0] S512x128.size inb_S512x128_S512x128_0_0
abbrev r1_out : Rect S256x128 := Rect.unit (s := S256x128) ![0, 0] S256x128.size inb_S256x128_S256x128_0_0

/-- The output window's buffer after the body, from the six input blocks (diffusion rows, source rows, destination
    rows, the two halves of the layer's weights, the classifier's weights): its one store. -/
def out1_6 (xdif : Vec F S256x3584 .bf16) (xsrc : Vec F S3584x512 .bf16) (xdst : Vec F S256x512 .bf16)
    (wa : Vec F S512x512 .bf16) (wb : Vec F S512x512 .bf16) (wc : Vec F S512x128 .bf16) : Vec F S256x128 .f32 :=
  View.canon [⟨r1_out, k1_pay1 (View.ld xdif r1_dif) (View.ld xsrc r1_src) (View.ld wa r1_w) (View.ld xdst r1_dst) (View.ld wb r1_w) (View.ld wc r1_cls)⟩]

/-- The proof data of the second call on core `c`: the arrays as the call finds them; after the body at point `t`
    each input's buffer at its block and the output's at `out1_6` of the input blocks; nothing of the kernel's own
    carried between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

end Cert.Kernel.Gen

end
-- ==== Proof.K.Body1.lean ====
/-
  The body of the second pallas_call (the second layer, the classifier and the softmax) at a grid point. The body
  reads its six input windows' buffers whole, computes the 256 output rows of the point, and writes the output
  window's buffer whole; it carries nothing from one point to the next. Three facts, at the buffer contents V the
  call is entered with: each input's buffer holds that input's block at the point, whether the transfer ran at this
  point or at an earlier one; the body, run on buffers holding any six blocks, leaves the inputs as they were and
  the output's buffer at out1_6 of them; and hence the obligation the launch theorem asks of the body at every point.
-/
import proofs.«424208_j60103772340409_3_alg».proof.Proof.K.Defs1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows -/

/-- The block the transfer of window `w` reads at point `t` is `iblk1`: the proof data's arrays are `V`'s. -/
theorem blockOf1 (c : Dev nD) (w : Fin cfg1.W) (t : Fin cfg1.N) : (dat1 V c).blockOf w t = iblk1 V c w t := by
  unfold Dat.blockOf iblk1
  rw [A_eq1]

/-- The diffusion rows' window moves at every point, and its buffer holds rows 256·t … 256·t + 255 of the
    diffusion matrix. No window of this call is cut short at the array's edge and none is ever idle, and the body
    leaves an input's block where it found it; so the buffer holds the block of the point. -/
theorem before1_0 (c : Dev nD) (t : Fin cfg1.N) (d) : (dat1 V c).before 0 t d = iblk1 V c 0 t := by
  rw [(dat1 V c).before_in_eq_fetched 0 rfl (fun _ => rfl) (fun _ _ _ => rfl)
    (fun s => by rw [after1_0, blockOf1]) t d]
  unfold Dat.fetched
  rw [blockOf1]; rfl

/-- The source rows (all 3584 of them) are brought in at the first point only; at the second point the block index
    has not moved, and the buffer still holds the same rows. -/
theorem before1_1 (c : Dev nD) (t : Fin cfg1.N) (d) : (dat1 V c).before 1 t d = iblk1 V c 1 t := by
  rw [(dat1 V c).before_in_eq_fetched 1 rfl (fun _ => rfl) (fun _ _ _ => rfl)
    (fun s => by rw [after1_1, blockOf1]) t d]
  unfold Dat.fetched
  rw [blockOf1]; rfl

/-- The destination rows' window moves at every point: rows 256·t … 256·t + 255 of the first layer's output. -/
theorem before1_2 (c : Dev nD) (t : Fin cfg1.N) (d) : (dat1 V c).before 2 t d = iblk1 V c 2 t := by
  rw [(dat1 V c).before_in_eq_fetched 2 rfl (fun _ => rfl) (fun _ _ _ => rfl)
    (fun s => by rw [after1_2, blockOf1]) t d]
  unfold Dat.fetched
  rw [blockOf1]; rfl

/-- The first half of the layer's weights: one block, brought in once. -/
theorem before1_3 (c : Dev nD) (t : Fin cfg1.N) (d) : (dat1 V c).before 3 t d = iblk1 V c 3 t := by
  rw [(dat1 V c).before_in_eq_fetched 3 rfl (fun _ => rfl) (fun _ _ _ => rfl)
    (fun s => by rw [after1_3, blockOf1]) t d]
  unfold Dat.fetched
  rw [blockOf1]; rfl

/-- The second half of the layer's weights: one block, brought in once. -/
theorem before1_4 (c : Dev nD) (t : Fin cfg1.N) (d) : (dat1 V c).before 4 t d = iblk1 V c 4 t := by
  rw [(dat1 V c).before_in_eq_fetched 4 rfl (fun _ => rfl) (fun _ _ _ => rfl)
    (fun s => by rw [after1_4, blockOf1]) t d]
  unfold Dat.fetched
  rw [blockOf1]; rfl

/-- The classifier's weights: one block, brought in once. -/
theorem before1_5 (c : Dev nD) (t : Fin cfg1.N) (d) : (dat1 V c).before 5 t d = iblk1 V c 5 t := by
  rw [(dat1 V c).before_in_eq_fetched 5 rfl (fun _ => rfl) (fun _ _ _ => rfl)
    (fun s => by rw [after1_5, blockOf1]) t d]
  unfold Dat.fetched
  rw [blockOf1]; rfl

/-! ## The body on buffers holding any six blocks -/

/-- The body's one store writes all 256 × 128 entries of the output buffer, so whatever the buffer held before
    is gone: every index lies in the stored rectangle. -/
theorem cover1_6 (p : Vec F S256x128 .f32) (y : S256x128.Idx) :
    ∃ pc ∈ ([⟨r1_out, p⟩] : List (View.Piece (Elt F) S256x128 .f32)), y ∈ pc.1.set :=
  View.cover_of_tiled [⟨r1_out, p⟩] S256x128.size (by rfl) y

set_option maxHeartbeats 1000000 in
/-- The body run on whole buffers: the six inputs' reading `x0` … `x5` (diffusion rows, source rows, destination
    rows, the two weight halves, the classifier's weights) and the output's holding anything. It reads the six inputs
    whole, reads the output's old contents (and makes no use of them), and stores the softmax rows over the whole
    output buffer. The inputs are left as they were, and the output buffer reads `out1_6 x0 x1 x2 x3 x4 x5`: the
    payload is computed from the loads in the order diffusion, source, first weight half, destination, second weight
    half, classifier, which is how `out1_6` hands its arguments on. -/
theorem sound_kernel1 (c : Dev nD) (E : Set ℕ) (i : grid1.Coords)
    (arg1 : Memref sig .tc .vmem S256x3584 .bf16) (harg1 : arg1.IsWhole)
    (arg2 : Memref sig .tc .vmem S3584x512 .bf16) (harg2 : arg2.IsWhole)
    (arg3 : Memref sig .tc .vmem S256x512 .bf16) (harg3 : arg3.IsWhole)
    (arg4 : Memref sig .tc .vmem S512x512 .bf16) (harg4 : arg4.IsWhole)
    (arg5 : Memref sig .tc .vmem S512x512 .bf16) (harg5 : arg5.IsWhole)
    (arg6 : Memref sig .tc .vmem S512x128 .bf16) (harg6 : arg6.IsWhole)
    (arg7 : Memref sig .tc .vmem S256x128 .f32) (harg7 : arg7.IsWhole)
    (x0 : Vec F S256x3584 .bf16) (x1 : Vec F S3584x512 .bf16) (x2 : Vec F S256x512 .bf16)
    (x3 : Vec F S512x512 .bf16) (x4 : Vec F S512x512 .bf16) (x5 : Vec F S512x128 .bf16)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__layer2_kernel i arg1 harg1 arg2 harg2 arg3 harg3 arg4 harg4 arg5 harg5 arg6 harg6 arg7 harg7) K := by
  simp only [cc1__layer2_kernel_eq_skeleton]; unfold cc1__layer2_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

/-! ## The obligation at a grid point -/

/-- What the body is handed at point `t`: the call's invariant and dues, and each window's current buffer at what
    it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back: the same invariant and dues, and each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at point `t`. The six input buffers hold the six blocks of the point (`before1_0` … `before1_5`), so the
    body's run on any six blocks applies at them; what it leaves is what the proof data names; the invariant and the
    dues are not touched and do not depend on the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorem asks of the body, at every point of the grid: the seven windows written out
    one by one, it is `sound_body1`. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Run.lean ====
/-
  The program's run, from the two pallas_calls' body obligations.

  Between @main's items every unscoped buffer of a core is held at named contents: the launch memory, then each stretch
  of host lines applied, and at each pallas_call its result buffer replaced by what the call's write-backs leave (the
  proof data's array after the last grid point). The first call is entered at the contents after the sixth stretch and
  leaves X0 in its result buffer; the second is entered at the contents four stretches later (which read X0) and leaves
  X1. Each call is a segment of the launch theorem: its arrays are split out of the unscoped buffers at entry and put
  back at exit; the generator register and the scoped buffers pass through the call's invariant; nothing is owed between
  cores. The run's post: every unscoped buffer ends at the last contents — from which the frame (the arguments are
  never written) and the result's value (X1) are read.
-/
import proofs.«424208_j60103772340409_3_alg».proof.Proof.K.Defs0
import proofs.«424208_j60103772340409_3_alg».proof.Proof.K.Defs1
import proofs.«424208_j60103772340409_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- The contents the first call is entered at, read at the TensorCore's references. -/
abbrev Vin0 : (c : Dev nD) → (b : Ref sig .tc) → Buf (Elt F) ((c : Thread nD τ).loc b) := fun c b => V6 m c b

/-- What the first call leaves in its result buffer. -/
abbrev X0 (c : Dev nD) : Buf (Elt F) ((c : Thread nD τ).loc main_v10) := (dat0 (Vin0 m) c).arrAt 5 cfg0.N

/-- The calls' results with only the first call's named. -/
def outs0 : Outs (F := F) := fun _ r c => if h : r = main_v10 then h ▸ X0 m c else V6 m c r

/-- The contents the second call is entered at. -/
abbrev Vin1 : (c : Dev nD) → (b : Ref sig .tc) → Buf (Elt F) ((c : Thread nD τ).loc b) := fun c b => V11 m (outs0 m) c b

/-- What the second call leaves in its result buffer. -/
abbrev X1 (c : Dev nD) : Buf (Elt F) ((c : Thread nD τ).loc main_v21) := (dat1 (Vin1 m) c).arrAt 6 cfg1.N

/-- What the two calls leave. -/
def outsF : Outs (F := F) := fun J r c => if h : r = main_v21 then h ▸ X1 m c else outs0 m J r c

theorem outs0_v10 (c : Dev nD) : outs0 m 7 main_v10 c = X0 m c := by
  unfold outs0; rw [dif_pos rfl]

theorem outsF_v10 (c : Dev nD) : outsF m 7 main_v10 c = X0 m c := by
  unfold outsF; rw [dif_neg (by decide)]; exact outs0_v10 m c

theorem outsF_v21 (c : Dev nD) : outsF m 12 main_v21 c = X1 m c := by
  unfold outsF; rw [dif_pos rfl]

/-- The second call's entry contents do not depend on what the second call leaves. -/
theorem V11_outsF (c : Dev nD) : V11 m (outsF m) c = V11 m (outs0 m) c := by
  show StableHlo.after hostOps1_3 (StableHlo.after hostOps1_2 (StableHlo.after hostOps1_1 (StableHlo.after hostOps1
      (Function.update (V6 m c) main_v10 (outsF m 7 main_v10 c))))) = StableHlo.after hostOps1_3 (StableHlo.after hostOps1_2
      (StableHlo.after hostOps1_1 (StableHlo.after hostOps1 (Function.update (V6 m c) main_v10 (outs0 m 7 main_v10 c)))))
  rw [outsF_v10, outs0_v10]

/-! ## The proof data family and what rides beside the buffers -/

/-- Every pipeline's proof data, each at its call's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No core owes another anything: no level is assigned. -/
abbrev Lv0 : GSem nD τ sig → Finset Unit := fun _ => ∅
abbrev lv0 : GSem nD τ sig → Unit → ℕ := fun _ _ => 0

/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-! ## The calls' exits: their arrays at what they leave, everything else as entered -/

/-- The first call's result buffer after the call holds what the call leaves. -/
theorem V7_v10 (outs : Outs (F := F)) (c : Dev nD) : V7 m outs c main_v10 = outs 7 main_v10 c :=
  Function.update_self (Proc.devRef .tc main_v10) (outs 7 main_v10 c) (V6 m c)

/-- The second call's result buffer after the call holds what the call leaves. -/
theorem V12_v21 (outs : Outs (F := F)) (c : Dev nD) : V12 m outs c main_v21 = outs 12 main_v21 c :=
  Function.update_self (Proc.devRef .tc main_v21) (outs 12 main_v21 c) (V11 m outs c)

theorem hF0 (c : Dev nD) : ∀ w : Fin cfg0.W, (dat0 (Vin0 m) c).arrAt w cfg0.N = V7 m (outsF m) c (Pipeline.arrRef spec0 w)
  | 0 => ((dat0 (Vin0 m) c).arrAt_in 0 rfl _).trans ((A_eq0 (Vin0 m) c 0).trans (V7_of m (outsF m) c _ (by decide)).symm)
  | 1 => ((dat0 (Vin0 m) c).arrAt_in 1 rfl _).trans ((A_eq0 (Vin0 m) c 1).trans (V7_of m (outsF m) c _ (by decide)).symm)
  | 2 => ((dat0 (Vin0 m) c).arrAt_in 2 rfl _).trans ((A_eq0 (Vin0 m) c 2).trans (V7_of m (outsF m) c _ (by decide)).symm)
  | 3 => ((dat0 (Vin0 m) c).arrAt_in 3 rfl _).trans ((A_eq0 (Vin0 m) c 3).trans (V7_of m (outsF m) c _ (by decide)).symm)
  | 4 => ((dat0 (Vin0 m) c).arrAt_in 4 rfl _).trans ((A_eq0 (Vin0 m) c 4).trans (V7_of m (outsF m) c _ (by decide)).symm)
  | 5 => ((V7_v10 m (outsF m) c).trans (outsF_v10 m c)).symm
  | ⟨_ + 6, h⟩ => absurd h (Nat.not_lt.2 (Nat.le_add_left _ _))

theorem hrest0 (c : Dev nD) : ∀ b : Ref sig .tc, b ∉ Finset.univ.image (Pipeline.arrRef spec0) →
    (fun b : Ref sig .tc => V7 m (outsF m) c b) b = Vin0 m c b := fun b hb =>
  V7_of m (outsF m) c b fun h => hb (Finset.mem_image.mpr ⟨5, Finset.mem_univ _, (List.mem_singleton.mp h).symm⟩)

/-- Outside the second call's result buffer the last contents are the second call's entry contents. -/
theorem V12_eq_Vin1 (c : Dev nD) (r : Ref sig .tc) (hr : r ∉ ([main_v21] : List (Ref sig .tc))) : V12 m (outsF m) c r = Vin1 m c r :=
  (V12_of m (outsF m) c r hr).trans (congrFun (V11_outsF m c) _)

theorem hF1 (c : Dev nD) : ∀ w : Fin cfg1.W, (dat1 (Vin1 m) c).arrAt w cfg1.N = V12 m (outsF m) c (Pipeline.arrRef spec1 w)
  | 0 => ((dat1 (Vin1 m) c).arrAt_in 0 rfl _).trans ((A_eq1 (Vin1 m) c 0).trans (V12_eq_Vin1 m c _ (by decide)).symm)
  | 1 => ((dat1 (Vin1 m) c).arrAt_in 1 rfl _).trans ((A_eq1 (Vin1 m) c 1).trans (V12_eq_Vin1 m c _ (by decide)).symm)
  | 2 => ((dat1 (Vin1 m) c).arrAt_in 2 rfl _).trans ((A_eq1 (Vin1 m) c 2).trans (V12_eq_Vin1 m c _ (by decide)).symm)
  | 3 => ((dat1 (Vin1 m) c).arrAt_in 3 rfl _).trans ((A_eq1 (Vin1 m) c 3).trans (V12_eq_Vin1 m c _ (by decide)).symm)
  | 4 => ((dat1 (Vin1 m) c).arrAt_in 4 rfl _).trans ((A_eq1 (Vin1 m) c 4).trans (V12_eq_Vin1 m c _ (by decide)).symm)
  | 5 => ((dat1 (Vin1 m) c).arrAt_in 5 rfl _).trans ((A_eq1 (Vin1 m) c 5).trans (V12_eq_Vin1 m c _ (by decide)).symm)
  | 6 => ((V12_v21 m (outsF m) c).trans (outsF_v21 m c)).symm
  | ⟨_ + 7, h⟩ => absurd h (Nat.not_lt.2 (Nat.le_add_left _ _))

theorem hrest1 (c : Dev nD) : ∀ b : Ref sig .tc, b ∉ Finset.univ.image (Pipeline.arrRef spec1) →
    (fun b : Ref sig .tc => V12 m (outsF m) c b) b = Vin1 m c b := fun b hb =>
  V12_eq_Vin1 m c b fun h => hb (Finset.mem_image.mpr ⟨6, Finset.mem_univ _, (List.mem_singleton.mp h).symm⟩)

/-- What the first call's invariant is asked at its ends: before the first point it is made from the class's (the scoped
    buffers at some contents and the generator register), after the last point it gives that back. -/
abbrev HinΦ0 : Prop := ∀ c : Dev nD, (Pipeline.ΦA spec0 c : sProp 𝕄) ⊢ (dat0 (F := F) (Vin0 m) c).Φ 0
abbrev HoutΦ0 : Prop := ∀ c : Dev nD, (dat0 (F := F) (Vin0 m) c).Φ (Fin.last cfg0.N) ⊢ (Pipeline.ΦA spec0 c : sProp 𝕄)

/-! ## The calls as segments of the launch -/

section Segments

variable (hbody0 : ∀ c : Dev nD, BodyObligation (dat0 (F := F) (Vin0 m) c) (defs₀ (F := F)) Variants.none () Set.univ)
  (hinΦ0 : HinΦ0 (F := F) m) (houtΦ0 : HoutΦ0 (F := F) m)
  (hbody1 : ∀ c : Dev nD, BodyObligation (dat1 (F := F) (Vin1 m) c) (defs₀ (F := F)) Variants.none () Set.univ)

set_option backward.isDefEq.respectTransparency.types false in
/-- THE FIRST CALL over the thread state: entered from every unscoped buffer at the contents after the sixth stretch,
    left with its result buffer at X0. Its arrays are split out of the unscoped buffers and put back at the exit contents;
    the generator register goes into the call's invariant and comes back; the scratch accumulator's named contents are
    forgotten at the exit; nothing owed; no semaphore of the kernel's own. -/
def reg0 : Pipeline.RegionSeg (pcfgs (F := F)) adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (hbody0 c).loose
  hwaits := Pipeline.hwaits_of_owed_zero _ _ _ _ Lv0 lv0 0 fun _ _ => rfl
  pre c := iprop(StableHlo.held (c : Thread nD τ) (Pipeline.ucRefs τ sig) (V6 m c) ∗ Rr c)
  post c := iprop(StableHlo.held (c : Thread nD τ) (Pipeline.ucRefs τ sig) (V7 m (outsF m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (F := F) (Vin0 m) c).Φ 0 from rfl]
    refine .trans ?_ (hinΦ0 c)
    unfold Pipeline.ΦA
    iintro ⟨Hp, -, Hr⟩
    isplitl [Hr]; · iexact Hr
    iexact Hp
  hout c := by
    rw [Pipeline.ownSems0_none, show (pdats m 0 c).Φ (Fin.last _) = (dat0 (F := F) (Vin0 m) c).Φ (Fin.last cfg0.N) from rfl]
    refine (houtΦ0 c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b : Ref sig .tc => V7 m (outsF m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at the contents after the tenth stretch,
    left with its result buffer at X1 (the last contents). The kernel keeps nothing between points: its invariant is the
    scoped buffers at some contents and the generator register. -/
def reg1 : Pipeline.RegionSeg (pcfgs (F := F)) adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (hbody1 c).loose
  hwaits := Pipeline.hwaits_of_owed_zero _ _ _ _ Lv0 lv0 1 fun _ _ => rfl
  pre c := iprop(StableHlo.held (c : Thread nD τ) (Pipeline.ucRefs τ sig) (V11 m (outsF m) c) ∗ Rr c)
  post c := iprop(iprop(StableHlo.held (c : Thread nD τ) (Pipeline.ucRefs τ sig) (V12 m (outsF m) c) ∗ ∃ r, prngReg c r)
      ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V11_outsF m c]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b : Ref sig .tc => V12 m (outsF m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Segments

/-! ## The run -/

section TheRun

variable (hbody0 : ∀ c : Dev nD, BodyObligation (dat0 (F := F) (Vin0 m) c) (defs₀ (F := F)) Variants.none () Set.univ)
  (hinΦ0 : HinΦ0 (F := F) m) (houtΦ0 : HoutΦ0 (F := F) m)
  (hbody1 : ∀ c : Dev nD, BodyObligation (dat1 (F := F) (Vin1 m) c) (defs₀ (F := F)) Variants.none () Set.univ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hbody0 hinΦ0 houtΦ0 hbody1 in
set_option backward.isDefEq.respectTransparency.types false in
/-- THE RUN. From any memory with zero counters every weakly fair execution of @main on the TensorCores terminates,
    nothing faulting, and in every final state each unscoped buffer of each core holds the last contents: the launch
    memory, the host stretches applied in order, the two calls' result buffers at X0 and X1. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V12 m (outsF m) c b) := by
  refine Pipeline.θ_run_regions_kit_dev (pcfgs (F := F)) adm (pdats m) () cellOf_inj emb₁ defs₀ Variants.none Lv0 lv0 m ρ main
    (segs m (outsF m) Variants.none Lv0 lv0 (fun _ c => Rr c) () (pdats m) (reg0 m hbody0 hinΦ0 houtΦ0) (reg1 m hbody1))
    (fun c Q => by
      rewrite [main_chain c, Pipeline.Seg.run_eq_chain,
        show (segs m (outsF m) Variants.none Lv0 lv0 (fun _ c => Rr c) () (pdats m) (reg0 m hbody0 hinΦ0 houtΦ0) (reg1 m hbody1) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V12 m (outsF m) c) ∗ ∃ r, prngReg c r))
    (hch := fun c => ⟨.rfl, .rfl, .rfl, .rfl, .rfl, .rfl, .rfl, .rfl, .rfl, .rfl, .rfl, .rfl, .rfl⟩)
    (hinit := by
      refine Pipeline.initEach Lv0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (outsF m) c b)
    (hfin := fun c s' => by
      iintro ⟨⟨Hh, -⟩, HSI⟩
      unfold StableHlo.held
      imodintro
      iapply (pointsTo_read_all (Pipeline.ucRefs τ sig) (fun b => (((c : Thread nD τ)).1, b)) (V12 m (outsF m) c) s')
      isplitl [Hh] <;> iassumption)
    (hQ := fun s h => h)

include hbody0 hinΦ0 houtΦ0 hbody1 in
/-- THE FRAME: every execution terminates, nothing faulting, and every argument array ends as launched (no host line
    and no call writes one). -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (V12_main_arg0 m (outsF m) c),
    (h c _ (mem_uc main_arg1 (by decide))).trans (V12_main_arg1 m (outsF m) c),
    (h c _ (mem_uc main_arg2 (by decide))).trans (V12_main_arg2 m (outsF m) c),
    (h c _ (mem_uc main_arg3 (by decide))).trans (V12_main_arg3 m (outsF m) c),
    (h c _ (mem_uc main_arg4 (by decide))).trans (V12_main_arg4 m (outsF m) c),
    (h c _ (mem_uc main_arg5 (by decide))).trans (V12_main_arg5 m (outsF m) c),
    (h c _ (mem_uc main_arg6 (by decide))).trans (V12_main_arg6 m (outsF m) c),
    (h c _ (mem_uc main_arg7 (by decide))).trans (V12_main_arg7 m (outsF m) c),
    (h c _ (mem_uc main_arg8 (by decide))).trans (V12_main_arg8 m (outsF m) c),
    (h c _ (mem_uc main_arg9 (by decide))).trans (V12_main_arg9 m (outsF m) c),
    (h c _ (mem_uc main_arg10 (by decide))).trans (V12_main_arg10 m (outsF m) c)⟩)
    (run_all m ρ hbody0 hinΦ0 houtΦ0 hbody1)

include hbody0 hinΦ0 houtΦ0 hbody1 in
/-- THE RESULT: moreover the program's result buffer ends at what the second call leaves. -/
theorem run_value : θ_run defs (onTc (τ := τ) (main (F := F))) ⟨m, fun _ => 0, ρ⟩ (fun r => ∀ c : Dev nD,
      r.2.mem ((c.tc : Thread nD τ).loc main_v21) = X1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v21 (by decide))).trans ((V12_v21 m (outsF m) c).trans (outsF_v21 m c)),
    (h c _ (mem_uc main_arg0 (by decide))).trans (V12_main_arg0 m (outsF m) c),
    (h c _ (mem_uc main_arg1 (by decide))).trans (V12_main_arg1 m (outsF m) c),
    (h c _ (mem_uc main_arg2 (by decide))).trans (V12_main_arg2 m (outsF m) c),
    (h c _ (mem_uc main_arg3 (by decide))).trans (V12_main_arg3 m (outsF m) c),
    (h c _ (mem_uc main_arg4 (by decide))).trans (V12_main_arg4 m (outsF m) c),
    (h c _ (mem_uc main_arg5 (by decide))).trans (V12_main_arg5 m (outsF m) c),
    (h c _ (mem_uc main_arg6 (by decide))).trans (V12_main_arg6 m (outsF m) c),
    (h c _ (mem_uc main_arg7 (by decide))).trans (V12_main_arg7 m (outsF m) c),
    (h c _ (mem_uc main_arg8 (by decide))).trans (V12_main_arg8 m (outsF m) c),
    (h c _ (mem_uc main_arg9 (by decide))).trans (V12_main_arg9 m (outsF m) c),
    (h c _ (mem_uc main_arg10 (by decide))).trans (V12_main_arg10 m (outsF m) c)⟩)
    (run_all m ρ hbody0 hinΦ0 houtΦ0 hbody1)

end TheRun

end Cert.Kernel.Gen

end
-- ==== Proof.KI.Defs0.lean ====
/-
  The first pallas_call (the first layer) as the pipeline runs it. The grid is 4 × 16: point t = 16·i + k works on
  rows 1024·i … 1024·i + 1023 of the diffusion matrix and on its columns 2048·k … 2048·k + 2047. A scratch
  accumulator of the kernel's own is carried from point to point: cleared where k = 0, then a block product added at
  every point; where k = 15 the layer's output block is computed from it and stored. Here: the windows' blocks at a
  point, what the scratch and the output window's buffer hold after each point, the invariant that carries the
  scratch, and the proof data the launch theorem takes — all at a parameter V, the contents of the core's buffers
  when the call is entered.
-/
import proofs.«424208_j60103772340409_3_alg».proof.Proof.Gen.KernelIdeal.Launch
import proofs.«424208_j60103772340409_3_alg».proof.Proof.Gen.KernelIdeal.Skeleton
import proofs.«424208_j60103772340409_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The kernel's scratch accumulator, a whole scoped buffer of its own. -/
abbrev scM0 : Memref sig .tc .vmem S1024x512 .f32 := Memref.whole cc0_scratch0

/-- THE ACCUMULATION. What the scratch holds after the body at position `n`: where the position starts a row block
    (n ≡ 0 mod 16) the block product added to the cleared accumulator, elsewhere added to what the position before left. -/
def acc0 (c : Dev nD) : (n : ℕ) → n < cfg0.N → Vec F S1024x512 .f32
  | 0, hn => k0_pay2 (iblk0 V c 0 ⟨0, hn⟩) (k0_pay1 (F := F)) (iblk0 V c 1 ⟨0, hn⟩)
  | n + 1, hn =>
    if (n + 1) % 16 = 0 then k0_pay2 (iblk0 V c 0 ⟨n + 1, hn⟩) (k0_pay1 (F := F)) (iblk0 V c 1 ⟨n + 1, hn⟩)
    else k0_pay2 (iblk0 V c 0 ⟨n + 1, hn⟩) (acc0 c n (Nat.lt_of_succ_lt hn)) (iblk0 V c 1 ⟨n + 1, hn⟩)

/-- What the body stores into the output window's buffer at a position that ends a row block (n ≡ 15 mod 16): the
    layer's output block from the accumulator, the first weight half, the destination rows and the second weight half.
    (At the other positions the body stores nothing there and the buffer is not written back.) -/
def out0At (c : Dev nD) (n : ℕ) (hn : n < cfg0.N) : Vec F S1024x512 .f32 :=
  k0_pay3 (acc0 V c n hn) (iblk0 V c 3 ⟨n, hn⟩) (iblk0 V c 2 ⟨n, hn⟩) (iblk0 V c 4 ⟨n, hn⟩)

/-- The second call's staging buffers, scoped buffers this call does not use, each whole at some contents. -/
def scOthers0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The invariant before position `n`: before the first position every scoped buffer that is no staging buffer of this
    call at some contents and the generator register at some state; afterwards the same with the scratch at what the
    position before left in it. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ scOthers0 c ∗ (∃ r, prngReg c r))

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0At V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0At V c t.val t.isLt := by dsimp only [dat0]

/-- The accumulator at a position that starts a row block. -/
theorem acc0_start (c : Dev nD) (t : Fin cfg0.N) (h : t.val % 16 = 0) :
    acc0 V c t.val t.isLt = k0_pay2 (iblk0 V c 0 t) (k0_pay1 (F := F)) (iblk0 V c 1 t) := by
  obtain ⟨n, hn⟩ := t
  cases n with
  | zero => rfl
  | succ n => exact if_pos h

/-- The accumulator at any other position, over what the position before left. -/
theorem acc0_step (c : Dev nD) (t : Fin cfg0.N) (h : ¬t.val % 16 = 0) :
    acc0 V c t.val t.isLt = k0_pay2 (iblk0 V c 0 t) (acc0 V c (t.val - 1) (Nat.lt_of_le_of_lt (Nat.sub_le _ _) t.isLt)) (iblk0 V c 1 t) := by
  obtain ⟨n, hn⟩ := t
  cases n with
  | zero => exact absurd (Nat.zero_mod _) h
  | succ n => exact if_neg h

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare (acc0 V c n hn) ∗ scOthers0 c ∗ (∃ r, prngReg c r)) := rfl

theorem PhiS0_pos (c : Dev nD) (n : ℕ) (h : n ≤ cfg0.N) (hz : n ≠ 0) :
    PhiS0 V c n h = iprop(owns (c : Thread nD τ) scM0 fullShare (acc0 V c (n - 1) (by omega)) ∗ scOthers0 c ∗ (∃ r, prngReg c r)) := by
  cases n with
  | zero => exact absurd rfl hz
  | succ n => rfl

/-- The invariant at a position's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- The class invariant with the scratch as a memref owned at some contents. -/
theorem PhiA0_eq (c : Dev nD) :
    (Pipeline.ΦA spec0 c : sProp 𝕄)
      = iprop(iprop((∃ d, owns (c : Thread nD τ) scM0 fullShare d) ∗ scOthers0 c) ∗ (∃ r, prngReg c r)) := by
  unfold Pipeline.ΦA scOthers0; rw [scopedRest0_eq]; simp only [scM0, owns_whole]; try rfl

end Cert.KernelIdeal.Gen

end
-- ==== Proof.KI.Body0.lean ====
/-
  The first pallas_call's body, position by position. The body's two conditionals depend on the inner grid coordinate
  k alone (position t = 16·i + k): the first is taken where k = 0, the second where k = 15. So three cases occur. A
  position that starts a row block clears the scratch accumulator and adds the product of the two input blocks to it;
  a position inside a row block adds the product to what the position before left; a position that ends a row block
  does the same and then stores the layer's output block, computed from that sum, the two weight halves and the
  destination rows, over the output window's buffer. Here: the two conditions and the windows' idle table in closed
  form over the grid; what the body finds in the inputs' buffers; the body's triple in each case, on any whole
  memrefs, every load and store going through its whole buffer; the body obligation of the proof data `dat0`; and the
  invariant at the call's two ends.
-/
import proofs.«424208_j60103772340409_3_alg».proof.Proof.KI.Defs0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals over the grid -/

/-- The first conditional's condition (the position starts a row block: inner coordinate 0), as the body computes it
    from the grid coordinates. -/
abbrev startsRow0 (i : grid0.Coords) : Prop :=
  (Scalar.cmpi .ne (Scalar.extui (Scalar.cmpi .eq (BitVec.ofNat 32 (i 1).val) 0#32)) 0#32) = 1#1

/-- It holds exactly at the positions ≡ 0 (mod 16). -/
theorem startsRow0_iff : ∀ t : Fin cfg0.N, startsRow0 (grid0.coords t) ↔ t.val % 16 = 0 :=
  (by decide +kernel : ∀ t : Fin grid0.N, startsRow0 (grid0.coords t) ↔ t.val % 16 = 0)

/-- The second conditional's condition (the position ends a row block: inner coordinate 15). -/
abbrev endsRow0 (i : grid0.Coords) : Prop := k0_cond2 i = 1#1

/-- It holds exactly at the positions ≡ 15 (mod 16). -/
theorem endsRow0_iff : ∀ t : Fin cfg0.N, endsRow0 (grid0.coords t) ↔ t.val % 16 = 15 :=
  (by decide +kernel : ∀ t : Fin grid0.N, endsRow0 (grid0.coords t) ↔ t.val % 16 = 15)

/-! ## Where the windows are idle -/

/-- The five inputs are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel

/-- The output window is idle at the positions that do not end a row block: nothing is stored into it there, -/
theorem idle0_5 : ∀ t : Fin cfg0.N, ¬t.val % 16 = 15 → cfg0.idle 5 (grid0.coords t) = true :=
  (by decide +kernel : ∀ t : Fin grid0.N, ¬t.val % 16 = 15 → cfg0.idle 5 (grid0.coords t) = true)

/-- nor is its block written back there; -/
theorem noFlush0_5 (t : Fin cfg0.N) (h : ¬t.val % 16 = 15) : (cfg0.win 5).flush t = false :=
  Bool.eq_false_iff.mpr fun hf => h ((flush0_5 t).mp hf)

/-- and live at the positions that end one. -/
theorem live0_5 : ∀ t : Fin cfg0.N, t.val % 16 = 15 → cfg0.idle 5 (grid0.coords t) = false :=
  (by decide +kernel : ∀ t : Fin grid0.N, t.val % 16 = 15 → cfg0.idle 5 (grid0.coords t) = false)

/-! ## The body's loads and stores: whole buffers at zero offsets -/

/-- The offsets of every load and store of the body are zero. -/
theorem offs0_zero : (![0, 0] : Fin 2 → Nat) = fun _ => 0 := by
  funext a; fin_cases a <;> rfl

/-! ## The body, case by case, on any whole memrefs -/

set_option maxHeartbeats 1000000 in
/-- A position that starts a row block (and does not end one): the scratch, whatever it held, is cleared, then the
    product of the two input blocks is added to it; the other operands are not touched. -/
theorem run0_A (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole)
    (hc0 : startsRow0 i) (hc1 : ¬endsRow0 i)
    (x0 : Vec F S1024x2048 .f32) (x1 : Vec F S2048x512 .bf16)
    (E : Set ℕ) (K : PUnit → sProp 𝕄) :
    iprop(owns (c : Thread nD τ) arg2 fullShare x0 ∗ owns (c : Thread nD τ) arg3 fullShare x1 ∗ (∃ d, owns (c : Thread nD τ) arg8 fullShare d)
        ∗ (iprop(owns (c : Thread nD τ) arg2 fullShare x0 ∗ owns (c : Thread nD τ) arg3 fullShare x1
            ∗ owns (c : Thread nD τ) arg8 fullShare (k0_pay2 x0 (k0_pay1 (F := F)) x1)) -∗ K ⟨⟩))
      ⊢ wp frame (wpE (defs₀ (F := F)) Variants.none c none) E (cc0__layer1_kernel i arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  -- two whole-buffer stores, the later over the earlier; the later's payload read the cleared accumulator back
  rw [View.read_writes_eq_canon _ _ _ (fun y => ⟨_, List.mem_cons_self, View.mem_set_unit_zero offs0_zero inb_S1024x512_S1024x512_0_0 y⟩)]
  rw [View.canon_cons_unit_zero offs0_zero]
  simp only [View.readAt_eq_ld, harg2.read_unread, harg3.read_unread]
  rw [View.readCov_unit_zero (S := S1024x512) _ offs0_zero, View.ld_unit_zero (S := S1024x2048) offs0_zero, View.ld_unit_zero (S := S2048x512) offs0_zero]

set_option maxHeartbeats 1000000 in
/-- A position inside a row block: the product of the two input blocks is added to what the scratch held. -/
theorem run0_B (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole)
    (hc0 : ¬startsRow0 i) (hc1 : ¬endsRow0 i)
    (x0 : Vec F S1024x2048 .f32) (x1 : Vec F S2048x512 .bf16) (xs : Vec F S1024x512 .f32)
    (E : Set ℕ) (K : PUnit → sProp 𝕄) :
    iprop(owns (c : Thread nD τ) arg2 fullShare x0 ∗ owns (c : Thread nD τ) arg3 fullShare x1 ∗ owns (c : Thread nD τ) arg8 fullShare xs
        ∗ (iprop(owns (c : Thread nD τ) arg2 fullShare x0 ∗ owns (c : Thread nD τ) arg3 fullShare x1
            ∗ owns (c : Thread nD τ) arg8 fullShare (k0_pay2 x0 xs x1)) -∗ K ⟨⟩))
      ⊢ wp frame (wpE (defs₀ (F := F)) Variants.none c none) E (cc0__layer1_kernel i arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  -- one whole-buffer store of the sum over the loaded contents
  rw [View.read_writes_eq_canon _ _ _ (fun y => ⟨_, List.mem_singleton_self _, View.mem_set_unit_zero offs0_zero inb_S1024x512_S1024x512_0_0 y⟩)]
  rw [View.canon_unit_zero offs0_zero]
  simp only [View.readAt_eq_ld, harg2.read_unread, harg3.read_unread, harg8.read_unread]
  rw [View.ld_unit_zero (S := S1024x2048) offs0_zero, View.ld_unit_zero (S := S1024x512) offs0_zero, View.ld_unit_zero (S := S2048x512) offs0_zero]

set_option maxHeartbeats 1000000 in
/-- A position that ends a row block: the product is added to what the scratch held, and the layer's output block,
    computed from that sum, the two weight halves and the destination rows, is stored over the output buffer,
    whatever it held. -/
theorem run0_C (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1024x512 .f32) (harg7 : arg7.IsWhole) (arg8 : Memref sig .tc .vmem S1024x512 .f32) (harg8 : arg8.IsWhole)
    (hc0 : ¬startsRow0 i) (hc1 : endsRow0 i)
    (x0 : Vec F S1024x2048 .f32) (x1 : Vec F S2048x512 .bf16) (x2 : Vec F S1024x512 .bf16) (x3 : Vec F S512x512 .bf16)
    (x4 : Vec F S512x512 .bf16) (xs : Vec F S1024x512 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k0_pay3 (k0_pay2 x0 xs x1) x3 x2 x4)
            ∗ owns (c : Thread nD τ) arg8 fullShare (k0_pay2 x0 xs x1)) -∗ K ⟨⟩))
      ⊢ wp frame (wpE (defs₀ (F := F)) Variants.none c none) E (cc0__layer1_kernel i arg2 harg2 arg3 harg3 arg4 harg4 arg5 harg5 arg6 harg6 arg7 harg7 arg8 harg8) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%dout, %fout, -, HO⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HO]
  · iexists _; isplitr
    swap; · iexact HO
    ipureintro
    sl_unfold_words
    -- one whole-buffer store of the output block; its first operand is the scratch read back after the sum's store
    rw [View.read_writes_eq_canon _ _ _ (fun y => ⟨_, List.mem_singleton_self _, View.mem_set_unit_zero offs0_zero inb_S1024x512_S1024x512_0_0 y⟩)]
    rw [View.canon_unit_zero offs0_zero]
    simp only [View.readAt_eq_ld, harg2.read_unread, harg3.read_unread, harg4.read_unread, harg5.read_unread,
      harg6.read_unread, harg8.read_unread]
    rw [View.readCov_unit_zero (S := S1024x512) _ offs0_zero, View.ld_unit_zero (S := S1024x2048) offs0_zero, View.ld_unit_zero (S := S1024x512) offs0_zero, View.ld_unit_zero (S := S2048x512) offs0_zero,
      View.ld_unit_zero (S := S512x512) offs0_zero, View.ld_unit_zero (S := S1024x512) offs0_zero, View.ld_unit_zero (S := S512x512) offs0_zero]
  iexists _; isplitr
  swap; · iexact HS
  ipureintro
  sl_unfold_words
  rw [View.read_writes_eq_canon _ _ _ (fun y => ⟨_, List.mem_singleton_self _, View.mem_set_unit_zero offs0_zero inb_S1024x512_S1024x512_0_0 y⟩)]
  rw [View.canon_unit_zero offs0_zero]
  simp only [View.readAt_eq_ld, harg2.read_unread, harg3.read_unread, harg8.read_unread]
  rw [View.ld_unit_zero (S := S1024x2048) offs0_zero, View.ld_unit_zero (S := S1024x512) offs0_zero, View.ld_unit_zero (S := S2048x512) offs0_zero]

variable (V : (c : Dev nD) → (b : Ref sig .tc) → Buf (Elt F) ((c : Thread nD τ).loc b))

/-! ## What the body finds in the inputs' buffers -/

/-- Each input's current staging buffer holds the window's block at every position, fetched there or not (a window
    not fetched at a position has the block index it had at the position before; none is cut, none is ever idle). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-! ## The body obligation -/

/-- Each window's current staging memref at position `t`, as the pipeline passes it to the body, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)

/-- What the body is called with at position `t`: the invariant, what the core owes, every window's current buffer at
    what it then holds, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any position. The inputs' buffers hold their blocks; the position's residue mod 16 says which case it
    is in. The invariant hands the body the scratch at what the position before left (at anything before the first
    position) and takes it back at this position's sum; the output buffer is handed back untouched where the position
    does not end a row block (idle there and not written back), and holds the output block where it does. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  rw [show (dat0 V c).leavesExact 4 t = owns (c : Thread nD τ) (ms0_4 t) fullShare ((dat0 V c).after 4 t) from by
    unfold Dat.leavesExact; rw [live0_4 t], after0_4]
  by_cases h0 : t.val % 16 = 0
  · have h1 : ¬t.val % 16 = 15 := by omega
    rw [Dat.leavesExact_idle (dat0 V c) 5 t (idle0_5 t h1) (noFlush0_5 t h1)]
    rw [acc0_start V c t h0]
    by_cases hz : t.val = 0
    · rw [PhiS0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, H5⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((startsRow0_iff t).mpr h0) (fun h => h1 ((endsRow0_iff t).mp h)) (iblk0 V c 0 t) (iblk0 V c 1 t) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS0_castSucc V c t, PhiS0_pos V c _ _ hz]
      iintro ⟨⟨HS, Hoth, Hg⟩, Ho, ⟨%d0, H0⟩, ⟨%d1, H1⟩, ⟨%d2, H2⟩, ⟨%d3, H3⟩, ⟨%d4, H4⟩, H5⟩
      iapply (run0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((startsRow0_iff t).mpr h0) (fun h => h1 ((endsRow0_iff t).mp h)) (iblk0 V c 0 t) (iblk0 V c 1 t) Set.univ _)
      isplitl [H0]; · iexact H0
      isplitl [H1]; · iexact H1
      isplitl [HS]; · iexists _; iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    rw [acc0_step V c t h0]
    rw [PhiS0_castSucc V c t, PhiS0_pos V c _ _ hz]
    by_cases h1 : t.val % 16 = 15
    · rw [show (dat0 V c).leavesExact 5 t = owns (c : Thread nD τ) (ms0_5 t) fullShare ((dat0 V c).after 5 t) from by
        unfold Dat.leavesExact; rw [live0_5 t h1], after0_5]
      unfold out0At
      rw [acc0_step V c t h0]
      iintro ⟨⟨HS, Hoth, Hg⟩, Ho, ⟨%d0, H0⟩, ⟨%d1, H1⟩, ⟨%d2, H2⟩, ⟨%d3, H3⟩, ⟨%d4, H4⟩, ⟨%d5, H5⟩⟩
      iapply (run0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((startsRow0_iff t).mp h)) ((endsRow0_iff t).mpr h1) (iblk0 V c 0 t) (iblk0 V c 1 t) (iblk0 V c 2 t) (iblk0 V c 3 t) (iblk0 V c 4 t) (acc0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idle0_5 t h1) (noFlush0_5 t h1)]
      iintro ⟨⟨HS, Hoth, Hg⟩, Ho, ⟨%d0, H0⟩, ⟨%d1, H1⟩, ⟨%d2, H2⟩, ⟨%d3, H3⟩, ⟨%d4, H4⟩, H5⟩
      iapply (run0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((startsRow0_iff t).mp h)) (fun h => h1 ((endsRow0_iff t).mp h)) (iblk0 V c 0 t) (iblk0 V c 1 t) (acc0 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every position. -/
theorem body_obligation0 (c : Dev nD) : BodyObligation (dat0 (F := F) V c) (defs₀ (F := F)) Variants.none () Set.univ := fun t => by
  rw [bigSep_W0, bigSep_W0]
  exact sound_body0 V c t

/-! ## The invariant at the call's two ends -/

/-- What the launch hands the call is the invariant before the first position. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last position the invariant gives it back: what the scratch holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨HS, Hoth, Hg⟩
  isplitl [HS Hoth]
  · isplitl [HS]; · iexists _; iexact HS
    iexact Hoth
  iexact Hg

end Cert.KernelIdeal.Gen

end
-- ==== Proof.KI.Defs1.lean ====
/-
  The second pallas_call (the second layer, the classifier and the softmax) as the pipeline runs it: its seven
  windows' blocks at a grid point, what the body leaves in the output window's buffer, and the proof data the
  launch theorem takes. The grid has two points; point t works on rows 256·t … 256·t + 255. Everything is stated
  at a parameter V, the contents of the core's buffers when the call is entered.
-/
import proofs.«424208_j60103772340409_3_alg».proof.Proof.Gen.KernelIdeal.Launch
import proofs.«424208_j60103772340409_3_alg».proof.Proof.Gen.KernelIdeal.Skeleton
import proofs.«424208_j60103772340409_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through. -/
abbrev r1_dif : Rect S256x3584 := Rect.unit (s := S256x3584) ![0, 0] S256x3584.size inb_S256x3584_S256x3584_0_0
abbrev r1_src : Rect S3584x512 := Rect.unit (s := S3584x512) ![0, 0] S3584x512.size inb_S3584x512_S3584x512_0_0
abbrev r1_dst : Rect S256x512 := Rect.unit (s := S256x512) ![0, 0] S256x512.size inb_S256x512_S256x512_0_0
abbrev r1_w : Rect S512x512 := Rect.unit (s := S512x512) ![0, 0] S512x512.size inb_S512x512_S512x512_0_0
abbrev r1_cls : Rect S512x128 := Rect.unit (s := S512x128) ![0, 0] S512x128.size inb_S512x128_S512x128_0_0
abbrev r1_out : Rect S256x128 := Rect.unit (s := S256x128) ![0, 0] S256x128.size inb_S256x128_S256x128_0_0

/-- The output window's buffer after the body, from the six input blocks (diffusion rows, source rows, destination
    rows, the two halves of the layer's weights, the classifier's weights): its one store. -/
def out1_6 (xdif : Vec F S256x3584 .bf16) (xsrc : Vec F S3584x512 .bf16) (xdst : Vec F S256x512 .bf16)
    (wa : Vec F S512x512 .bf16) (wb : Vec F S512x512 .bf16) (wc : Vec F S512x128 .bf16) : Vec F S256x128 .f32 :=
  View.canon [⟨r1_out, k1_pay1 (View.ld xdif r1_dif) (View.ld xsrc r1_src) (View.ld wa r1_w) (View.ld xdst r1_dst) (View.ld wb r1_w) (View.ld wc r1_cls)⟩]

/-- The proof data of the second call on core `c`: the arrays as the call finds them; after the body at point `t`
    each input's buffer at its block and the output's at `out1_6` of the input blocks; nothing of the kernel's own
    carried between points; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

end Cert.KernelIdeal.Gen

end
-- ==== Proof.KI.Body1.lean ====
/-
  The body of the second pallas_call (the second layer, the classifier and the softmax) at a grid point. The body
  reads its six input windows' buffers whole, computes the 256 output rows of the point, and writes the output
  window's buffer whole; it carries nothing from one point to the next. Three facts, at the buffer contents V the
  call is entered with: each input's buffer holds that input's block at the point, whether the transfer ran at this
  point or at an earlier one; the body, run on buffers holding any six blocks, leaves the inputs as they were and
  the output's buffer at out1_6 of them; and hence the obligation the launch theorem asks of the body at every point.
-/
import proofs.«424208_j60103772340409_3_alg».proof.Proof.KI.Defs1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows -/

/-- The block the transfer of window `w` reads at point `t` is `iblk1`: the proof data's arrays are `V`'s. -/
theorem blockOf1 (c : Dev nD) (w : Fin cfg1.W) (t : Fin cfg1.N) : (dat1 V c).blockOf w t = iblk1 V c w t := by
  unfold Dat.blockOf iblk1
  rw [A_eq1]

/-- The diffusion rows' window moves at every point, and its buffer holds rows 256·t … 256·t + 255 of the
    diffusion matrix. No window of this call is cut short at the array's edge and none is ever idle, and the body
    leaves an input's block where it found it; so the buffer holds the block of the point. -/
theorem before1_0 (c : Dev nD) (t : Fin cfg1.N) (d) : (dat1 V c).before 0 t d = iblk1 V c 0 t := by
  rw [(dat1 V c).before_in_eq_fetched 0 rfl (fun _ => rfl) (fun _ _ _ => rfl)
    (fun s => by rw [after1_0, blockOf1]) t d]
  unfold Dat.fetched
  rw [blockOf1]; rfl

/-- The source rows (all 3584 of them) are brought in at the first point only; at the second point the block index
    has not moved, and the buffer still holds the same rows. -/
theorem before1_1 (c : Dev nD) (t : Fin cfg1.N) (d) : (dat1 V c).before 1 t d = iblk1 V c 1 t := by
  rw [(dat1 V c).before_in_eq_fetched 1 rfl (fun _ => rfl) (fun _ _ _ => rfl)
    (fun s => by rw [after1_1, blockOf1]) t d]
  unfold Dat.fetched
  rw [blockOf1]; rfl

/-- The destination rows' window moves at every point: rows 256·t … 256·t + 255 of the first layer's output. -/
theorem before1_2 (c : Dev nD) (t : Fin cfg1.N) (d) : (dat1 V c).before 2 t d = iblk1 V c 2 t := by
  rw [(dat1 V c).before_in_eq_fetched 2 rfl (fun _ => rfl) (fun _ _ _ => rfl)
    (fun s => by rw [after1_2, blockOf1]) t d]
  unfold Dat.fetched
  rw [blockOf1]; rfl

/-- The first half of the layer's weights: one block, brought in once. -/
theorem before1_3 (c : Dev nD) (t : Fin cfg1.N) (d) : (dat1 V c).before 3 t d = iblk1 V c 3 t := by
  rw [(dat1 V c).before_in_eq_fetched 3 rfl (fun _ => rfl) (fun _ _ _ => rfl)
    (fun s => by rw [after1_3, blockOf1]) t d]
  unfold Dat.fetched
  rw [blockOf1]; rfl

/-- The second half of the layer's weights: one block, brought in once. -/
theorem before1_4 (c : Dev nD) (t : Fin cfg1.N) (d) : (dat1 V c).before 4 t d = iblk1 V c 4 t := by
  rw [(dat1 V c).before_in_eq_fetched 4 rfl (fun _ => rfl) (fun _ _ _ => rfl)
    (fun s => by rw [after1_4, blockOf1]) t d]
  unfold Dat.fetched
  rw [blockOf1]; rfl

/-- The classifier's weights: one block, brought in once. -/
theorem before1_5 (c : Dev nD) (t : Fin cfg1.N) (d) : (dat1 V c).before 5 t d = iblk1 V c 5 t := by
  rw [(dat1 V c).before_in_eq_fetched 5 rfl (fun _ => rfl) (fun _ _ _ => rfl)
    (fun s => by rw [after1_5, blockOf1]) t d]
  unfold Dat.fetched
  rw [blockOf1]; rfl

/-! ## The body on buffers holding any six blocks -/

/-- The body's one store writes all 256 × 128 entries of the output buffer, so whatever the buffer held before
    is gone: every index lies in the stored rectangle. -/
theorem cover1_6 (p : Vec F S256x128 .f32) (y : S256x128.Idx) :
    ∃ pc ∈ ([⟨r1_out, p⟩] : List (View.Piece (Elt F) S256x128 .f32)), y ∈ pc.1.set :=
  View.cover_of_tiled [⟨r1_out, p⟩] S256x128.size (by rfl) y

set_option maxHeartbeats 1000000 in
/-- The body run on whole buffers: the six inputs' reading `x0` … `x5` (diffusion rows, source rows, destination
    rows, the two weight halves, the classifier's weights) and the output's holding anything. It reads the six inputs
    whole, reads the output's old contents (and makes no use of them), and stores the softmax rows over the whole
    output buffer. The inputs are left as they were, and the output buffer reads `out1_6 x0 x1 x2 x3 x4 x5`: the
    payload is computed from the loads in the order diffusion, source, first weight half, destination, second weight
    half, classifier, which is how `out1_6` hands its arguments on. -/
theorem sound_kernel1 (c : Dev nD) (E : Set ℕ) (i : grid1.Coords)
    (arg1 : Memref sig .tc .vmem S256x3584 .bf16) (harg1 : arg1.IsWhole)
    (arg2 : Memref sig .tc .vmem S3584x512 .bf16) (harg2 : arg2.IsWhole)
    (arg3 : Memref sig .tc .vmem S256x512 .bf16) (harg3 : arg3.IsWhole)
    (arg4 : Memref sig .tc .vmem S512x512 .bf16) (harg4 : arg4.IsWhole)
    (arg5 : Memref sig .tc .vmem S512x512 .bf16) (harg5 : arg5.IsWhole)
    (arg6 : Memref sig .tc .vmem S512x128 .bf16) (harg6 : arg6.IsWhole)
    (arg7 : Memref sig .tc .vmem S256x128 .f32) (harg7 : arg7.IsWhole)
    (x0 : Vec F S256x3584 .bf16) (x1 : Vec F S3584x512 .bf16) (x2 : Vec F S256x512 .bf16)
    (x3 : Vec F S512x512 .bf16) (x4 : Vec F S512x512 .bf16) (x5 : Vec F S512x128 .bf16)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__layer2_kernel i arg1 harg1 arg2 harg2 arg3 harg3 arg4 harg4 arg5 harg5 arg6 harg6 arg7 harg7) K := by
  simp only [cc1__layer2_kernel_eq_skeleton]; unfold cc1__layer2_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%d7, %f7, -, H7⟩, Hk⟩
  subst e1 e2 e3 e4 e5 e6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

/-! ## The obligation at a grid point -/

/-- What the body is handed at point `t`: the call's invariant and dues, and each window's current buffer at what
    it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back: the same invariant and dues, and each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at point `t`. The six input buffers hold the six blocks of the point (`before1_0` … `before1_5`), so the
    body's run on any six blocks applies at them; what it leaves is what the proof data names; the invariant and the
    dues are not touched and do not depend on the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorem asks of the body, at every point of the grid: the seven windows written out
    one by one, it is `sound_body1`. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Run.lean ====
/-
  The program's run, from the two pallas_calls' body obligations.

  Between @main's items every unscoped buffer of a core is held at named contents: the launch memory, then each stretch
  of host lines applied, and at each pallas_call its result buffer replaced by what the call's write-backs leave (the
  proof data's array after the last grid point). The first call is entered at the contents after the sixth stretch and
  leaves X0 in its result buffer; the second is entered at the contents four stretches later (which read X0) and leaves
  X1. Each call is a segment of the launch theorem: its arrays are split out of the unscoped buffers at entry and put
  back at exit; the generator register and the scoped buffers pass through the call's invariant; nothing is owed between
  cores. The run's post: every unscoped buffer ends at the last contents — from which the frame (the arguments are
  never written) and the result's value (X1) are read.
-/
import proofs.«424208_j60103772340409_3_alg».proof.Proof.KI.Defs0
import proofs.«424208_j60103772340409_3_alg».proof.Proof.KI.Defs1
import proofs.«424208_j60103772340409_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the calls leave -/

/-- The contents the first call is entered at, read at the TensorCore's references. -/
abbrev Vin0 : (c : Dev nD) → (b : Ref sig .tc) → Buf (Elt F) ((c : Thread nD τ).loc b) := fun c b => V6 m c b

/-- What the first call leaves in its result buffer. -/
abbrev X0 (c : Dev nD) : Buf (Elt F) ((c : Thread nD τ).loc main_v10) := (dat0 (Vin0 m) c).arrAt 5 cfg0.N

/-- The calls' results with only the first call's named. -/
def outs0 : Outs (F := F) := fun _ r c => if h : r = main_v10 then h ▸ X0 m c else V6 m c r

/-- The contents the second call is entered at. -/
abbrev Vin1 : (c : Dev nD) → (b : Ref sig .tc) → Buf (Elt F) ((c : Thread nD τ).loc b) := fun c b => V11 m (outs0 m) c b

/-- What the second call leaves in its result buffer. -/
abbrev X1 (c : Dev nD) : Buf (Elt F) ((c : Thread nD τ).loc main_v21) := (dat1 (Vin1 m) c).arrAt 6 cfg1.N

/-- What the two calls leave. -/
def outsF : Outs (F := F) := fun J r c => if h : r = main_v21 then h ▸ X1 m c else outs0 m J r c

theorem outs0_v10 (c : Dev nD) : outs0 m 7 main_v10 c = X0 m c := by
  unfold outs0; rw [dif_pos rfl]

theorem outsF_v10 (c : Dev nD) : outsF m 7 main_v10 c = X0 m c := by
  unfold outsF; rw [dif_neg (by decide)]; exact outs0_v10 m c

theorem outsF_v21 (c : Dev nD) : outsF m 12 main_v21 c = X1 m c := by
  unfold outsF; rw [dif_pos rfl]

/-- The second call's entry contents do not depend on what the second call leaves. -/
theorem V11_outsF (c : Dev nD) : V11 m (outsF m) c = V11 m (outs0 m) c := by
  show StableHlo.after hostOps1_3 (StableHlo.after hostOps1_2 (StableHlo.after hostOps1_1 (StableHlo.after hostOps1
      (Function.update (V6 m c) main_v10 (outsF m 7 main_v10 c))))) = StableHlo.after hostOps1_3 (StableHlo.after hostOps1_2
      (StableHlo.after hostOps1_1 (StableHlo.after hostOps1 (Function.update (V6 m c) main_v10 (outs0 m 7 main_v10 c)))))
  rw [outsF_v10, outs0_v10]

/-! ## The proof data family and what rides beside the buffers -/

/-- Every pipeline's proof data, each at its call's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No core owes another anything: no level is assigned. -/
abbrev Lv0 : GSem nD τ sig → Finset Unit := fun _ => ∅
abbrev lv0 : GSem nD τ sig → Unit → ℕ := fun _ _ => 0

/-- What rides beside the buffers through every item: the generator register at some state and the core owing nothing. -/
abbrev Rr (c : Dev nD) : sProp 𝕄 := iprop((∃ r, prngReg c r) ∗ ∃ W, owes (c : Thread nD τ) (0 : CellTallies nD τ sig Unit) W)

/-! ## The calls' exits: their arrays at what they leave, everything else as entered -/

/-- The first call's result buffer after the call holds what the call leaves. -/
theorem V7_v10 (outs : Outs (F := F)) (c : Dev nD) : V7 m outs c main_v10 = outs 7 main_v10 c :=
  Function.update_self (Proc.devRef .tc main_v10) (outs 7 main_v10 c) (V6 m c)

/-- The second call's result buffer after the call holds what the call leaves. -/
theorem V12_v21 (outs : Outs (F := F)) (c : Dev nD) : V12 m outs c main_v21 = outs 12 main_v21 c :=
  Function.update_self (Proc.devRef .tc main_v21) (outs 12 main_v21 c) (V11 m outs c)

theorem hF0 (c : Dev nD) : ∀ w : Fin cfg0.W, (dat0 (Vin0 m) c).arrAt w cfg0.N = V7 m (outsF m) c (Pipeline.arrRef spec0 w)
  | 0 => ((dat0 (Vin0 m) c).arrAt_in 0 rfl _).trans ((A_eq0 (Vin0 m) c 0).trans (V7_of m (outsF m) c _ (by decide)).symm)
  | 1 => ((dat0 (Vin0 m) c).arrAt_in 1 rfl _).trans ((A_eq0 (Vin0 m) c 1).trans (V7_of m (outsF m) c _ (by decide)).symm)
  | 2 => ((dat0 (Vin0 m) c).arrAt_in 2 rfl _).trans ((A_eq0 (Vin0 m) c 2).trans (V7_of m (outsF m) c _ (by decide)).symm)
  | 3 => ((dat0 (Vin0 m) c).arrAt_in 3 rfl _).trans ((A_eq0 (Vin0 m) c 3).trans (V7_of m (outsF m) c _ (by decide)).symm)
  | 4 => ((dat0 (Vin0 m) c).arrAt_in 4 rfl _).trans ((A_eq0 (Vin0 m) c 4).trans (V7_of m (outsF m) c _ (by decide)).symm)
  | 5 => ((V7_v10 m (outsF m) c).trans (outsF_v10 m c)).symm
  | ⟨_ + 6, h⟩ => absurd h (Nat.not_lt.2 (Nat.le_add_left _ _))

theorem hrest0 (c : Dev nD) : ∀ b : Ref sig .tc, b ∉ Finset.univ.image (Pipeline.arrRef spec0) →
    (fun b : Ref sig .tc => V7 m (outsF m) c b) b = Vin0 m c b := fun b hb =>
  V7_of m (outsF m) c b fun h => hb (Finset.mem_image.mpr ⟨5, Finset.mem_univ _, (List.mem_singleton.mp h).symm⟩)

/-- Outside the second call's result buffer the last contents are the second call's entry contents. -/
theorem V12_eq_Vin1 (c : Dev nD) (r : Ref sig .tc) (hr : r ∉ ([main_v21] : List (Ref sig .tc))) : V12 m (outsF m) c r = Vin1 m c r :=
  (V12_of m (outsF m) c r hr).trans (congrFun (V11_outsF m c) _)

theorem hF1 (c : Dev nD) : ∀ w : Fin cfg1.W, (dat1 (Vin1 m) c).arrAt w cfg1.N = V12 m (outsF m) c (Pipeline.arrRef spec1 w)
  | 0 => ((dat1 (Vin1 m) c).arrAt_in 0 rfl _).trans ((A_eq1 (Vin1 m) c 0).trans (V12_eq_Vin1 m c _ (by decide)).symm)
  | 1 => ((dat1 (Vin1 m) c).arrAt_in 1 rfl _).trans ((A_eq1 (Vin1 m) c 1).trans (V12_eq_Vin1 m c _ (by decide)).symm)
  | 2 => ((dat1 (Vin1 m) c).arrAt_in 2 rfl _).trans ((A_eq1 (Vin1 m) c 2).trans (V12_eq_Vin1 m c _ (by decide)).symm)
  | 3 => ((dat1 (Vin1 m) c).arrAt_in 3 rfl _).trans ((A_eq1 (Vin1 m) c 3).trans (V12_eq_Vin1 m c _ (by decide)).symm)
  | 4 => ((dat1 (Vin1 m) c).arrAt_in 4 rfl _).trans ((A_eq1 (Vin1 m) c 4).trans (V12_eq_Vin1 m c _ (by decide)).symm)
  | 5 => ((dat1 (Vin1 m) c).arrAt_in 5 rfl _).trans ((A_eq1 (Vin1 m) c 5).trans (V12_eq_Vin1 m c _ (by decide)).symm)
  | 6 => ((V12_v21 m (outsF m) c).trans (outsF_v21 m c)).symm
  | ⟨_ + 7, h⟩ => absurd h (Nat.not_lt.2 (Nat.le_add_left _ _))

theorem hrest1 (c : Dev nD) : ∀ b : Ref sig .tc, b ∉ Finset.univ.image (Pipeline.arrRef spec1) →
    (fun b : Ref sig .tc => V12 m (outsF m) c b) b = Vin1 m c b := fun b hb =>
  V12_eq_Vin1 m c b fun h => hb (Finset.mem_image.mpr ⟨6, Finset.mem_univ _, (List.mem_singleton.mp h).symm⟩)

/-- What the first call's invariant is asked at its ends: before the first point it is made from the class's (the scoped
    buffers at some contents and the generator register), after the last point it gives that back. -/
abbrev HinΦ0 : Prop := ∀ c : Dev nD, (Pipeline.ΦA spec0 c : sProp 𝕄) ⊢ (dat0 (F := F) (Vin0 m) c).Φ 0
abbrev HoutΦ0 : Prop := ∀ c : Dev nD, (dat0 (F := F) (Vin0 m) c).Φ (Fin.last cfg0.N) ⊢ (Pipeline.ΦA spec0 c : sProp 𝕄)

/-! ## The calls as segments of the launch -/

section Segments

variable (hbody0 : ∀ c : Dev nD, BodyObligation (dat0 (F := F) (Vin0 m) c) (defs₀ (F := F)) Variants.none () Set.univ)
  (hinΦ0 : HinΦ0 (F := F) m) (houtΦ0 : HoutΦ0 (F := F) m)
  (hbody1 : ∀ c : Dev nD, BodyObligation (dat1 (F := F) (Vin1 m) c) (defs₀ (F := F)) Variants.none () Set.univ)

set_option backward.isDefEq.respectTransparency.types false in
/-- THE FIRST CALL over the thread state: entered from every unscoped buffer at the contents after the sixth stretch,
    left with its result buffer at X0. Its arrays are split out of the unscoped buffers and put back at the exit contents;
    the generator register goes into the call's invariant and comes back; the scratch accumulator's named contents are
    forgotten at the exit; nothing owed; no semaphore of the kernel's own. -/
def reg0 : Pipeline.RegionSeg (pcfgs (F := F)) adm (pdats m) () defs₀ Variants.none Lv0 lv0 0 where
  win := launch0.win.to₀
  block_pos := launch0.block_pos
  stage_whole := launch0.stage_whole
  K := PEmpty
  osem k := k.elim
  ho := Pipeline.OwnSemFacts.none _
  hbody c := (hbody0 c).loose
  hwaits := Pipeline.hwaits_of_owed_zero _ _ _ _ Lv0 lv0 0 fun _ _ => rfl
  pre c := iprop(StableHlo.held (c : Thread nD τ) (Pipeline.ucRefs τ sig) (V6 m c) ∗ Rr c)
  post c := iprop(StableHlo.held (c : Thread nD τ) (Pipeline.ucRefs τ sig) (V7 m (outsF m) c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (F := F) (Vin0 m) c).Φ 0 from rfl]
    refine .trans ?_ (hinΦ0 c)
    unfold Pipeline.ΦA
    iintro ⟨Hp, -, Hr⟩
    isplitl [Hr]; · iexact Hr
    iexact Hp
  hout c := by
    rw [Pipeline.ownSems0_none, show (pdats m 0 c).Φ (Fin.last _) = (dat0 (F := F) (Vin0 m) c).Φ (Fin.last cfg0.N) from rfl]
    refine (houtΦ0 c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b : Ref sig .tc => V7 m (outsF m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at the contents after the tenth stretch,
    left with its result buffer at X1 (the last contents). The kernel keeps nothing between points: its invariant is the
    scoped buffers at some contents and the generator register. -/
def reg1 : Pipeline.RegionSeg (pcfgs (F := F)) adm (pdats m) () defs₀ Variants.none Lv0 lv0 1 where
  win := launch1.win.to₀
  block_pos := launch1.block_pos
  stage_whole := launch1.stage_whole
  K := PEmpty
  osem k := k.elim
  ho := Pipeline.OwnSemFacts.none _
  hbody c := (hbody1 c).loose
  hwaits := Pipeline.hwaits_of_owed_zero _ _ _ _ Lv0 lv0 1 fun _ _ => rfl
  pre c := iprop(StableHlo.held (c : Thread nD τ) (Pipeline.ucRefs τ sig) (V11 m (outsF m) c) ∗ Rr c)
  post c := iprop(iprop(StableHlo.held (c : Thread nD τ) (Pipeline.ucRefs τ sig) (V12 m (outsF m) c) ∗ ∃ r, prngReg c r)
      ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V11_outsF m c]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b : Ref sig .tc => V12 m (outsF m) c b) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Segments

/-! ## The run -/

section TheRun

variable (hbody0 : ∀ c : Dev nD, BodyObligation (dat0 (F := F) (Vin0 m) c) (defs₀ (F := F)) Variants.none () Set.univ)
  (hinΦ0 : HinΦ0 (F := F) m) (houtΦ0 : HoutΦ0 (F := F) m)
  (hbody1 : ∀ c : Dev nD, BodyObligation (dat1 (F := F) (Vin1 m) c) (defs₀ (F := F)) Variants.none () Set.univ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

include hbody0 hinΦ0 houtΦ0 hbody1 in
set_option backward.isDefEq.respectTransparency.types false in
/-- THE RUN. From any memory with zero counters every weakly fair execution of @main on the TensorCores terminates,
    nothing faulting, and in every final state each unscoped buffer of each core holds the last contents: the launch
    memory, the host stretches applied in order, the two calls' result buffers at X0 and X1. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V12 m (outsF m) c b) := by
  refine Pipeline.θ_run_regions_kit_dev (pcfgs (F := F)) adm (pdats m) () cellOf_inj emb₁ defs₀ Variants.none Lv0 lv0 m ρ main
    (segs m (outsF m) Variants.none Lv0 lv0 (fun _ c => Rr c) () (pdats m) (reg0 m hbody0 hinΦ0 houtΦ0) (reg1 m hbody1))
    (fun c Q => by
      rewrite [main_chain c, Pipeline.Seg.run_eq_chain,
        show (segs m (outsF m) Variants.none Lv0 lv0 (fun _ c => Rr c) () (pdats m) (reg0 m hbody0 hinΦ0 houtΦ0) (reg1 m hbody1) c).map Pipeline.Seg.prog = [
          StableHlo.seq hostOps0,
          StableHlo.seq hostOps0_1,
          StableHlo.seq hostOps0_2,
          StableHlo.seq hostOps0_3,
          StableHlo.seq hostOps0_4,
          StableHlo.seq hostOps0_5,
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => iprop(StableHlo.held (c : Thread nD τ) (Pipeline.ucRefs τ sig) (V12 m (outsF m) c) ∗ ∃ r, prngReg c r))
    (hch := fun c => ⟨.rfl, .rfl, .rfl, .rfl, .rfl, .rfl, .rfl, .rfl, .rfl, .rfl, .rfl, .rfl, .rfl⟩)
    (hinit := by
      refine Pipeline.initEach Lv0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V12 m (outsF m) c b)
    (hfin := fun c s' => by
      iintro ⟨⟨Hh, -⟩, HSI⟩
      unfold StableHlo.held
      imodintro
      iapply (pointsTo_read_all (Pipeline.ucRefs τ sig) (fun b => (((c : Thread nD τ)).1, b)) (V12 m (outsF m) c) s')
      isplitl [Hh] <;> iassumption)
    (hQ := fun s h => h)

include hbody0 hinΦ0 houtΦ0 hbody1 in
/-- THE FRAME: every execution terminates, nothing faulting, and every argument array ends as launched (no host line
    and no call writes one). -/
theorem run_frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (V12_main_arg0 m (outsF m) c),
    (h c _ (mem_uc main_arg1 (by decide))).trans (V12_main_arg1 m (outsF m) c),
    (h c _ (mem_uc main_arg2 (by decide))).trans (V12_main_arg2 m (outsF m) c),
    (h c _ (mem_uc main_arg3 (by decide))).trans (V12_main_arg3 m (outsF m) c),
    (h c _ (mem_uc main_arg4 (by decide))).trans (V12_main_arg4 m (outsF m) c),
    (h c _ (mem_uc main_arg5 (by decide))).trans (V12_main_arg5 m (outsF m) c),
    (h c _ (mem_uc main_arg6 (by decide))).trans (V12_main_arg6 m (outsF m) c),
    (h c _ (mem_uc main_arg7 (by decide))).trans (V12_main_arg7 m (outsF m) c),
    (h c _ (mem_uc main_arg8 (by decide))).trans (V12_main_arg8 m (outsF m) c),
    (h c _ (mem_uc main_arg9 (by decide))).trans (V12_main_arg9 m (outsF m) c),
    (h c _ (mem_uc main_arg10 (by decide))).trans (V12_main_arg10 m (outsF m) c)⟩)
    (run_all m ρ hbody0 hinΦ0 houtΦ0 hbody1)

include hbody0 hinΦ0 houtΦ0 hbody1 in
/-- THE RESULT: moreover the program's result buffer ends at what the second call leaves. -/
theorem run_value : θ_run defs (onTc (τ := τ) (main (F := F))) ⟨m, fun _ => 0, ρ⟩ (fun r => ∀ c : Dev nD,
      r.2.mem ((c.tc : Thread nD τ).loc main_v21) = X1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v21 (by decide))).trans ((V12_v21 m (outsF m) c).trans (outsF_v21 m c)),
    (h c _ (mem_uc main_arg0 (by decide))).trans (V12_main_arg0 m (outsF m) c),
    (h c _ (mem_uc main_arg1 (by decide))).trans (V12_main_arg1 m (outsF m) c),
    (h c _ (mem_uc main_arg2 (by decide))).trans (V12_main_arg2 m (outsF m) c),
    (h c _ (mem_uc main_arg3 (by decide))).trans (V12_main_arg3 m (outsF m) c),
    (h c _ (mem_uc main_arg4 (by decide))).trans (V12_main_arg4 m (outsF m) c),
    (h c _ (mem_uc main_arg5 (by decide))).trans (V12_main_arg5 m (outsF m) c),
    (h c _ (mem_uc main_arg6 (by decide))).trans (V12_main_arg6 m (outsF m) c),
    (h c _ (mem_uc main_arg7 (by decide))).trans (V12_main_arg7 m (outsF m) c),
    (h c _ (mem_uc main_arg8 (by decide))).trans (V12_main_arg8 m (outsF m) c),
    (h c _ (mem_uc main_arg9 (by decide))).trans (V12_main_arg9 m (outsF m) c),
    (h c _ (mem_uc main_arg10 (by decide))).trans (V12_main_arg10 m (outsF m) c)⟩)
    (run_all m ρ hbody0 hinΦ0 houtΦ0 hbody1)

end TheRun

end Cert.KernelIdeal.Gen

end
-- ==== Proof.Spec.lean ====
/-
  What both programs compute, as plain functions on the extended reals.

  A graph layer takes, for each of B destination nodes, a weighted sum of S source rows (the weights a row of the
  diffusion matrix), lays the destination node's own row beside it, multiplies the 1024 numbers by a weight matrix
  and keeps the positive part:

      layer dif xs xd w (i, d) = max (∑ f, (∑ s, dif i s · xs s f) · w f d  +  ∑ f, xd i f · w (512 + f) d) 0.

  The sum over the 1024 joined columns is written already split into its two halves of 512. Two layers, a product with
  the classifier's matrix, and a softmax over the 128 classes of each row make the result. Rows of a table are taken
  by index words: `rowOf N w` is the row a word names in a table of N rows — a negative word counts from the end,
  and the position is kept inside the table.
-/
import Idealize.ShloMosaic.PureOps.Ideal
import Idealize.ShloMosaic.Lib.ValueIdx

noncomputable section

open scoped BigOperators

namespace Cert.Spec

open Idealize.ShloMosaic

/-- A word below zero counts rows from the end of a table of `N` rows. -/
def wrap (N : Nat) (w : BitVec 32) : BitVec 32 :=
  Scalar.select (IntOp.cmpi .slt w 0#32) (IntOp.addi w (BitVec.ofNat 32 N)) w

/-- The row of a table of `N` rows that the index word `w` names: wrapped, read signed, kept inside the table. -/
def rowOf (N : Nat) (w : BitVec 32) : Nat := min (wrap N w).toInt.toNat (N - 1)

theorem rowOf_lt {N : Nat} (hN : 0 < N) (w : BitVec 32) : rowOf N w < N := by
  unfold rowOf; omega

/-- One layer at destination node `i`, output column `d`. -/
def layer {S B : Nat} (dif : Fin B → Fin S → EReal) (xs : Fin S → Fin 512 → EReal) (xd : Fin B → Fin 512 → EReal)
    (w : Fin 1024 → Fin 512 → EReal) (i : Fin B) (d : Fin 512) : EReal :=
  max ((∑ f : Fin 512, (∑ s : Fin S, dif i s * xs s f) * w ⟨f.val, by omega⟩ d)
      + ∑ f : Fin 512, xd i f * w ⟨512 + f.val, by omega⟩ d) 0

/-- The largest of a row's 128 numbers (`-∞` for no numbers). -/
def rowMax (l : Fin 128 → EReal) : EReal := (Finset.univ : Finset (Fin 128)).fold max ⊥ l

/-- The softmax of a row of 128 numbers, shifted by the row's maximum. -/
def softmaxRow (l : Fin 128 → EReal) (j : Fin 128) : EReal :=
  Ideal.div (Ideal.exp (l j - rowMax l)) (∑ k : Fin 128, Ideal.exp (l k - rowMax l))

/-- The class scores of a row of 512 features. -/
def logits (h : Fin 512 → EReal) (wc : Fin 512 → Fin 128 → EReal) (j : Fin 128) : EReal := ∑ d : Fin 512, h d * wc d j

/-- An array of rank 2 read by its two coordinates, and one of rank 1 by its one. -/
def rd2 {α : Type} {a b : Nat} (x : (⟨2, ![a, b]⟩ : Shape).Idx → α) (p : Fin a) (q : Fin b) : α := x (ValueIdx.ix2 p q)
def rd1 {α : Type} {a : Nat} (x : (⟨1, ![a]⟩ : Shape).Idx → α) (p : Fin a) : α := x (ValueIdx.ix1 p)

/-- Rows of a table of `N + 1` rows taken by index words: row `r` of the result is the table's row `rowOf` names. -/
def take2 {N D n : Nat} (tbl : Fin (N + 1) → Fin D → EReal) (idx : Fin n → BitVec 32) (r : Fin n) (c : Fin D) : EReal :=
  tbl ⟨rowOf (N + 1) (idx r), rowOf_lt (Nat.succ_pos N) _⟩ c

/-- A 1024-row weight matrix from its two halves of 512 rows. -/
def joinW (wa wb : Fin 512 → Fin 512 → EReal) (k : Fin 1024) (d : Fin 512) : EReal :=
  if h : k.val < 512 then wa ⟨k.val, h⟩ d else wb ⟨k.val - 512, by omega⟩ d

/-- The whole computation: node features taken by the sampled nodes, two layers (each taking its source and
    destination rows from the layer before), the class scores, and the softmax of each row. -/
def G (feat : Fin 100000 → Fin 512 → EReal) (nodes : Fin 36864 → BitVec 32)
    (dst1 : Fin 4096 → BitVec 32) (src1 : Fin 32768 → BitVec 32) (dif1 : Fin 4096 → Fin 32768 → EReal)
    (dst2 : Fin 512 → BitVec 32) (src2 : Fin 3584 → BitVec 32) (dif2 : Fin 512 → Fin 3584 → EReal)
    (w1 w2 : Fin 1024 → Fin 512 → EReal) (wc : Fin 512 → Fin 128 → EReal) (r : Fin 512) (j : Fin 128) : EReal :=
  let x0 : Fin 36864 → Fin 512 → EReal := take2 (N := 99999) feat nodes
  let x1 : Fin 4096 → Fin 512 → EReal := layer dif1 (take2 (N := 36863) x0 src1) (take2 (N := 36863) x0 dst1) w1
  let x2 : Fin 512 → Fin 512 → EReal := layer dif2 (take2 (N := 4095) x1 src2) (take2 (N := 4095) x1 dst2) w2
  softmaxRow (logits (x2 r) wc) j

end Cert.Spec

end
-- ==== Proof.LibRowTake.lean ====
/-
  A ROW TAKE read at an index.

  `table[idx]` for a rank-2 table `[N, D]` and a vector of `n` row numbers lowers to a `stablehlo.gather` whose
  start indices are the `[n, 1]` column of row numbers: the table's row axis is collapsed and start-indexed, its
  column axis is the result's one offset axis, a slice is one whole row (`slice_sizes = [1, D]`), and the index
  vector lies on axis 1 of the start indices. Result element `(r, c)` is then the table at row `idx[r, 0]`, read as
  a signed integer and clamped into `[0, N − 1]` (a negative row number reads row 0, one past the end the last
  row), and column `c`. `rowTakeDims` are those dimension numbers at any extents and `gather_rowTake_apply` is the
  read.
-/
import Idealize.ShloMosaic.Lib.ValueIdx

namespace Cert.LibRowTake

open Idealize.ShloMosaic Idealize.ShloMosaic.ValueIdx

variable {α : Type}

/-- The dimension numbers of a row take: table `[N, D]`, start indices `[n, 1]`, result `[n, D]`; their conditions
    `wf` are decided on a program's literal shapes. -/
abbrev rowTakeDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The row axis of the table is start-indexed and collapsed: its coordinate is the clamped start index alone. -/
theorem rowTake_coord0 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 0).val = min (idx (ix2 r (0 : Fin 1))).toInt.toNat (N - 1) := by
  show (rowTakeDims N D n wf).start (ix2 r c) idx 0 + (rowTakeDims N D n wf).batchCoord (ix2 r c) 0
      + (rowTakeDims N D n wf).offCoord (ix2 r c) 0 = _
  have hk : (0 : Fin 2) ∉ (rowTakeDims N D n wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 2) ∈ (rowTakeDims N D n wf).startIndexMap := List.mem_singleton.2 rfl
  unfold GatherDims.start
  rw [dif_pos hm]
  have hsi : (rowTakeDims N D n wf).siIdx (ix2 r c) ⟨List.idxOf (0 : Fin 2) (rowTakeDims N D n wf).startIndexMap,
      List.idxOf_lt_length_iff.2 hm⟩ = ix2 r (0 : Fin 1) := by
    funext b
    refine Fin.ext ?_
    match b with
    | ⟨0, _⟩ => rfl
    | ⟨1, _⟩ => rfl
  rw [hsi]
  rfl

/-- The column axis of the table is the slice's one kept axis, not start-indexed: its coordinate is the result's
    offset coordinate alone. -/
theorem rowTake_coord1 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 1).val = c.val := by
  show (rowTakeDims N D n wf).start (ix2 r c) idx 1 + (rowTakeDims N D n wf).batchCoord (ix2 r c) 1
      + (rowTakeDims N D n wf).offCoord (ix2 r c) 1 = _
  have h10 : ¬ (1 : Fin 2) = 0 := fun e => absurd (congrArg Fin.val e) Nat.one_ne_zero
  have hm : (1 : Fin 2) ∉ (rowTakeDims N D n wf).startIndexMap := fun hm => h10 (List.mem_singleton.1 hm)
  have hs : (rowTakeDims N D n wf).start (ix2 r c) idx 1 = 0 := by
    unfold GatherDims.start
    rw [dif_neg hm]
  rw [hs, GatherDims.batchCoord_eq_zero _ _ _ List.not_mem_nil]
  simp only [Nat.zero_add]
  have hk : (1 : Fin 2) ∈ (rowTakeDims N D n wf).sKept :=
    (GatherDims.mem_sKept _ _).2 ⟨fun h => h10 (List.mem_singleton.1 h), List.not_mem_nil⟩
  unfold GatherDims.offCoord
  rw [dif_pos hk]
  rfl

/-- THE ROW TAKE READ AT `(r, c)`: the table at the row the start index `idx[r, 0]` names, read signed and clamped
    into `[0, N − 1]`, and column `c`. -/
theorem gather_rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (r : Fin n) (c : Fin D) :
    Host.gather (rowTakeDims N D n wf) x idx (ix2 r c)
      = x (ix2 ⟨min (idx (ix2 r (0 : Fin 1))).toInt.toNat (N - 1), by omega⟩ c) := by
  show x ((rowTakeDims N D n wf).operandIdx (ix2 r c) idx) = _
  congr 1
  funext a
  refine Fin.ext ?_
  match a with
  | ⟨0, _⟩ => exact rowTake_coord0 wf idx r c
  | ⟨1, _⟩ => exact rowTake_coord1 wf idx r c

end Cert.LibRowTake
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.LibDotAt.lean ====
/-
  The host's `dot_general` of an [M, K] array with a [K, N] array, read at an output index at the ideal instance: the
  plain sum of products over the contracted axis,
      out (p, q) = ∑ k, l (p, k) · r (k, q),
  and, when the right operand is the transpose of an [N, K] array W (jnp's `x @ W.T`),
      out (p, q) = ∑ k, l (p, k) · W (q, k):
  the same sum a kernel's matmul contracting the last axes of both operands computes.
-/
import proofs.«424208_j60103772340409_3_alg».proof.Proof.LibMatmulAt
import Idealize.ShloMosaic.Lib.ValueLayout

noncomputable section

open scoped BigOperators

namespace Idealize.ShloMosaic.DotAt

open Idealize.ShloMosaic Idealize.ShloMosaic.ValueIdx Idealize.ShloMosaic.MatmulAt

variable {M K N : Nat}

/-- `out (p, q) = ∑ k, l (p, k) · r (k, q)`, whatever the precision and the schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

/-- Against a transposed [N, K] array: `out (p, q) = ∑ k, l (p, k) · W (q, k)`. -/
theorem dotGeneral_transpose_apply {φ₁ φ₂ : FTy} (prec : Option ContractPrecision) (sched : HostSchedule)
    (l : FVec Ideal ⟨2, ![M, K]⟩ φ₁) (W : FVec Ideal ⟨2, ![N, K]⟩ φ₂)
    (h : (⟨2, ![N, K]⟩ : Shape).Transposes [1, 0] ⟨2, ![K, N]⟩) (p : Fin M) (q : Fin N) :
    FloatOps.dotGeneral (DotDims.plain M K N) prec sched l (transpose ⟨2, ![K, N]⟩ [1, 0] W h) (ix2 p q)
      = ∑ k : Fin K, l (ix2 p k) * W (ix2 q k) := by
  rw [dotGeneral_plain_apply]
  exact Finset.sum_congr rfl fun k _ => by rw [transpose_ix2_apply]

end Idealize.ShloMosaic.DotAt

end
-- ==== Proof.LibSumSplit.lean ====
/-
  Two facts about sums in a commutative monoid, independent of any program.
-/
import Mathlib.Algebra.BigOperators.Fin
import Mathlib.Algebra.BigOperators.Intervals

namespace Cert.LibSumSplit

/-- A left-to-right accumulation from zero is the sum of the terms: `(((0 + v 0) + v 1) + …) + v (k-1) = ∑ i < k, v i`. -/
theorem fold_eq_sum {M : Type} [AddCommMonoid M] (v : ℕ → M) (k : ℕ) :
    (Nat.rec (motive := fun _ => M) 0 (fun i acc => acc + v i) k) = ∑ i ∈ Finset.range k, v i := by
  induction k with
  | zero => simp
  | succ k ih => rw [Finset.sum_range_succ, ← ih]

/-- A sequence of 10240 terms that is 4096 terms `f`, then 4096 terms `g`, then 2048 terms `h`: its first 5120 terms plus
    its last 5120 terms sum to `∑ f + ∑ g + ∑ h`. -/
theorem split_sum {M : Type} [AddCommMonoid M] (v : ℕ → M) (f g : Fin 4096 → M) (h : Fin 2048 → M)
    (hf : ∀ n : Fin 4096, v n.val = f n) (hg : ∀ n : Fin 4096, v (4096 + n.val) = g n)
    (hh : ∀ n : Fin 2048, v (8192 + n.val) = h n) :
    (∑ i ∈ Finset.range 5120, v i) + (∑ i ∈ Finset.range 5120, v (5120 + i))
      = (∑ n, f n) + (∑ n, g n) + (∑ n, h n) := by
  -- the three blocks as range sums of `v`
  have e1 : (∑ n, f n) = ∑ i ∈ Finset.range 4096, v i := by
    rw [Finset.sum_range]; exact Finset.sum_congr rfl (fun n _ => (hf n).symm)
  have e2 : (∑ n, g n) = ∑ i ∈ Finset.range 4096, v (4096 + i) := by
    rw [Finset.sum_range]; exact Finset.sum_congr rfl (fun n _ => (hg n).symm)
  have e3 : (∑ n, h n) = ∑ i ∈ Finset.range 2048, v (8192 + i) := by
    rw [Finset.sum_range]; exact Finset.sum_congr rfl (fun n _ => (hh n).symm)
  -- cut the ranges at 4096, 5120 and 8192
  have s1 : (∑ i ∈ Finset.range 5120, v i)
      = (∑ i ∈ Finset.range 4096, v i) + ∑ i ∈ Finset.range 1024, v (4096 + i) :=
    Finset.sum_range_add v 4096 1024
  have s2 : (∑ i ∈ Finset.range 5120, v (5120 + i))
      = (∑ i ∈ Finset.range 3072, v (5120 + i)) + ∑ i ∈ Finset.range 2048, v (5120 + (3072 + i)) :=
    Finset.sum_range_add (fun i => v (5120 + i)) 3072 2048
  have s3 : (∑ i ∈ Finset.range 4096, v (4096 + i))
      = (∑ i ∈ Finset.range 1024, v (4096 + i)) + ∑ i ∈ Finset.range 3072, v (4096 + (1024 + i)) :=
    Finset.sum_range_add (fun i => v (4096 + i)) 1024 3072
  have a1 : ∀ i : ℕ, 4096 + (1024 + i) = 5120 + i := fun i => by omega
  have a2 : ∀ i : ℕ, 5120 + (3072 + i) = 8192 + i := fun i => by omega
  rw [e1, e2, e3, s1, s2, s3]
  simp only [a1, a2, add_assoc]

end Cert.LibSumSplit
-- ==== Proof.LibKeepdims.lean ====
/-
  Layout operations read at an index, for arrays that keep a reduced axis as a unit axis: a shape cast that adds a
  TRAILING unit axis (`[a] → [a, 1]`) or drops a MIDDLE one (`[a, 1, b] → [a, b]`), and the broadcasts of a COLUMN
  (`[a, 1] → [a, b]`) and of a SINGLE ENTRY (`[1, 1] → [a, b]`).  Each says which operand entry the result reads at
  coordinates written out one by one; a cast keeps the row-major position, a broadcast reads coordinate `0` on the
  operand's unit axes.
-/
import Idealize.ShloMosaic.Lib.ValueIdx
import Idealize.ShloMosaic.Lib.Pipeline.Value

noncomputable section

namespace Cert.Attn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1, b]` array cast to `[a, b]` reads, at `(i, j)`, the operand at `(i, 0, j)`: the same row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A `[1, 1]` array broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn

end
-- ==== Proof.LibRowOps.lean ====
/-
  Rank-2 ROW OPERATIONS read at an index, for any extents.

  A LayerNorm over the last axis of an [a, b] array is built from: the sum of each row, that sum kept as an [a, 1]
  column, the column spread back over the b columns, and a [1, b] row of per-column scales spread over the a rows.
  A kernel writes these with `vector.multi_reduction`, `vector.shape_cast` and `vector.broadcast`; jnp on the host with
  `stablehlo.reduce` and `stablehlo.broadcast_in_dim`. Each lemma says which element of the operand an element of the
  result is; the two sums are read as `∑ k : Fin b` over the row.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

variable {α : Type} {a b : Nat}

/-! ## The kernel's forms -/

/-- A vector [a] kept as a column [a, 1]: element (p, 0) is element p. -/
theorem shapeCast_col_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column [a, 1] spread over b columns: element (p, c) is the column's element (p, 0). -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row p with column k inserted is (p, k). -/
theorem lift_row (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- A kernel's sum over the last axis, at row p: the sum of the row. -/
theorem multiReduction_row_apply {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ x acc h hφ hacc (ix1 p) = ∑ k : Fin b, x (ix2 p k) := by
  rw [Ideal.multiReduction_add_single]
  exact Finset.sum_congr rfl fun k _ => congrArg x (lift_row h p k)

/-! ## The host's forms -/

/-- A vector [b] as a row [1, b] (`broadcast_in_dim`, dims = [1]): element (0, q) is element q. -/
theorem bcastInDim_row_apply (h : (⟨1, ![b]⟩ : Shape).BroadcastsInDim ⟨2, ![1, b]⟩ ![1]) (x : (⟨1, ![b]⟩ : Shape).Idx → α)
    (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows (dims = [0, 1]): element (r, q) is the row's element (0, q). -/
theorem bcastInDim_rows_apply (h : (⟨2, ![1, b]⟩ : Shape).BroadcastsInDim ⟨2, ![a, b]⟩ ![0, 1]) (x : (⟨2, ![1, b]⟩ : Shape).Idx → α)
    (r : Fin a) (q : Fin b) : broadcastInDim ⟨2, ![a, b]⟩ ![0, 1] h x (ix2 r q) = x (ix2 (0 : Fin 1) q) := by
  refine broadcastInDim_apply _ h x (ix2 r q) (ix2 (0 : Fin 1) q) fun ax => ?_
  match ax with
  | ⟨0, _⟩ => rfl
  | ⟨1, _⟩ =>
    show q.val = if b = 1 then 0 else q.val
    split
    · have := q.isLt; omega
    · rfl

/-- A vector [a] kept as a column [a, 1] (dims = [0]): element (r, 0) is element r. -/
theorem bcastInDim_col_apply (h : (⟨1, ![a]⟩ : Shape).BroadcastsInDim ⟨2, ![a, 1]⟩ ![0]) (x : (⟨1, ![a]⟩ : Shape).Idx → α)
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b columns (dims = [0, 1]): element (r, q) is the column's element (r, 0). -/
theorem bcastInDim_cols_apply (h : (⟨2, ![a, 1]⟩ : Shape).BroadcastsInDim ⟨2, ![a, b]⟩ ![0, 1]) (x : (⟨2, ![a, 1]⟩ : Shape).Idx → α)
    (r : Fin a) (q : Fin b) : broadcastInDim ⟨2, ![a, b]⟩ ![0, 1] h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ => rfl

/-- A scalar spread over any shape (dims = []): every element is the scalar. -/
theorem bcastInDim_scalar_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 fun ax => ax.elim0

/-- The host's sum over the last axis, at row r: the initial value plus the sum of the row. -/
theorem hostReduceAdd_row_apply {φ : FTy} (x : FVec Ideal ⟨2, ![a, b]⟩ φ) (init : FVec Ideal ⟨0, ![]⟩ φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (r : Fin a) :
    Host.reduceAdd x init h' hu (ix1 r) = init ix0 + ∑ k : Fin b, x (ix2 r k) := by
  unfold Host.reduceAdd
  rw [Ideal.hostReduceAdd_def, Ideal.hostReduceAdd_single h' h, eq_ix0 (Shape.Idx.first hu)]
  exact congrArg (init ix0 + ·) (Finset.sum_congr rfl fun k _ => congrArg x (lift_row h r k))

end Idealize.ShloMosaic.RowOps

end
-- ==== Proof.LibKernelHost.lean ====
import Idealize.ShloMosaic.Lib.ValueIdx
import Idealize.ShloMosaic.Lib.Pipeline.Value
import Idealize.ShloMosaic.Lib.ValueLayout
import Idealize.ShloMosaic.Lib.KernelVsHost
import Idealize.ShloMosaic.Lib.IdealHost
import Idealize.ShloMosaic.PureOps.Ideal.Laws
import Idealize.ShloMosaic.PureOps.Reduce

/-! One value, two spellings, at the ideal values and at rank 2: a matrix product into a zero accumulator whose right
operand is contracted on its last axis is the host's product with the transposed right operand (both are the sum over
`k` of `l (a, k) * r (b, k)`); a row maximum or row sum is the host's reduction; the logistic is
`1 / (1 + exp (−x))`; a vector cast to one row is its broadcast along axis 1; a one-entry vector cast to a 1×1 matrix and
broadcast along a row is the host's two broadcasts of it. Also the two products, a bias row and a row broadcast read at
an index by coordinates. -/

noncomputable section

namespace Cert.LibBridge

open Idealize.ShloMosaic Idealize.ShloMosaic.ValueIdx

/-! ## The two contraction sums over `Fin K` -/

/-- Dimension numbers of a product `M×K` by `N×K`: both operands contracted on their last axis, no batch axis. -/
abbrev DimsT {M K N : Nat} (d : DotDims ⟨2, ![M, K]⟩ ⟨2, ![N, K]⟩ ⟨2, ![M, N]⟩) : Prop :=
  d.lhsContracting = [1] ∧ d.rhsContracting = [1] ∧ d.lhsNonContracting = [0] ∧ d.rhsNonContracting = [0] ∧
    d.lhsBatch = [] ∧ d.rhsBatch = []

/-- Dimension numbers of a plain product `M×K` by `K×N`, no batch axis. -/
abbrev DimsPlain {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1] ∧
    d.lhsBatch = [] ∧ d.rhsBatch = []

/-- The contraction sum of a product whose right operand is contracted on its LAST axis (`M×K` by `N×K`), at `(a, b)`:
    the sum over `k` of `l (a, k) * r (b, k)`. -/
theorem dot_sum_T {M K N : Nat} (d : DotDims ⟨2, ![M, K]⟩ ⟨2, ![N, K]⟩ ⟨2, ![M, N]⟩) (hd : DimsT d)
    (l : (⟨2, ![M, K]⟩ : Shape).Idx → EReal) (r : (⟨2, ![N, K]⟩ : Shape).Idx → EReal) (a : Fin M) (b : Fin N) :
    ∑ k : d.contr.Idx, l (d.lhsIdx (ix2 a b) k) * r (d.rhsIdx (ix2 a b) k) = ∑ k : Fin K, l (ix2 a k) * r (ix2 b k) := by
  obtain ⟨hlc, hrc, hln, hrn, hlb, hrb⟩ := hd
  obtain ⟨lc, rc, ln, rn, lb, rb, wf⟩ := d
  simp only at hlc hrc hln hrn hlb hrb
  subst hlc hrc hln hrn hlb hrb
  generalize hD : (⟨[1], [1], [0], [0], [], [], wf⟩ : DotDims ⟨2, ![M, K]⟩ ⟨2, ![N, K]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun i _ => ?_
  have hl : D.lhsIdx (ix2 a b) ((contrEquiv1 D K hr hs).symm i) = ix2 a i :=
    Shape.idx_ext₂ (by subst hD; rfl)
      ((D.lhsIdx_val_of_single (by subst hD; rfl) _ _).trans (contrEquiv1_symm_val D K hr hs i))
  have hrr : D.rhsIdx (ix2 a b) ((contrEquiv1 D K hr hs).symm i) = ix2 b i :=
    Shape.idx_ext₂ (by subst hD; rfl)
      ((D.rhsIdx_val_of_single (by subst hD; rfl) _ _).trans (contrEquiv1_symm_val D K hr hs i))
  rw [hl, hrr]

/-- The contraction sum of a plain product (`M×K` by `K×N`), at `(a, b)`: the sum over `k` of `l (a, k) * r (k, b)`. -/
theorem dot_sum_plain {M K N : Nat} (d : DotDims ⟨2, ![M, K]⟩ ⟨2, ![K, N]⟩ ⟨2, ![M, N]⟩) (hd : DimsPlain d)
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨hlc, hrc, hln, hrn, hlb, hrb⟩ := hd
  obtain ⟨lc, rc, ln, rn, lb, rb, wf⟩ := d
  simp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun i _ => ?_
  have hl : D.lhsIdx (ix2 a b) ((contrEquiv1 D K hr hs).symm i) = ix2 a i :=
    Shape.idx_ext₂ (by subst hD; rfl)
      ((D.lhsIdx_val_of_single (by subst hD; rfl) _ _).trans (contrEquiv1_symm_val D K hr hs i))
  have hrr : D.rhsIdx (ix2 a b) ((contrEquiv1 D K hr hs).symm i) = ix2 i b :=
    Shape.idx_ext₂ ((D.rhsIdx_val_of_single (by subst hD; rfl) _ _).trans (contrEquiv1_symm_val D K hr hs i))
      (by subst hD; rfl)
  rw [hl, hrr]

/-! ## The two products read at an index -/

/-- A product into the zero splat, right operand contracted on its last axis, at `(a, b)`. -/
theorem matmulT_apply {M K N : Nat} (d : DotDims ⟨2, ![M, K]⟩ ⟨2, ![N, K]⟩ ⟨2, ![M, N]⟩) (hd : DimsT d)
    (prec : Option ContractPrecision) (l : FVec Ideal ⟨2, ![M, K]⟩ .f32) (r : FVec Ideal ⟨2, ![N, K]⟩ .f32) (a : Fin M) (b : Fin N) :
    matmul d prec l r (constant ⟨2, ![M, N]⟩ .f32 0x00000000#32) (ix2 a b) = ∑ k : Fin K, l (ix2 a k) * r (ix2 b k) :=
  (Ideal.matmul_constant_zero_apply d prec l r (ix2 a b)).trans (dot_sum_T d hd l r a b)

/-- The host's plain product at `(a, b)`. -/
theorem dotGeneral_plain_apply {M K N : Nat} (d : DotDims ⟨2, ![M, K]⟩ ⟨2, ![K, N]⟩ ⟨2, ![M, N]⟩) (hd : DimsPlain d)
    (prec : Option ContractPrecision) (l : FVec Ideal ⟨2, ![M, K]⟩ .f32) (r : FVec Ideal ⟨2, ![K, N]⟩ .f32) (a : Fin M) (b : Fin N) :
    Host.dotGeneral d prec l r (ix2 a b) = ∑ k : Fin K, l (ix2 a k) * r (ix2 k b) :=
  (Ideal.dotGeneral_apply d prec .single l r (ix2 a b)).trans (dot_sum_plain d hd l r a b)

/-- The host's product with a transposed right operand, at `(a, b)`. -/
theorem dotGeneral_transpose_apply {M K N : Nat} (d : DotDims ⟨2, ![M, K]⟩ ⟨2, ![K, N]⟩ ⟨2, ![M, N]⟩) (hd : DimsPlain d)
    (prec : Option ContractPrecision) (ht : (⟨2, ![N, K]⟩ : Shape).Transposes [1, 0] ⟨2, ![K, N]⟩)
    (l : FVec Ideal ⟨2, ![M, K]⟩ .f32) (r : FVec Ideal ⟨2, ![N, K]⟩ .f32) (a : Fin M) (b : Fin N) :
    Host.dotGeneral d prec l (transpose ⟨2, ![K, N]⟩ [1, 0] r ht) (ix2 a b) = ∑ k : Fin K, l (ix2 a k) * r (ix2 b k) := by
  rw [dotGeneral_plain_apply d hd]
  exact Finset.sum_congr rfl fun k _ => by rw [transpose_ix2_apply]

/-- A product into the zero splat against a weight contracted on its last axis IS the host's product with the
    transposed weight. -/
theorem matmulT_eq_dotGeneral_transpose {M K N : Nat} (dk : DotDims ⟨2, ![M, K]⟩ ⟨2, ![N, K]⟩ ⟨2, ![M, N]⟩) (hk : DimsT dk)
    (dr : DotDims ⟨2, ![M, K]⟩ ⟨2, ![K, N]⟩ ⟨2, ![M, N]⟩) (hr : DimsPlain dr) (prec prec' : Option ContractPrecision)
    (ht : (⟨2, ![N, K]⟩ : Shape).Transposes [1, 0] ⟨2, ![K, N]⟩)
    (l : FVec Ideal ⟨2, ![M, K]⟩ .f32) (r : FVec Ideal ⟨2, ![N, K]⟩ .f32) :
    matmul dk prec l r (constant ⟨2, ![M, N]⟩ .f32 0x00000000#32)
      = Host.dotGeneral dr prec' l (transpose ⟨2, ![K, N]⟩ [1, 0] r ht) := by
  funext j
  obtain ⟨a, b, rfl⟩ : ∃ (a : Fin M) (b : Fin N), j = ix2 a b := ⟨j 0, j 1, eq_ix2 j⟩
  rw [matmulT_apply dk hk, dotGeneral_transpose_apply dr hr]

/-! ## Elementwise operations -/

section Elementwise
variable {s : Shape} {φ : FTy}

/-- The kernel's exponential is the host's. -/
theorem exp_eq_hostExp (x : FVec Ideal s φ) : exp x = Host.exp x := rfl
/-- The kernel's hyperbolic tangent is the host's. -/
theorem tanh_eq_hostTanh (x : FVec Ideal s φ) : tanh x = Host.tanh x := rfl
/-- The kernel's quotient is the host's. -/
theorem divf_eq_hostDivf (x y : FVec Ideal s φ) : divf x y = Host.divf x y := rfl

/-- A scalar splat is the host's broadcast of the rank-0 constant. -/
theorem broadcast_eq_broadcastInDim_constant {t : Shape} (h : (⟨0, ![]⟩ : Shape).BroadcastsInDim t ![]) (w : BitVec φ.bits) :
    broadcast t (Scalar.ofBits (F := Ideal) φ w) = broadcastInDim t ![] h (constant (F := Ideal) ⟨0, ![]⟩ φ w) :=
  (broadcastInDim_constant (F := Ideal) (s := ⟨0, ![]⟩) (t := t) ![] h w).symm

/-- The logistic is `1 / (1 + exp (−x))`, in the host's operations. -/
theorem logistic_eq (h : (⟨0, ![]⟩ : Shape).BroadcastsInDim s ![]) (x : FVec Ideal s .f32) :
    logistic x = Host.divf (broadcastInDim s ![] h (constant (F := Ideal) ⟨0, ![]⟩ .f32 0x3F800000#32))
      (addf (broadcastInDim s ![] h (constant (F := Ideal) ⟨0, ![]⟩ .f32 0x3F800000#32)) (Host.exp (Host.negf x))) := by
  funext j
  show Ideal.logistic (x j) = Ideal.div (Ideal.ofBits .f32 0x3F800000#32) (Ideal.ofBits .f32 0x3F800000#32 + Ideal.exp (-(x j)))
  rw [Ideal.ofBits_one_f32]
  rfl

end Elementwise

/-! ## Reductions over one axis -/

section Reductions
variable {s t u : Shape} {φ : FTy} {a : Fin s.rank}

/-- A kernel's maximum over one axis from its accumulator's value is the host's reduce with a maximum body from the same
    constant. -/
theorem multiReduction_maximumf_eq_hostReduce (src : FVec Ideal s φ) (acc : BitVec φ.bits) (h : s.Reduces [a] t)
    (hφ : FKind.Formats φ) (hacc : acc = FKind.maximumf.neutral φ hφ) (h' : s.ReducesTo [a] t) (hu : 0 < u.numel) :
    multiReduction .maximumf [a] t src acc h hφ hacc
      = Host.reduce FloatOps.maximumf src (constant (F := Ideal) u φ acc) h' hu := by
  funext j
  rw [Ideal.multiReduction_maximumf_single src acc h hφ hacc j, Host.reduce_eq_fold_single FloatOps.maximumf src _ h' h hu j]
  rfl

end Reductions

/-! ## Layout -/

section Layout
variable {α : Type}

/-- A vector of `n` entries cast to one row is its broadcast along axis 1. -/
theorem shapeCast_row_eq_broadcastInDim {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨p, c, rfl⟩ : ∃ (p : Fin 1) (c : Fin n), i = ix2 p c := ⟨i 0, i 1, eq_ix2 i⟩
  rw [shapeCast_a_1a_apply]
  refine (broadcastInDim_apply ![1] hd x (ix2 p c) (ix1 c) fun ax => ?_).symm
  match ax with
  | ⟨0, _⟩ =>
    show c.val = if n = 1 then 0 else c.val
    split
    · have := c.isLt; omega
    · rfl

/-- A vector broadcast along axis 1 of a one-row matrix, at `(p, c)`. -/
theorem broadcastInDim_row_apply {n : Nat} (x : (⟨1, ![n]⟩ : Shape).Idx → α)
    (hd : (⟨1, ![n]⟩ : Shape).BroadcastsInDim ⟨2, ![1, n]⟩ ![1]) (p : Fin 1) (c : Fin n) :
    broadcastInDim ⟨2, ![1, n]⟩ ![1] hd x (ix2 p c) = x (ix1 c) := by
  refine broadcastInDim_apply ![1] hd x (ix2 p c) (ix1 c) fun ax => ?_
  match ax with
  | ⟨0, _⟩ =>
    show c.val = if n = 1 then 0 else c.val
    split
    · have := c.isLt; omega
    · rfl

/-- Every index of the one-entry vector shape is the same. -/
theorem idx1_one (j k : (⟨1, ![1]⟩ : Shape).Idx) : j = k := by
  have hj : (j 0).val < 1 := (j 0).isLt
  have hk : (k 0).val < 1 := (k 0).isLt
  rw [eq_ix1 j, eq_ix1 k]
  exact congrArg ix1 (Fin.ext (by omega))

/-- A one-entry vector cast to a 1×1 matrix and broadcast along a row is the host's two broadcasts of it. -/
theorem broadcastTo_shapeCast_one_eq {n : Nat} (z : (⟨1, ![1]⟩ : Shape).Idx → α)
    (hsc : (⟨1, ![1]⟩ : Shape).ShapeCasts ⟨2, ![1, 1]⟩) (hb : (⟨2, ![1, 1]⟩ : Shape).Broadcasts ⟨2, ![1, n]⟩)
    (h1 : (⟨1, ![1]⟩ : Shape).BroadcastsInDim ⟨2, ![1, 1]⟩ ![0])
    (h2 : (⟨2, ![1, 1]⟩ : Shape).BroadcastsInDim ⟨2, ![1, n]⟩ ![0, 1]) :
    broadcastTo ⟨2, ![1, n]⟩ (shapeCast ⟨2, ![1, 1]⟩ z hsc) hb
      = broadcastInDim ⟨2, ![1, n]⟩ ![0, 1] h2 (broadcastInDim ⟨2, ![1, 1]⟩ ![0] h1 z) := by
  funext j
  unfold broadcastTo shapeCast broadcastInDim
  exact congrArg z (idx1_one _ _)

end Layout

end Cert.LibBridge

end
-- ==== Proof.KI.Val0.lean ====
/-
  What the first pallas_call leaves in its result array, entry by entry: the first layer of the specification,
  of the arrays the call is entered with. The 16 inner grid points add up the 16 column blocks of the diffusion
  product; the point that ends a row block turns the accumulated rows into the layer's output rows.
-/
import proofs.«424208_j60103772340409_3_alg».proof.Proof.KI.Defs0
import proofs.«424208_j60103772340409_3_alg».proof.Proof.Spec
import proofs.«424208_j60103772340409_3_alg».proof.Proof.LibRowTake
import proofs.«424208_j60103772340409_3_alg».proof.Proof.LibMatmulAt
import proofs.«424208_j60103772340409_3_alg».proof.Proof.LibDotAt
import proofs.«424208_j60103772340409_3_alg».proof.Proof.LibSumSplit
import proofs.«424208_j60103772340409_3_alg».proof.Proof.LibKeepdims
import proofs.«424208_j60103772340409_3_alg».proof.Proof.LibRowOps
import proofs.«424208_j60103772340409_3_alg».proof.Proof.LibKernelHost
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The three payloads at an index -/

/-- The cleared accumulator reads zero everywhere. -/
theorem cleared_apply (p : Fin 1024) (f : Fin 512) : (k0_pay1 (F := Ideal) : Vec Ideal S1024x512 .f32) (ix2 p f) = 0 := by
  unfold k0_pay1
  rw [shapeCast_self]
  exact Ideal.ofBits_zero_f32

/-- One accumulation step at an index: what the accumulator held plus the product of the diffusion block's row with
    the source block's column. -/
theorem accStep_apply (x : Vec Ideal S1024x2048 .f32) (a : Vec Ideal S1024x512 .f32) (y : Vec Ideal S2048x512 .bf16)
    (p : Fin 1024) (f : Fin 512) :
    (k0_pay2 x a y : Vec Ideal S1024x512 .f32) (ix2 p f) = a (ix2 p f) + ∑ s : Fin 2048, x (ix2 p s) * y (ix2 s f) := by
  unfold k0_pay2
  rw [shapeCast_self, shapeCast_self, addf_apply]
  refine congrArg (a (ix2 p f) + ·) ?_
  exact MatmulAt.matmul_plain_apply (M := 1024) (K := 2048) (N := 512) none _ y p f

/-- The output block at an index: the positive part of the accumulated row times the first weight half plus the
    destination row times the second. -/
theorem outBlock_apply (a : Vec Ideal S1024x512 .f32) (w1 : Vec Ideal S512x512 .bf16) (xd : Vec Ideal S1024x512 .bf16)
    (w2 : Vec Ideal S512x512 .bf16) (p : Fin 1024) (d : Fin 512) :
    (k0_pay3 a w1 xd w2 : Vec Ideal S1024x512 .f32) (ix2 p d)
      = max ((∑ f : Fin 512, a (ix2 p f) * w1 (ix2 f d)) + ∑ f : Fin 512, xd (ix2 p f) * w2 (ix2 f d)) 0 := by
  unfold k0_pay3
  rw [shapeCast_self, shapeCast_self, shapeCast_self, maximumf_apply, addf_apply, broadcast_apply]
  refine congrArg₂ max (congrArg₂ (· + ·) ?_ ?_) Ideal.ofBits_zero_f32
  · exact MatmulAt.matmul_plain_apply (M := 1024) (K := 512) (N := 512) none _ w1 p d
  · exact MatmulAt.matmul_plain_apply (M := 1024) (K := 512) (N := 512) none xd w2 p d

/-! ## The operand arrays by coordinates, and each window's block as a part of its array -/

/-- The diffusion matrix, the source rows, the destination rows and the two weight halves, as the call finds them. -/
abbrev dif (c : Dev nD) : Fin 4096 → Fin 32768 → EReal := Spec.rd2 (V c main_arg4 : S4096x32768.Idx → EReal)
abbrev xs (c : Dev nD) : Fin 32768 → Fin 512 → EReal := Spec.rd2 (V c main_v3 : S32768x512.Idx → EReal)
abbrev xd (c : Dev nD) : Fin 4096 → Fin 512 → EReal := Spec.rd2 (V c main_v5 : S4096x512.Idx → EReal)
abbrev wA (c : Dev nD) : Fin 512 → Fin 512 → EReal := Spec.rd2 (V c main_v7 : S512x512.Idx → EReal)
abbrev wB (c : Dev nD) : Fin 512 → Fin 512 → EReal := Spec.rd2 (V c main_v9 : S512x512.Idx → EReal)

/-- The printed index maps over the grid: point t = 16·a + k has row block a and column block k. -/
theorem blockIndex_facts : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 16 ∧ win0_5.index t (1 : Fin 2) = 0 :=
  (by decide +kernel : ∀ t : Fin grid0.N, _)

/-- The diffusion block at point t: rows 1024·(t / 16) …, columns 2048·(t % 16) … of the matrix. -/
theorem difBlock_apply (c : Dev nD) (t : Fin cfg0.N) (p : Fin 1024) (s : Fin 2048) (i : Fin 4096) (j : Fin 32768)
    (hi : i.val = 1024 * (t.val / 16) + p.val) (hj : j.val = 2048 * (t.val % 16) + s.val) :
    (iblk0 V c 0 t : Vec Ideal S1024x2048 .f32) (ix2 p s) = dif V c i j := by
  obtain ⟨e0, e1, -⟩ := blockIndex_facts t
  unfold iblk0
  rw [View.read_apply]
  show V c main_arg4 _ = V c main_arg4 (ix2 i j)
  congr 1
  funext a
  apply Fin.ext
  match a with
  | ⟨0, _⟩ => show win0_0.index t 0 * 1024 + 1 * p.val = i.val; rw [e0, hi]; omega
  | ⟨1, _⟩ => show win0_0.index t 1 * 2048 + 1 * s.val = j.val; rw [e1, hj]; omega

/-- The source block at point t: rows 2048·(t % 16) … of the source rows, all columns. -/
theorem srcBlock_apply (c : Dev nD) (t : Fin cfg0.N) (s : Fin 2048) (f : Fin 512) (j : Fin 32768)
    (hj : j.val = 2048 * (t.val % 16) + s.val) :
    (iblk0 V c 1 t : Vec Ideal S2048x512 .bf16) (ix2 s f) = xs V c j f := by
  obtain ⟨-, -, e0, e1, -⟩ := blockIndex_facts t
  unfold iblk0
  rw [View.read_apply]
  show V c main_v3 _ = V c main_v3 (ix2 j f)
  congr 1
  funext a
  apply Fin.ext
  match a with
  | ⟨0, _⟩ => show win0_1.index t 0 * 2048 + 1 * s.val = j.val; rw [e0, hj]; omega
  | ⟨1, _⟩ => show win0_1.index t 1 * 512 + 1 * f.val = f.val; rw [e1]; omega

/-- The destination block at point t: rows 1024·(t / 16) … of the destination rows, all columns. -/
theorem dstBlock_apply (c : Dev nD) (t : Fin cfg0.N) (p : Fin 1024) (f : Fin 512) (i : Fin 4096)
    (hi : i.val = 1024 * (t.val / 16) + p.val) :
    (iblk0 V c 2 t : Vec Ideal S1024x512 .bf16) (ix2 p f) = xd V c i f := by
  obtain ⟨-, -, -, -, e0, e1, -⟩ := blockIndex_facts t
  unfold iblk0
  rw [View.read_apply]
  show V c main_v5 _ = V c main_v5 (ix2 i f)
  congr 1
  funext a
  apply Fin.ext
  match a with
  | ⟨0, _⟩ => show win0_2.index t 0 * 1024 + 1 * p.val = i.val; rw [e0, hi]; omega
  | ⟨1, _⟩ => show win0_2.index t 1 * 512 + 1 * f.val = f.val; rw [e1]; omega

/-- The two weight windows hold their whole arrays at every point. -/
theorem wABlock_apply (c : Dev nD) (t : Fin cfg0.N) (f d : Fin 512) :
    (iblk0 V c 3 t : Vec Ideal S512x512 .bf16) (ix2 f d) = wA V c f d := by
  obtain ⟨-, -, -, -, -, -, e0, e1, -⟩ := blockIndex_facts t
  unfold iblk0
  rw [View.read_apply]
  show V c main_v7 _ = V c main_v7 (ix2 f d)
  congr 1
  funext a
  apply Fin.ext
  match a with
  | ⟨0, _⟩ => show win0_3.index t 0 * 512 + 1 * f.val = f.val; rw [e0]; omega
  | ⟨1, _⟩ => show win0_3.index t 1 * 512 + 1 * d.val = d.val; rw [e1]; omega

theorem wBBlock_apply (c : Dev nD) (t : Fin cfg0.N) (f d : Fin 512) :
    (iblk0 V c 4 t : Vec Ideal S512x512 .bf16) (ix2 f d) = wB V c f d := by
  obtain ⟨-, -, -, -, -, -, -, -, e0, e1, -⟩ := blockIndex_facts t
  unfold iblk0
  rw [View.read_apply]
  show V c main_v9 _ = V c main_v9 (ix2 f d)
  congr 1
  funext a
  apply Fin.ext
  match a with
  | ⟨0, _⟩ => show win0_4.index t 0 * 512 + 1 * f.val = f.val; rw [e0]; omega
  | ⟨1, _⟩ => show win0_4.index t 1 * 512 + 1 * d.val = d.val; rw [e1]; omega

/-! ## The accumulator: partial sums of the diffusion product along the source axis -/

/-- The terms of entry (i, f) of the diffusion product, as a sequence along the source axis (zero past its end). -/
def prodTerm (c : Dev nD) (i : Fin 4096) (f : Fin 512) (s : ℕ) : EReal :=
  if h : s < 32768 then dif V c i ⟨s, h⟩ * xs V c ⟨s, h⟩ f else 0

/-- The diffusion block and the source block at a point, at their literal types. -/
abbrev difBlk (c : Dev nD) (t : Fin cfg0.N) : Vec Ideal S1024x2048 .f32 := iblk0 V c 0 t
abbrev srcBlk (c : Dev nD) (t : Fin cfg0.N) : Vec Ideal S2048x512 .bf16 := iblk0 V c 1 t

/-- The block product at point t = 16·a + k is the run of 2048 terms from 2048·k on. -/
theorem blockProduct_eq (c : Dev nD) (t : Fin cfg0.N) (a k : ℕ) (ht : t.val = 16 * a + k) (hk : k < 16)
    (p : Fin 1024) (f : Fin 512) (i : Fin 4096) (hi : i.val = 1024 * a + p.val) :
    (∑ s : Fin 2048, difBlk V c t (ix2 p s) * srcBlk V c t (ix2 s f))
      = ∑ s ∈ Finset.range 2048, prodTerm V c i f (2048 * k + s) := by
  rw [Finset.sum_range]
  refine Finset.sum_congr rfl fun s _ => ?_
  have hs : 2048 * k + s.val < 32768 := by have := s.isLt; omega
  have hdiv : t.val / 16 = a := by omega
  have hmod : t.val % 16 = k := by omega
  rw [prodTerm, dif_pos hs]
  exact congrArg₂ (· * ·)
    (difBlock_apply V c t p s i ⟨2048 * k + s.val, hs⟩ (by rw [hdiv]; exact hi) (by rw [hmod]))
    (srcBlock_apply V c t s f ⟨2048 * k + s.val, hs⟩ (by rw [hmod]))

/-- The accumulator does not depend on how its position is written. -/
theorem acc0_congr (c : Dev nD) (n n' : ℕ) (h : n < cfg0.N) (h' : n' < cfg0.N) (e : n = n') :
    acc0 V c n h = acc0 V c n' h' := by
  subst e; rfl

/-- After the point 16·a + k the accumulator's entry (p, f) is the sum of the first 2048·(k + 1) terms of entry
    (1024·a + p, f) of the diffusion product. -/
theorem acc0_apply (c : Dev nD) (a : ℕ) : ∀ (k : ℕ) (h : 16 * a + k < cfg0.N), k < 16 →
    ∀ (p : Fin 1024) (f : Fin 512) (i : Fin 4096), i.val = 1024 * a + p.val →
      (acc0 V c (16 * a + k) h : Vec Ideal S1024x512 .f32) (ix2 p f)
        = ∑ s ∈ Finset.range (2048 * (k + 1)), prodTerm V c i f s
  | 0, h, hk, p, f, i, hi => by
    have hmod : (⟨16 * a + 0, h⟩ : Fin cfg0.N).val % 16 = 0 := by show (16 * a + 0) % 16 = 0; omega
    refine (congrFun (acc0_start V c ⟨16 * a + 0, h⟩ hmod) (ix2 p f)).trans ?_
    refine (accStep_apply _ _ _ p f).trans ?_
    refine (congrArg₂ (· + ·) (cleared_apply p f) (blockProduct_eq V c ⟨16 * a + 0, h⟩ a 0 rfl hk p f i hi)).trans ?_
    simp only [Nat.mul_zero, Nat.zero_add, Nat.mul_one, zero_add]
  | k + 1, h, hk, p, f, i, hi => by
    have hne : ¬(⟨16 * a + (k + 1), h⟩ : Fin cfg0.N).val % 16 = 0 := by show ¬(16 * a + (k + 1)) % 16 = 0; omega
    have hprev : 16 * a + k < cfg0.N := by omega
    refine (congrFun (acc0_step V c ⟨16 * a + (k + 1), h⟩ hne) (ix2 p f)).trans ?_
    refine (accStep_apply _ _ _ p f).trans ?_
    have ih := acc0_apply c a k hprev (by omega) p f i hi
    have eprev : (acc0 V c ((⟨16 * a + (k + 1), h⟩ : Fin cfg0.N).val - 1) (Nat.lt_of_le_of_lt (Nat.sub_le _ _) h) : Vec Ideal S1024x512 .f32) (ix2 p f)
        = ∑ s ∈ Finset.range (2048 * (k + 1)), prodTerm V c i f s :=
      (congrFun (acc0_congr V c _ (16 * a + k) _ hprev (by show 16 * a + (k + 1) - 1 = 16 * a + k; omega)) (ix2 p f)).trans ih
    refine (congrArg₂ (· + ·) eprev (blockProduct_eq V c ⟨16 * a + (k + 1), h⟩ a (k + 1) rfl hk p f i hi)).trans ?_
    rw [show 2048 * (k + 1 + 1) = 2048 * (k + 1) + 2048 by omega, Finset.sum_range_add]

/-- At the point that ends a row block the accumulator holds the whole product. -/
theorem acc0_whole (c : Dev nD) (a : ℕ) (h : 16 * a + 15 < cfg0.N) (p : Fin 1024) (f : Fin 512) (i : Fin 4096)
    (hi : i.val = 1024 * a + p.val) :
    (acc0 V c (16 * a + 15) h : Vec Ideal S1024x512 .f32) (ix2 p f) = ∑ s : Fin 32768, dif V c i s * xs V c s f := by
  rw [acc0_apply V c a 15 h (by omega) p f i hi, Finset.sum_range]
  exact Finset.sum_congr rfl fun s _ => by rw [prodTerm, dif_pos s.isLt]

/-! ## The output block at the point that ends a row block -/

/-- The joined weight matrix reads its first half on the first 512 rows and its second half on the last 512. -/
theorem joinW_low (wa wb : Fin 512 → Fin 512 → EReal) (f d : Fin 512) (h : f.val < 1024) :
    Spec.joinW wa wb ⟨f.val, h⟩ d = wa f d := by
  unfold Spec.joinW
  exact dif_pos f.isLt

theorem joinW_high (wa wb : Fin 512 → Fin 512 → EReal) (f d : Fin 512) (h : 512 + f.val < 1024) :
    Spec.joinW wa wb ⟨512 + f.val, h⟩ d = wb f d := by
  unfold Spec.joinW
  have hn : ¬(⟨512 + f.val, h⟩ : Fin 1024).val < 512 := by show ¬(512 + f.val < 512); omega
  rw [dif_neg hn]
  exact congrArg (fun r => wb r d) (Fin.ext (by show 512 + f.val - 512 = f.val; omega))

/-- The accumulator, the destination block and the two weight blocks at a point, at their literal types. -/
abbrev accAt0 (c : Dev nD) (t : Fin cfg0.N) : Vec Ideal S1024x512 .f32 := acc0 V c t.val t.isLt
abbrev dstBlk (c : Dev nD) (t : Fin cfg0.N) : Vec Ideal S1024x512 .bf16 := iblk0 V c 2 t
abbrev wABlk (c : Dev nD) (t : Fin cfg0.N) : Vec Ideal S512x512 .bf16 := iblk0 V c 3 t
abbrev wBBlk (c : Dev nD) (t : Fin cfg0.N) : Vec Ideal S512x512 .bf16 := iblk0 V c 4 t

/-- At the point 16·a + 15 the output block's entry (p, d) is the layer's entry (1024·a + p, d). -/
theorem out0At_apply (c : Dev nD) (t : Fin cfg0.N) (a : ℕ) (ht : t.val = 16 * a + 15) (p : Fin 1024) (d : Fin 512)
    (i : Fin 4096) (hi : i.val = 1024 * a + p.val) :
    (out0At V c t.val t.isLt : Vec Ideal S1024x512 .f32) (ix2 p d)
      = Spec.layer (dif V c) (xs V c) (xd V c) (Spec.joinW (wA V c) (wB V c)) i d := by
  have hdiv : t.val / 16 = a := by omega
  have hacc : ∀ f : Fin 512, accAt0 V c t (ix2 p f) = ∑ s : Fin 32768, dif V c i s * xs V c s f := fun f =>
    (congrFun (acc0_congr V c t.val (16 * a + 15) t.isLt (ht ▸ t.isLt) ht) (ix2 p f)).trans
      (acc0_whole V c a (ht ▸ t.isLt) p f i hi)
  have e1 : (∑ f : Fin 512, accAt0 V c t (ix2 p f) * wABlk V c t (ix2 f d))
      = ∑ f : Fin 512, (∑ s : Fin 32768, dif V c i s * xs V c s f) * Spec.joinW (wA V c) (wB V c) ⟨f.val, by omega⟩ d :=
    Finset.sum_congr rfl fun f _ =>
      congrArg₂ (· * ·) (hacc f) ((wABlock_apply V c t f d).trans (joinW_low _ _ f d _).symm)
  have e2 : (∑ f : Fin 512, dstBlk V c t (ix2 p f) * wBBlk V c t (ix2 f d))
      = ∑ f : Fin 512, xd V c i f * Spec.joinW (wA V c) (wB V c) ⟨512 + f.val, by omega⟩ d :=
    Finset.sum_congr rfl fun f _ =>
      congrArg₂ (· * ·) (dstBlock_apply V c t p f i (by rw [hdiv]; exact hi)) ((wBBlock_apply V c t f d).trans (joinW_high _ _ f d _).symm)
  unfold out0At
  refine (outBlock_apply _ _ _ _ p d).trans ?_
  unfold Spec.layer
  exact congrArg (max · 0) (congrArg₂ (· + ·) e1 e2)

/-! ## From the written-back blocks to the result array -/

/-- The layer of the call's operands, as contents of the result array. -/
def layerArr (c : Dev nD) : S4096x512.Idx → EReal := fun k =>
  Spec.layer (dif V c) (xs V c) (xd V c) (Spec.joinW (wA V c) (wB V c)) (k 0) (k 1)

/-- Entry y of the block stored at the point 16·a + 15 is the layer at row 1024·a + y₀, column y₁. -/
theorem outBlock_entry (c : Dev nD) (t : Fin cfg0.N) (a : ℕ) (ht : t.val = 16 * a + 15) (y : S1024x512.Idx)
    (k : S4096x512.Idx) (hk0 : (k 0).val = 1024 * a + (y 0).val) (hk1 : (k 1).val = (y 1).val) :
    (out0At V c t.val t.isLt : Vec Ideal S1024x512 .f32) y = layerArr V c k := by
  obtain ⟨p, d, rfl⟩ : ∃ (p : Fin 1024) (d : Fin 512), y = ix2 p d := ⟨y 0, y 1, eq_ix2 y⟩
  obtain ⟨i, d', rfl⟩ : ∃ (i : Fin 4096) (d' : Fin 512), k = ix2 i d' := ⟨k 0, k 1, eq_ix2 k⟩
  obtain rfl : d' = d := Fin.ext hk1
  exact out0At_apply V c t a ht p d' i hk0

/-- What a point that writes the output window back writes: its block of the layer. -/
theorem flushed0_eq (c : Dev nD) (t : Fin cfg0.N) (hf : (cfg0.win 5).flush t = true) :
    (dat0 V c).flushed 5 t = ((cfg0.win 5).blk t).view.read (Elt Ideal) (layerArr V c) := by
  have h15 : t.val % 16 = 15 := (flush0_5 t).mp hf
  have ht : t.val = 16 * (t.val / 16) + 15 := by omega
  obtain ⟨-, -, -, -, -, -, -, -, -, -, e0, e1⟩ := blockIndex_facts t
  show (cfg0.win 5).cut (grid0.coords t) ((dat0 V c).after 5 t) = _
  rw [after0_5]
  funext y
  rw [View.read_apply]
  show out0At V c t.val t.isLt y = layerArr V c (((cfg0.win 5).blk t).view.emb y)
  refine outBlock_entry V c t (t.val / 16) ht y (((cfg0.win 5).blk t).view.emb y) ?_ ?_
  · show win0_5.index t 0 * 1024 + 1 * (y 0).val = 1024 * (t.val / 16) + (y 0).val
    rw [e0]; omega
  · show win0_5.index t 1 * 512 + 1 * (y 1).val = (y 1).val
    rw [e1]; omega

/-- An index of the result array lies in the output block of point t iff each coordinate lies in the block's range. -/
theorem mem_outBlock (t : Fin cfg0.N) (k : S4096x512.Idx) :
    k ∈ ((cfg0.win 5).blk t).view.set
      ↔ ∀ a : Fin 2, win0_5.index t a * S1024x512.size a ≤ (k a).val ∧ (k a).val < win0_5.index t a * S1024x512.size a + S1024x512.size a := by
  show k ∈ ((View.whole main_v10).slice (win0_5.rect t)).set ↔ _
  rw [View.set_slice_whole, Rect.mem_set_unit]
  exact Iff.rfl

/-- Row r of the result array is written back at the point 16·(r / 1024) + 15. -/
theorem outBlocks_cover (k : S4096x512.Idx) :
    ∃ t : Fin cfg0.N, (cfg0.win 5).flush t = true ∧ k ∈ ((cfg0.win 5).blk t).view.set := by
  have h0 : (k 0).val < 4096 := idx2_lt0 k
  have h1 : (k 1).val < 512 := idx2_lt1 k
  have hN : grid0.N = 64 := N_0
  have hlt : 16 * ((k 0).val / 1024) + 15 < grid0.N := by rw [hN]; omega
  refine ⟨⟨16 * ((k 0).val / 1024) + 15, hlt⟩, (flush0_5 _).mpr (by show (16 * ((k 0).val / 1024) + 15) % 16 = 15; omega), ?_⟩
  obtain ⟨-, -, -, -, -, -, -, -, -, -, e0, e1⟩ := blockIndex_facts ⟨16 * ((k 0).val / 1024) + 15, hlt⟩
  have e0' : win0_5.index ⟨16 * ((k 0).val / 1024) + 15, hlt⟩ (0 : Fin 2) = (k 0).val / 1024 := by
    rw [e0]; show (16 * ((k 0).val / 1024) + 15) / 16 = (k 0).val / 1024; omega
  rw [mem_outBlock]
  intro a
  match a with
  | ⟨0, _⟩ =>
    show win0_5.index ⟨16 * ((k 0).val / 1024) + 15, hlt⟩ (0 : Fin 2) * 1024 ≤ (k 0).val
      ∧ (k 0).val < win0_5.index ⟨16 * ((k 0).val / 1024) + 15, hlt⟩ (0 : Fin 2) * 1024 + 1024
    rw [e0']; omega
  | ⟨1, _⟩ =>
    show win0_5.index ⟨16 * ((k 0).val / 1024) + 15, hlt⟩ (1 : Fin 2) * 512 ≤ (k 1).val
      ∧ (k 1).val < win0_5.index ⟨16 * ((k 0).val / 1024) + 15, hlt⟩ (1 : Fin 2) * 512 + 512
    rw [e1]; omega

/-- So after the last grid point the result array holds the layer. -/
theorem arr0_eq (c : Dev nD) : (dat0 V c).arrAt 5 cfg0.N = layerArr V c :=
  (dat0 V c).arrAt_eq_of_cover 5 (layerArr V c) (flushed0_eq V c) outBlocks_cover

/-- The result array of the first call after its last grid point, at row `i`, column `d`. -/
theorem arr0_apply (c : Dev nD) (i : Fin 4096) (d : Fin 512) :
    ((dat0 (F := Ideal) V c).arrAt 5 cfg0.N : S4096x512.Idx → EReal) (ix2 i d)
      = Spec.layer (Spec.rd2 (V c main_arg4 : S4096x32768.Idx → EReal)) (Spec.rd2 (V c main_v3 : S32768x512.Idx → EReal))
          (Spec.rd2 (V c main_v5 : S4096x512.Idx → EReal))
          (Spec.joinW (Spec.rd2 (V c main_v7 : S512x512.Idx → EReal)) (Spec.rd2 (V c main_v9 : S512x512.Idx → EReal))) i d :=
  congrFun (arr0_eq V c) (ix2 i d)

end Cert.KernelIdeal.Gen

end
-- ==== Proof.KI.Val1.lean ====
/-
  What the second pallas_call leaves in its result array, entry by entry: the second layer, the class scores and
  the softmax of the specification, of the arrays the call is entered with. Each of the two grid points computes 256
  whole rows, so a row's softmax never crosses a block.
-/
import proofs.«424208_j60103772340409_3_alg».proof.Proof.KI.Defs1
import proofs.«424208_j60103772340409_3_alg».proof.Proof.Spec
import proofs.«424208_j60103772340409_3_alg».proof.Proof.LibRowTake
import proofs.«424208_j60103772340409_3_alg».proof.Proof.LibMatmulAt
import proofs.«424208_j60103772340409_3_alg».proof.Proof.LibDotAt
import proofs.«424208_j60103772340409_3_alg».proof.Proof.LibSumSplit
import proofs.«424208_j60103772340409_3_alg».proof.Proof.LibKeepdims
import proofs.«424208_j60103772340409_3_alg».proof.Proof.LibRowOps
import proofs.«424208_j60103772340409_3_alg».proof.Proof.LibKernelHost
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

namespace Layer2

/-! ## The body's stored value at a row and a class -/

/-- The word of minus infinity is the least extended real. -/
theorem ofBits_neg_inf : Ideal.ofBits .f32 0xFF800000#32 = ⊥ := by simp [Ideal.ofBits, Ideal.ieee]

/-- The product of the diffusion rows with the source rows, at row `p`, feature `q`. -/
theorem agg_apply (l : FVec Ideal S256x3584 .bf16) (r : FVec Ideal S3584x512 .bf16) (p : Fin 256) (q : Fin 512) :
    matmul dot_S256x3584_S3584x512_S256x512_1_0_0_1_n_n none l r (constant (F := Ideal) S256x512 .f32 0x00000000#32) (ix2 p q)
      = ∑ k : Fin 3584, l (ix2 p k) * r (ix2 k q) :=
  MatmulAt.matmul_plain_apply none l r p q

/-- A product of 256 rows of 512 features with a 512×512 weight half, at row `p`, column `q`. -/
theorem half_apply {φ : FTy} (l : FVec Ideal S256x512 φ) (r : FVec Ideal S512x512 .bf16) (p : Fin 256) (q : Fin 512) :
    matmul dot_S256x512_S512x512_S256x512_1_0_0_1_n_n none l r (constant (F := Ideal) S256x512 .f32 0x00000000#32) (ix2 p q)
      = ∑ k : Fin 512, l (ix2 p k) * r (ix2 k q) :=
  MatmulAt.matmul_plain_apply none l r p q

/-- The product with the classifier's weights, at row `p`, class `q`. -/
theorem cls_apply {φ : FTy} (l : FVec Ideal S256x512 φ) (r : FVec Ideal S512x128 .bf16) (p : Fin 256) (q : Fin 128) :
    matmul dot_S256x512_S512x128_S256x128_1_0_0_1_n_n none l r (constant (F := Ideal) S256x128 .f32 0x00000000#32) (ix2 p q)
      = ∑ k : Fin 512, l (ix2 p k) * r (ix2 k q) :=
  MatmulAt.matmul_plain_apply none l r p q

/-- A number per row, kept as a column and spread over the 128 classes. -/
def spread1 (v : FVec Ideal S256 .f32) : FVec Ideal S256x128 .f32 :=
  broadcastTo S256x128 (shapeCast S256x1 v shapeCasts_S256_S256x1) broadcasts_S256x1_S256x128

theorem spread1_apply (v : FVec Ideal S256 .f32) (p : Fin 256) (k : Fin 128) : spread1 v (ix2 p k) = v (ix1 p) :=
  (RowOps.broadcastTo_col_apply _ broadcasts_S256x1_S256x128 p k).trans (RowOps.shapeCast_col_apply v shapeCasts_S256_S256x1 p 0)

/-- The largest score of each row. -/
def rowMaxes1 (z : FVec Ideal S256x128 .f32) : FVec Ideal S256 .f32 :=
  multiReduction (F := Ideal) .maximumf [1] S256 z 0xFF800000#32 reduces_S256x128_S256 (.inl rfl) rfl

theorem rowMaxes1_apply (z : FVec Ideal S256x128 .f32) (p : Fin 256) :
    rowMaxes1 z (ix1 p) = Spec.rowMax fun k => z (ix2 p k) := by
  refine (Ideal.multiReduction_maximumf_single z 0xFF800000#32 reduces_S256x128_S256 (.inl rfl) rfl (ix1 p)).trans ?_
  have e : (z ∘ reduces_S256x128_S256.lift (ix1 p)) = fun k : Fin 128 => z (ix2 p k) :=
    funext fun k => congrArg z (RowOps.lift_row reduces_S256x128_S256 p k)
  rw [e, Ideal.ofBits_def, ofBits_neg_inf]
  rfl

/-- The sum of each row. -/
def rowSums1 (z : FVec Ideal S256x128 .f32) : FVec Ideal S256 .f32 :=
  multiReduction (F := Ideal) .add [1] S256 z 0x00000000#32 reduces_S256x128_S256 (.inl rfl) rfl

theorem rowSums1_apply (z : FVec Ideal S256x128 .f32) (p : Fin 256) :
    rowSums1 z (ix1 p) = ∑ k : Fin 128, z (ix2 p k) :=
  RowOps.multiReduction_row_apply z 0x00000000#32 reduces_S256x128_S256 (.inl rfl) rfl p

/-- The softmax of each row as the body writes it: shift by the row's largest score, exponentiate, divide by the row's sum. -/
def smax1 (z : FVec Ideal S256x128 .f32) : FVec Ideal S256x128 .f32 :=
  divf (exp (subf z (spread1 (rowMaxes1 z)))) (spread1 (rowSums1 (exp (subf z (spread1 (rowMaxes1 z))))))

theorem smax1_apply (z : FVec Ideal S256x128 .f32) (p : Fin 256) (j : Fin 128) :
    smax1 z (ix2 p j) = Spec.softmaxRow (fun k => z (ix2 p k)) j := by
  have he : ∀ k : Fin 128, exp (subf z (spread1 (rowMaxes1 z))) (ix2 p k)
      = Ideal.exp (z (ix2 p k) - Spec.rowMax fun k => z (ix2 p k)) := fun k => by
    show Ideal.exp (z (ix2 p k) - spread1 (rowMaxes1 z) (ix2 p k)) = _
    rw [spread1_apply, rowMaxes1_apply]
  unfold smax1 Spec.softmaxRow
  rw [divf_apply, spread1_apply, rowSums1_apply, he j]
  exact congrArg _ (Finset.sum_congr rfl fun k _ => he k)

/-- The joined weight matrix below row 512 is its first half, from row 512 on its second. -/
theorem joinW_lo (wa wb : Fin 512 → Fin 512 → EReal) (f d : Fin 512) :
    Spec.joinW wa wb ⟨f.val, by omega⟩ d = wa f d := by
  show (if h : f.val < 512 then wa ⟨f.val, h⟩ d else wb ⟨f.val - 512, by omega⟩ d) = wa f d
  rw [dif_pos f.isLt]

theorem joinW_hi (wa wb : Fin 512 → Fin 512 → EReal) (f d : Fin 512) :
    Spec.joinW wa wb ⟨512 + f.val, by omega⟩ d = wb f d := by
  show (if h : 512 + f.val < 512 then wa ⟨512 + f.val, h⟩ d else wb ⟨512 + f.val - 512, by omega⟩ d) = wb f d
  rw [dif_neg (by omega)]
  exact congrArg (fun g => wb g d) (Fin.ext (by show 512 + f.val - 512 = f.val; omega))

/-- The layer's 256 rows as the body computes them — aggregate, multiply by the first weight half, add the own rows
    times the second half, keep the positive part — are the specification's layer, row by row. -/
theorem layer1_apply (xdif : FVec Ideal S256x3584 .bf16) (xsrc : FVec Ideal S3584x512 .bf16) (xdst : FVec Ideal S256x512 .bf16)
    (wa wb : FVec Ideal S512x512 .bf16) (p : Fin 256) (d : Fin 512) :
    maximumf
        (addf
          (matmul dot_S256x512_S512x512_S256x512_1_0_0_1_n_n none
            (truncf .bf16 (matmul dot_S256x3584_S3584x512_S256x512_1_0_0_1_n_n none xdif xsrc (constant (F := Ideal) S256x512 .f32 0x00000000#32)) bitsLt_bf16_f32)
            wa (constant (F := Ideal) S256x512 .f32 0x00000000#32))
          (matmul dot_S256x512_S512x512_S256x512_1_0_0_1_n_n none xdst wb (constant (F := Ideal) S256x512 .f32 0x00000000#32)))
        (broadcast S256x512 (Scalar.ofBits (F := Ideal) .f32 0x00000000#32)) (ix2 p d)
      = Spec.layer (Spec.rd2 (xdif : S256x3584.Idx → EReal)) (Spec.rd2 (xsrc : S3584x512.Idx → EReal)) (Spec.rd2 (xdst : S256x512.Idx → EReal))
          (Spec.joinW (Spec.rd2 (wa : S512x512.Idx → EReal)) (Spec.rd2 (wb : S512x512.Idx → EReal))) p d := by
  rw [maximumf_apply, addf_apply, half_apply, half_apply, broadcast_apply, Ideal.ofBits_def, Ideal.ofBits_zero_f32]
  unfold Spec.layer
  refine congrArg (fun x => max x 0) (congrArg₂ (· + ·) (Finset.sum_congr rfl fun f _ => ?_) (Finset.sum_congr rfl fun f _ => ?_))
  · rw [truncf_apply, agg_apply, joinW_lo]; rfl
  · rw [joinW_hi]; rfl

/-- What the body stores, at row `p` of its block and class `j`: the softmax of the class scores of the layer's row `p`. -/
theorem pay1_apply (xdif : Vec Ideal S256x3584 .bf16) (xsrc : Vec Ideal S3584x512 .bf16) (xdst : Vec Ideal S256x512 .bf16)
    (wa wb : Vec Ideal S512x512 .bf16) (wc : Vec Ideal S512x128 .bf16) (p : Fin 256) (j : Fin 128) :
    k1_pay1 xdif xsrc wa xdst wb wc (ix2 p j)
      = Spec.softmaxRow (Spec.logits
          (Spec.layer (Spec.rd2 (xdif : S256x3584.Idx → EReal)) (Spec.rd2 (xsrc : S3584x512.Idx → EReal)) (Spec.rd2 (xdst : S256x512.Idx → EReal))
            (Spec.joinW (Spec.rd2 (wa : S512x512.Idx → EReal)) (Spec.rd2 (wb : S512x512.Idx → EReal))) p)
          (Spec.rd2 (wc : S512x128.Idx → EReal))) j := by
  unfold k1_pay1
  simp only [shapeCast_self]
  refine (smax1_apply _ p j).trans (congrArg (fun l => Spec.softmaxRow l j) (funext fun k => ?_))
  rw [cls_apply]
  unfold Spec.logits
  refine Finset.sum_congr rfl fun d _ => ?_
  rw [truncf_apply, layer1_apply]
  rfl

end Layer2

variable (V : (c : Dev nD) → (b : Ref sig .tc) → Buf (Elt Ideal) ((c : Thread nD τ).loc b))

namespace Layer2

/-! ## From the blocks to the array -/

theorem zeros2 : (![0, 0] : Fin 2 → Nat) = fun _ => 0 := funext fun a => by fin_cases a <;> rfl

/-- The block indices of the seven windows at point `t`: the diffusion rows, the destination rows and the result move
    with `t` along the rows; the other four stay at the one whole block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The diffusion block at point `t` is rows `256 t …` of the diffusion matrix. -/
theorem dif_blk_apply (c : Dev nD) (t : Fin cfg1.N) (p : Fin 256) (s : Fin 3584) (r : Fin 512) (hr : r.val = 256 * t.val + p.val) :
    (iblk1 V c 0 t : S256x3584.Idx → EReal) (ix2 p s) = (V c main_v15 : S512x3584.Idx → EReal) (ix2 r s) := by
  obtain ⟨e0, e1, -⟩ := idx_facts1 t
  unfold iblk1
  rw [View.read_apply]
  show (V c main_v15 : S512x3584.Idx → EReal) _ = (V c main_v15 : S512x3584.Idx → EReal) _
  congr 1
  funext a
  apply Fin.ext
  match a with
  | ⟨0, _⟩ => show win1_0.index t (0 : Fin 2) * 256 + 1 * p.val = r.val; rw [e0, hr]; omega
  | ⟨1, _⟩ => show win1_0.index t (1 : Fin 2) * 3584 + 1 * s.val = s.val; rw [e1]; omega

/-- The destination block at point `t` is rows `256 t …` of the destination rows. -/
theorem dst_blk_apply (c : Dev nD) (t : Fin cfg1.N) (p : Fin 256) (f : Fin 512) (r : Fin 512) (hr : r.val = 256 * t.val + p.val) :
    (iblk1 V c 2 t : S256x512.Idx → EReal) (ix2 p f) = (V c main_v14 : S512x512.Idx → EReal) (ix2 r f) := by
  obtain ⟨-, -, -, -, e0, e1, -⟩ := idx_facts1 t
  unfold iblk1
  rw [View.read_apply]
  show (V c main_v14 : S512x512.Idx → EReal) _ = (V c main_v14 : S512x512.Idx → EReal) _
  congr 1
  funext a
  apply Fin.ext
  match a with
  | ⟨0, _⟩ => show win1_2.index t (0 : Fin 2) * 256 + 1 * p.val = r.val; rw [e0, hr]; omega
  | ⟨1, _⟩ => show win1_2.index t (1 : Fin 2) * 512 + 1 * f.val = f.val; rw [e1]; omega

/-- The four windows that do not move hold their whole arrays at every point. -/
theorem src_blk_eq (c : Dev nD) (t : Fin cfg1.N) :
    (iblk1 V c 1 t : S3584x512.Idx → EReal) = (V c main_v12 : S3584x512.Idx → EReal) := by
  obtain ⟨-, -, e0, e1, -⟩ := idx_facts1 t
  funext x
  unfold iblk1
  rw [View.read_apply]
  show (V c main_v12 : S3584x512.Idx → EReal) _ = (V c main_v12 : S3584x512.Idx → EReal) x
  congr 1
  funext a
  apply Fin.ext
  match a with
  | ⟨0, _⟩ => show win1_1.index t (0 : Fin 2) * 3584 + 1 * (x 0).val = (x 0).val; rw [e0]; omega
  | ⟨1, _⟩ => show win1_1.index t (1 : Fin 2) * 512 + 1 * (x 1).val = (x 1).val; rw [e1]; omega

theorem wa_blk_eq (c : Dev nD) (t : Fin cfg1.N) :
    (iblk1 V c 3 t : S512x512.Idx → EReal) = (V c main_v17 : S512x512.Idx → EReal) := by
  obtain ⟨-, -, -, -, -, -, e0, e1, -⟩ := idx_facts1 t
  funext x
  unfold iblk1
  rw [View.read_apply]
  show (V c main_v17 : S512x512.Idx → EReal) _ = (V c main_v17 : S512x512.Idx → EReal) x
  congr 1
  funext a
  apply Fin.ext
  match a with
  | ⟨0, _⟩ => show win1_3.index t (0 : Fin 2) * 512 + 1 * (x 0).val = (x 0).val; rw [e0]; omega
  | ⟨1, _⟩ => show win1_3.index t (1 : Fin 2) * 512 + 1 * (x 1).val = (x 1).val; rw [e1]; omega

theorem wb_blk_eq (c : Dev nD) (t : Fin cfg1.N) :
    (iblk1 V c 4 t : S512x512.Idx → EReal) = (V c main_v19 : S512x512.Idx → EReal) := by
  obtain ⟨-, -, -, -, -, -, -, -, e0, e1, -⟩ := idx_facts1 t
  funext x
  unfold iblk1
  rw [View.read_apply]
  show (V c main_v19 : S512x512.Idx → EReal) _ = (V c main_v19 : S512x512.Idx → EReal) x
  congr 1
  funext a
  apply Fin.ext
  match a with
  | ⟨0, _⟩ => show win1_4.index t (0 : Fin 2) * 512 + 1 * (x 0).val = (x 0).val; rw [e0]; omega
  | ⟨1, _⟩ => show win1_4.index t (1 : Fin 2) * 512 + 1 * (x 1).val = (x 1).val; rw [e1]; omega

theorem wc_blk_eq (c : Dev nD) (t : Fin cfg1.N) :
    (iblk1 V c 5 t : S512x128.Idx → EReal) = (V c main_v20 : S512x128.Idx → EReal) := by
  obtain ⟨-, -, -, -, -, -, -, -, -, -, e0, e1, -⟩ := idx_facts1 t
  funext x
  unfold iblk1
  rw [View.read_apply]
  show (V c main_v20 : S512x128.Idx → EReal) _ = (V c main_v20 : S512x128.Idx → EReal) x
  congr 1
  funext a
  apply Fin.ext
  match a with
  | ⟨0, _⟩ => show win1_5.index t (0 : Fin 2) * 512 + 1 * (x 0).val = (x 0).val; rw [e0]; omega
  | ⟨1, _⟩ => show win1_5.index t (1 : Fin 2) * 128 + 1 * (x 1).val = (x 1).val; rw [e1]; omega

/-- The specification's layer at a row reads only that row of the diffusion matrix and of the destination rows. -/
theorem layer_row_congr {S B B' : Nat} (dif : Fin B → Fin S → EReal) (dif' : Fin B' → Fin S → EReal) (xs : Fin S → Fin 512 → EReal)
    (xd : Fin B → Fin 512 → EReal) (xd' : Fin B' → Fin 512 → EReal) (w : Fin 1024 → Fin 512 → EReal) (i : Fin B) (i' : Fin B')
    (h1 : ∀ s, dif i s = dif' i' s) (h2 : ∀ f, xd i f = xd' i' f) :
    Spec.layer dif xs xd w i = Spec.layer dif' xs xd' w i' := by
  funext d
  unfold Spec.layer
  simp only [h1, h2]

/-- What the call leaves in its result array: at row `r`, class `j`, the softmax of the class scores of the layer's row `r`. -/
def res1 (c : Dev nD) : S512x128.Idx → EReal := fun i =>
  Spec.softmaxRow (Spec.logits
      (Spec.layer (Spec.rd2 (V c main_v15 : S512x3584.Idx → EReal)) (Spec.rd2 (V c main_v12 : S3584x512.Idx → EReal))
        (Spec.rd2 (V c main_v14 : S512x512.Idx → EReal))
        (Spec.joinW (Spec.rd2 (V c main_v17 : S512x512.Idx → EReal)) (Spec.rd2 (V c main_v19 : S512x512.Idx → EReal))) (i 0))
      (Spec.rd2 (V c main_v20 : S512x128.Idx → EReal))) (i 1)

/-- What point `t` writes back is rows `256 t …` of `res1`. -/
theorem flushed1_eq (c : Dev nD) (t : Fin cfg1.N) :
    (dat1 V c).flushed 6 t = ((cfg1.win 6).blk t).view.read (Elt Ideal) (res1 V c) := by
  obtain ⟨-, -, -, -, -, -, -, -, -, -, -, -, e0, e1⟩ := idx_facts1 t
  show (cfg1.win 6).cut (grid1.coords t) ((dat1 V c).after 6 t) = _
  rw [after1_6]
  unfold out1_6
  rw [View.canon_unit_zero zeros2]
  simp only [View.ld_unit_zero (S := S256x3584) zeros2, View.ld_unit_zero (S := S3584x512) zeros2, View.ld_unit_zero (S := S256x512) zeros2,
    View.ld_unit_zero (S := S512x512) zeros2, View.ld_unit_zero (S := S512x128) zeros2]
  funext y
  obtain ⟨p, j, rfl⟩ : ∃ (p : Fin 256) (j : Fin 128), y = ix2 p j := ⟨y 0, y 1, eq_ix2 y⟩
  have hN : t.val < 2 := Nat.lt_of_lt_of_eq t.isLt N_1
  have hr : 256 * t.val + p.val < 512 := by have := p.isLt; omega
  have hemb : ((cfg1.win 6).blk t).view.emb (ix2 p j) = ix2 (⟨256 * t.val + p.val, hr⟩ : Fin 512) j := by
    funext a
    apply Fin.ext
    match a with
    | ⟨0, _⟩ => show win1_6.index t (0 : Fin 2) * 256 + 1 * p.val = 256 * t.val + p.val; rw [e0]; omega
    | ⟨1, _⟩ => show win1_6.index t (1 : Fin 2) * 128 + 1 * j.val = j.val; rw [e1]; omega
  rw [View.read_apply, hemb]
  refine (pay1_apply (iblk1 V c 0 t) (iblk1 V c 1 t) (iblk1 V c 2 t) (iblk1 V c 3 t) (iblk1 V c 4 t) (iblk1 V c 5 t) p j).trans ?_
  rw [src_blk_eq V c t, wa_blk_eq V c t, wb_blk_eq V c t, wc_blk_eq V c t,
    layer_row_congr _ (Spec.rd2 (V c main_v15 : S512x3584.Idx → EReal)) _ _ (Spec.rd2 (V c main_v14 : S512x512.Idx → EReal)) _ p
      (⟨256 * t.val + p.val, hr⟩ : Fin 512) (fun s => dif_blk_apply V c t p s _ rfl) (fun f => dst_blk_apply V c t p f _ rfl)]
  rfl

/-- An entry of the result array is in point `t`'s block iff each coordinate is in the block's range on its axis. -/
theorem mem_blk1_6 (t : Fin cfg1.N) (i : S512x128.Idx) :
    i ∈ ((cfg1.win 6).blk t).view.set ↔ ∀ a : Fin 2, win1_6.index t a * S256x128.size a ≤ (i a).val
      ∧ (i a).val < win1_6.index t a * S256x128.size a + S256x128.size a := by
  show i ∈ ((View.whole main_v21).slice (win1_6.rect t)).set ↔ _
  rw [View.set_slice_whole, Rect.mem_set_unit]
  exact Iff.rfl

/-- Every entry of the result array is written back by the point its row falls to: row `r` by point `r / 256`. -/
theorem cover1 (i : S512x128.Idx) :
    ∃ t : Fin cfg1.N, (cfg1.win 6).flush t = true ∧ i ∈ ((cfg1.win 6).blk t).view.set := by
  have hi0 : (i 0).val < 512 := (i 0).isLt
  have hi1 : (i 1).val < 128 := (i 1).isLt
  have hN : cfg1.N = 2 := N_1
  have ht : (i 0).val / 256 < cfg1.N := by rw [hN]; omega
  obtain ⟨-, -, -, -, -, -, -, -, -, -, -, -, e0, e1⟩ := idx_facts1 ⟨(i 0).val / 256, ht⟩
  refine ⟨⟨(i 0).val / 256, ht⟩, flush1_6 _, ?_⟩
  rw [mem_blk1_6]
  intro a
  match a with
  | ⟨0, _⟩ =>
    show win1_6.index ⟨(i 0).val / 256, ht⟩ (0 : Fin 2) * 256 ≤ (i 0).val
      ∧ (i 0).val < win1_6.index ⟨(i 0).val / 256, ht⟩ (0 : Fin 2) * 256 + 256
    rw [e0]
    show (i 0).val / 256 * 256 ≤ (i 0).val ∧ (i 0).val < (i 0).val / 256 * 256 + 256
    omega
  | ⟨1, _⟩ =>
    show win1_6.index ⟨(i 0).val / 256, ht⟩ (1 : Fin 2) * 128 ≤ (i 1).val
      ∧ (i 1).val < win1_6.index ⟨(i 0).val / 256, ht⟩ (1 : Fin 2) * 128 + 128
    rw [e1]
    omega

/-- The result array after the last grid point is `res1`. -/
theorem arr1_eq (c : Dev nD) : (dat1 V c).arrAt 6 cfg1.N = res1 V c :=
  (dat1 V c).arrAt_eq_of_cover 6 (res1 V c) (fun t _ => flushed1_eq V c t) cover1

end Layer2

/-- The result array of the second call after its last grid point, at row `r`, class `j`. -/
theorem arr1_apply (c : Dev nD) (r : Fin 512) (j : Fin 128) :
    ((dat1 (F := Ideal) V c).arrAt 6 cfg1.N : S512x128.Idx → EReal) (ix2 r j)
      = Spec.softmaxRow (Spec.logits
          (Spec.layer (Spec.rd2 (V c main_v15 : S512x3584.Idx → EReal)) (Spec.rd2 (V c main_v12 : S3584x512.Idx → EReal))
            (Spec.rd2 (V c main_v14 : S512x512.Idx → EReal))
            (Spec.joinW (Spec.rd2 (V c main_v17 : S512x512.Idx → EReal)) (Spec.rd2 (V c main_v19 : S512x512.Idx → EReal))) r)
          (Spec.rd2 (V c main_v20 : S512x128.Idx → EReal))) j := by
  rw [Layer2.arr1_eq]
  rfl

end Cert.KernelIdeal.Gen

end
-- ==== Proof.KI.Args.lean ====
/-
  Names for the eleven argument arrays of the program as a memory `m` holds them on core `c`, at the extended
  reals, and the one fact the comparison with the reference needs about the five arrays of index words: every word
  is a row number of the table it indexes.
-/
import proofs.«424208_j60103772340409_3_alg».proof.Proof.Gen.KernelIdeal.Regions
import proofs.«424208_j60103772340409_3_alg».proof.Proof.Spec

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

/-- The index word `w` is a row number of a table of `N` rows. -/
def InRange (N : Nat) (w : BitVec 32) : Prop := 0 ≤ w.toInt ∧ w.toInt < (N : Int)

variable (m : (ℓ : Loc nD τ sig) → Buf (Elt Ideal) ℓ)

abbrev inFeat (c : Dev nD) : S100000x512.Idx → EReal := m ((c : Thread nD τ).loc main_arg0)
abbrev inNodes (c : Dev nD) : S36864.Idx → BitVec 32 := m ((c : Thread nD τ).loc main_arg1)
abbrev inDst1 (c : Dev nD) : S4096.Idx → BitVec 32 := m ((c : Thread nD τ).loc main_arg2)
abbrev inSrc1 (c : Dev nD) : S32768.Idx → BitVec 32 := m ((c : Thread nD τ).loc main_arg3)
abbrev inDif1 (c : Dev nD) : S4096x32768.Idx → EReal := m ((c : Thread nD τ).loc main_arg4)
abbrev inDst2 (c : Dev nD) : S512.Idx → BitVec 32 := m ((c : Thread nD τ).loc main_arg5)
abbrev inSrc2 (c : Dev nD) : S3584.Idx → BitVec 32 := m ((c : Thread nD τ).loc main_arg6)
abbrev inDif2 (c : Dev nD) : S512x3584.Idx → EReal := m ((c : Thread nD τ).loc main_arg7)
abbrev inW1 (c : Dev nD) : S1024x512.Idx → EReal := m ((c : Thread nD τ).loc main_arg8)
abbrev inW2 (c : Dev nD) : S1024x512.Idx → EReal := m ((c : Thread nD τ).loc main_arg9)
abbrev inWc (c : Dev nD) : S512x128.Idx → EReal := m ((c : Thread nD τ).loc main_arg10)

/-- Every index word is a row number of the table it indexes: the sampled nodes of the 100000 feature rows, the
    first layer's source and destination indices of the 36864 sampled nodes, the second layer's of the 4096 rows the
    first layer produces. -/
structure Ranges (c : Dev nD) : Prop where
  nodes : ∀ n : Fin 36864, InRange 100000 (inNodes m c (ix1 n))
  dst1 : ∀ i : Fin 4096, InRange 36864 (inDst1 m c (ix1 i))
  src1 : ∀ s : Fin 32768, InRange 36864 (inSrc1 m c (ix1 s))
  dst2 : ∀ r : Fin 512, InRange 4096 (inDst2 m c (ix1 r))
  src2 : ∀ s : Fin 3584, InRange 4096 (inSrc2 m c (ix1 s))

end Cert.KernelIdeal.Gen

end
-- ==== Proof.KI.Glue0.lean ====
/-
  The operands of the first pallas_call, as the host lines before it leave them, in terms of the program's
  arguments. Each `jnp.take` prints as: wrap negative words, test the wrapped word against the table's extent, gather
  (the gather keeps its position inside the table), and put a fill value where the test fails. With every index word a
  row number the test never fails, so a take is the plain take of rows; a take of a take is the take by the taken
  words. A change of float format is the identity on the extended reals, and the two slices of the weight matrix are
  its two halves.
-/
import proofs.«424208_j60103772340409_3_alg».proof.Proof.KI.Args
import proofs.«424208_j60103772340409_3_alg».proof.Proof.LibRowTake
import Idealize.ShloMosaic.Lib.StableHlo.Run
import Idealize.ShloMosaic.Lib.StableHlo.Predicate
import Idealize.ShloMosaic.Lib.Pipeline.Value
import Idealize.ShloMosaic.Lib.ValueLayout

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

/-! ## A take, read at an index

A take of rows by index words: the words below zero are wrapped by the table's extent, laid as a column of
start indices, tested against the table's first and last row, and the gather's result is kept where the test
holds and a fill value put where it fails. The pieces are named once, over any extents. -/

section Take

open StableHlo.Predicate

/-- A row number is not below zero, so the wrap leaves it. -/
theorem wrap_of_inRange {N : Nat} {w : BitVec 32} (h : InRange N w) : Spec.wrap N w = w := by
  have e : IntOp.cmpi .slt w 0#32 = 0#1 := by
    show BitVec.ofBool (w.slt 0#32) = 0#1
    rw [BitVec.slt_eq_decide, BitVec.toInt_zero, decide_eq_false (by have := h.1; omega)]
    rfl
  unfold Spec.wrap
  rw [e, select_zero]

/-- The row a row number names is itself. -/
theorem rowOf_of_inRange {N : Nat} {w : BitVec 32} (h : InRange N w) : Spec.rowOf N w = w.toInt.toNat := by
  unfold Spec.rowOf
  rw [wrap_of_inRange h]
  have h1 := h.1
  have h2 := h.2
  omega

/-- Both range tests of a take hold of a row number. -/
theorem tests_of_inRange {N : Nat} (hN : N < 2 ^ 31) {w : BitVec 32} (h : InRange (N + 1) w) :
    IntOp.andi (IntOp.cmpi .sge w 0#32) (IntOp.cmpi .sle w (BitVec.ofNat 32 N)) = 1#1 := by
  have e1 : IntOp.cmpi .sge w 0#32 = 1#1 := by
    show BitVec.ofBool ((0#32).sle w) = 1#1
    rw [BitVec.sle_eq_decide, BitVec.toInt_zero, decide_eq_true h.1]
    rfl
  have e2 : IntOp.cmpi .sle w (BitVec.ofNat 32 N) = 1#1 := by
    show BitVec.ofBool (w.sle (BitVec.ofNat 32 N)) = 1#1
    rw [BitVec.sle_eq_decide, toInt_ofNat_small N hN, decide_eq_true (by have := h.2; omega)]
    rfl
  rw [e1, e2]
  rfl

/-- A reduce by `and`, from 1, of an array of 1s is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize List.filter _ _ = l
  have e : IntOp.andi 1#1 1#1 = 1#1 := by decide
  induction l with
  | nil => rfl
  | cons a l ih => rw [List.foldl_cons, hx a, e]; exact ih

variable {n : Nat}
  (b0 : (⟨0, ![]⟩ : Shape).BroadcastsInDim ⟨1, ![n]⟩ (![] : Fin 0 → Fin 1))
  (bc : (⟨1, ![n]⟩ : Shape).BroadcastsInDim ⟨2, ![n, 1]⟩ (![0] : Fin 1 → Fin 2))
  (b0c : (⟨0, ![]⟩ : Shape).BroadcastsInDim ⟨2, ![n, 1]⟩ (![] : Fin 0 → Fin 2))
  (b11 : (⟨1, ![1]⟩ : Shape).BroadcastsInDim ⟨2, ![1, 1]⟩ (![1] : Fin 1 → Fin 2))
  (b1n : (⟨2, ![1, 1]⟩ : Shape).BroadcastsInDim ⟨2, ![n, 1]⟩ (![0, 1] : Fin 2 → Fin 2))
  (hred : (⟨2, ![n, 1]⟩ : Shape).ReducesTo [1] ⟨1, ![n]⟩) (h0 : 0 < (⟨0, ![]⟩ : Shape).numel)

/-- The index words of a take as the gather's start indices: a word below zero moved up by `ext`, the words laid as
    a column. -/
def takeCol (ext : BitVec 32) (idx : IVec ⟨1, ![n]⟩ 32) : IVec ⟨2, ![n, 1]⟩ 32 :=
  broadcastInDim ⟨2, ![n, 1]⟩ ![0] bc
    (select (cmpi .slt idx (broadcastInDim ⟨1, ![n]⟩ ![] b0 (constantI ⟨0, ![]⟩ 32 0#32)))
      (addi idx (broadcastInDim ⟨1, ![n]⟩ ![] b0 (constantI ⟨0, ![]⟩ 32 ext))) idx)

/-- The take's test of a column of start indices: not below zero and not above `hi`, at every entry of a row. -/
def takeMask (hi : BitVec 32) (col : IVec ⟨2, ![n, 1]⟩ 32) : IVec ⟨1, ![n]⟩ 1 :=
  Host.reduce IntOp.andi
    (andi (cmpi .sge col (broadcastInDim ⟨2, ![n, 1]⟩ ![] b0c (constantI ⟨0, ![]⟩ 32 0#32)))
      (cmpi .sle col (broadcastInDim ⟨2, ![n, 1]⟩ ![0, 1] b1n (broadcastInDim ⟨2, ![1, 1]⟩ ![1] b11 (constantI ⟨1, ![1]⟩ 32 hi)))))
    (constantI ⟨0, ![]⟩ 1 1#1) hred h0

/-- Every index of a column is a row and the one column. -/
theorem col_idx (i : (⟨2, ![n, 1]⟩ : Shape).Idx) : ∃ p : Fin n, i = ix2 p (0 : Fin 1) :=
  ⟨i 0, by
    funext a
    match a with
    | ⟨0, _⟩ => rfl
    | ⟨1, _⟩ => exact Fin.ext (by have h := idx2_lt1 i; show (i 1).val = 0; omega)⟩

/-- The column's entry in row `p` is the wrapped word. -/
theorem takeCol_apply (N : Nat) (idx : IVec ⟨1, ![n]⟩ 32) (p : Fin n) :
    takeCol b0 bc (BitVec.ofNat 32 N) idx (ix2 p (0 : Fin 1)) = Spec.wrap N (idx (ix1 p)) := by
  have hi : (ix2 p (0 : Fin 1) : (⟨2, ![n, 1]⟩ : Shape).Idx) = ixP p := by
    funext a
    match a with
    | ⟨0, _⟩ => rfl
    | ⟨1, _⟩ => rfl
  have ho : (Shape.Idx.ofFin p : (⟨1, ![n]⟩ : Shape).Idx) = ix1 p := by
    funext a
    match a with
    | ⟨0, _⟩ => rfl
  unfold takeCol
  rw [hi, bcast_col1, ho]
  rfl

/-- Of row numbers the test holds everywhere. -/
theorem takeMask_ones {N : Nat} (hN : N < 2 ^ 31) (col : IVec ⟨2, ![n, 1]⟩ 32) (hcol : ∀ i, InRange (N + 1) (col i))
    (j : (⟨1, ![n]⟩ : Shape).Idx) : takeMask b0c b11 b1n hred h0 (BitVec.ofNat 32 N) col j = 1#1 :=
  reduce_andi_ones _ _ hred h0 (fun i => tests_of_inRange hN (hcol i)) rfl j

variable {N D : Nat}

/-- A take of rows of a table of reals: the gathered row where the test holds, the fill value where it fails. -/
def floatTake (ext hi : BitVec 32)
    (bm : (⟨1, ![n]⟩ : Shape).BroadcastsInDim ⟨2, ![n, D]⟩ (![0] : Fin 1 → Fin 2))
    (bf : (⟨0, ![]⟩ : Shape).BroadcastsInDim ⟨2, ![n, D]⟩ (![] : Fin 0 → Fin 2))
    (wf : GatherDims.WF ⟨2, ![N, D]⟩ ⟨2, ![n, 1]⟩ ⟨2, ![n, D]⟩ [1] [0] [] [0] [] 1 ![1, D])
    {F : FTy → Type} [FloatOps F] (tbl : FVec F ⟨2, ![N, D]⟩ .f32) (idx : IVec ⟨1, ![n]⟩ 32) : FVec F ⟨2, ![n, D]⟩ .f32 :=
  select (broadcastInDim ⟨2, ![n, D]⟩ ![0] bm (takeMask b0c b11 b1n hred h0 hi (takeCol b0 bc ext idx)))
    (Host.gather (Cert.LibRowTake.rowTakeDims N D n wf) tbl (takeCol b0 bc ext idx))
    (broadcastInDim ⟨2, ![n, D]⟩ ![] bf (constant (F := F) ⟨0, ![]⟩ .f32 0x7FC00000#32))

/-- A take of entries of a list of words, likewise. -/
def intTake (ext hi : BitVec 32) (d : GatherDims ⟨1, ![N]⟩ ⟨2, ![n, 1]⟩ ⟨1, ![n]⟩)
    (tbl : IVec ⟨1, ![N]⟩ 32) (idx : IVec ⟨1, ![n]⟩ 32) : IVec ⟨1, ![n]⟩ 32 :=
  select (takeMask b0c b11 b1n hred h0 hi (takeCol b0 bc ext idx)) (Host.gather d tbl (takeCol b0 bc ext idx))
    (broadcastInDim ⟨1, ![n]⟩ ![] b0 (constantI ⟨0, ![]⟩ 32 2147483648#32))

/-- Row numbers stay row numbers through the wrap and the column. -/
theorem takeCol_inRange (idx : IVec ⟨1, ![n]⟩ 32) (hidx : ∀ p : Fin n, InRange N (idx (ix1 p)))
    (i : (⟨2, ![n, 1]⟩ : Shape).Idx) : InRange N (takeCol b0 bc (BitVec.ofNat 32 N) idx i) := by
  obtain ⟨p, rfl⟩ := col_idx i
  rw [takeCol_apply, wrap_of_inRange (hidx p)]
  exact hidx p

/-- THE TAKE OF ROWS READ AT `(r, c)`: with every index word a row number of the table, the table's row the word
    names, at column `c`. -/
theorem floatTake_apply (hN : N < 2 ^ 31)
    (bm : (⟨1, ![n]⟩ : Shape).BroadcastsInDim ⟨2, ![n, D]⟩ (![0] : Fin 1 → Fin 2))
    (bf : (⟨0, ![]⟩ : Shape).BroadcastsInDim ⟨2, ![n, D]⟩ (![] : Fin 0 → Fin 2))
    (wf : GatherDims.WF ⟨2, ![N + 1, D]⟩ ⟨2, ![n, 1]⟩ ⟨2, ![n, D]⟩ [1] [0] [] [0] [] 1 ![1, D])
    (tbl : FVec Ideal ⟨2, ![N + 1, D]⟩ .f32) (idx : IVec ⟨1, ![n]⟩ 32)
    (hidx : ∀ p : Fin n, InRange (N + 1) (idx (ix1 p))) (r : Fin n) (c : Fin D) :
    floatTake b0 bc b0c b11 b1n hred h0 (BitVec.ofNat 32 (N + 1)) (BitVec.ofNat 32 N) bm bf wf tbl idx (ix2 r c)
      = Spec.take2 (Spec.rd2 tbl) (Spec.rd1 idx) r c := by
  have hm : broadcastInDim ⟨2, ![n, D]⟩ ![0] bm
      (takeMask b0c b11 b1n hred h0 (BitVec.ofNat 32 N) (takeCol b0 bc (BitVec.ofNat 32 (N + 1)) idx)) (ix2 r c) = 1#1 :=
    takeMask_ones b0c b11 b1n hred h0 hN _ (takeCol_inRange b0 bc idx hidx) _
  unfold floatTake
  rw [select_apply, hm, select_one, Cert.LibRowTake.gather_rowTake_apply (Nat.succ_pos N)]
  refine congrArg (fun q : Fin (N + 1) => tbl (ix2 q c)) (Fin.ext ?_)
  show min (takeCol b0 bc (BitVec.ofNat 32 (N + 1)) idx (ix2 r (0 : Fin 1))).toInt.toNat (N + 1 - 1)
    = Spec.rowOf (N + 1) (idx (ix1 r))
  rw [takeCol_apply]
  rfl

/-- THE TAKE OF WORDS READ AT `p`: with every index word a position of the list, the list's entry there. -/
theorem intTake_apply (hN : N < 2 ^ 31) (d : GatherDims ⟨1, ![N + 1]⟩ ⟨2, ![n, 1]⟩ ⟨1, ![n]⟩)
    (hcoll : d.collapsedSliceDims = [0]) (hob : d.operandBatchingDims = [])
    (hsim : d.startIndexMap = [0]) (hivd : d.indexVectorDim = 1)
    (tbl : IVec ⟨1, ![N + 1]⟩ 32) (idx : IVec ⟨1, ![n]⟩ 32)
    (hidx : ∀ p : Fin n, InRange (N + 1) (idx (ix1 p))) (p : Fin n) :
    intTake b0 bc b0c b11 b1n hred h0 (BitVec.ofNat 32 (N + 1)) (BitVec.ofNat 32 N) d tbl idx (ix1 p)
      = tbl (ix1 ⟨Spec.rowOf (N + 1) (idx (ix1 p)), Spec.rowOf_lt (Nat.succ_pos N) _⟩) := by
  have ho : ∀ {k : Nat} (q : Fin k), (Shape.Idx.ofFin q : (⟨1, ![k]⟩ : Shape).Idx) = ix1 q := fun q => by
    funext a
    match a with
    | ⟨0, _⟩ => rfl
  have hi : (ixP p : (⟨2, ![n, 1]⟩ : Shape).Idx) = ix2 p (0 : Fin 1) := by
    funext a
    match a with
    | ⟨0, _⟩ => rfl
    | ⟨1, _⟩ => rfl
  have e := gather_take d hcoll hob hsim hivd tbl (takeCol b0 bc (BitVec.ofNat 32 (N + 1)) idx) p (Nat.succ_pos N)
  rw [ho p] at e
  unfold intTake
  rw [select_apply, takeMask_ones b0c b11 b1n hred h0 hN _ (takeCol_inRange b0 bc idx hidx), select_one, e, ho]
  refine congrArg (fun q : Fin (N + 1) => tbl (ix1 q)) (Fin.ext ?_)
  show min (takeCol b0 bc (BitVec.ofNat 32 (N + 1)) idx (ixP p)).toInt.toNat (N + 1 - 1)
    = Spec.rowOf (N + 1) (idx (ix1 p))
  rw [hi, takeCol_apply]
  rfl

end Take

section Casts
variable {Val : EltTy → Type} {T : BufTy}

/-- Contents moved to a reference's own type and back are the contents. -/
theorem ofBuf_toBuf (x : StableHlo.TRef sig T) (v : T.Contents Val) : x.ofBuf (x.toBuf v) = v := by
  obtain ⟨r, e, _, _⟩ := x
  subst e
  rfl

end Casts

/-! ## The host stretches before the first call, each as one function of the buffers it reads -/

section Stretch

variable {F : FTy → Type} [FloatOps F] (W : Valuation τ sig (Elt F))

/-- The take of the sampled nodes by the source indices, from any contents `W` of the buffers. -/
theorem stretch0 : @Eq (S32768.Idx → BitVec 32) (StableHlo.after hostOps0 W (Proc.devRef .tc main_v0))
    (intTake bcast_S_S32768 bcast_S32768_S32768x1_0 bcast_S_S32768x1 bcast_S1_S1x1_1 bcast_S1x1_S32768x1_0_1
      reducesTo_S32768x1_S32768_d1 h_S_ 36864#32 36863#32 gather_S36864_S32768x1_S32768_n_0_n_n_0_1_1
      (W main_arg1) (W main_arg3)) := by
  have ea : (StableHlo.TRef.of (T := ⟨S36864, .i32⟩) main_arg1).ofBuf (W (Proc.devRef .tc main_arg1))
      = (W main_arg1 : S36864.Idx → BitVec 32) := rfl
  have eb : (StableHlo.TRef.of (T := ⟨S32768, .i32⟩) main_arg3).ofBuf (W (Proc.devRef .tc main_arg3))
      = (W main_arg3 : S32768.Idx → BitVec 32) := rfl
  have ey : ∀ x : S32768.Idx → BitVec 32, @Eq (S32768.Idx → BitVec 32)
      ((StableHlo.TRef.of (T := ⟨S32768, .i32⟩) main_v0).toBuf (Val := Elt F) x) x := fun _ => rfl
  after_results_simp
  simp only [ofBuf_toBuf]
  rw [ea, eb, ey]
  rfl

/-- The take of the sampled nodes by the destination indices. -/
theorem stretch1 : @Eq (S4096.Idx → BitVec 32) (StableHlo.after hostOps0_1 W (Proc.devRef .tc main_v1))
    (intTake bcast_S_S4096 bcast_S4096_S4096x1_0 bcast_S_S4096x1 bcast_S1_S1x1_1 bcast_S1x1_S4096x1_0_1
      reducesTo_S4096x1_S4096_d1 h_S_ 36864#32 36863#32 gather_S36864_S4096x1_S4096_n_0_n_n_0_1_1
      (W main_arg1) (W main_arg2)) := by
  have ea : (StableHlo.TRef.of (T := ⟨S36864, .i32⟩) main_arg1).ofBuf (W (Proc.devRef .tc main_arg1))
      = (W main_arg1 : S36864.Idx → BitVec 32) := rfl
  have eb : (StableHlo.TRef.of (T := ⟨S4096, .i32⟩) main_arg2).ofBuf (W (Proc.devRef .tc main_arg2))
      = (W main_arg2 : S4096.Idx → BitVec 32) := rfl
  have ey : ∀ x : S4096.Idx → BitVec 32, @Eq (S4096.Idx → BitVec 32)
      ((StableHlo.TRef.of (T := ⟨S4096, .i32⟩) main_v1).toBuf (Val := Elt F) x) x := fun _ => rfl
  after_results_simp
  simp only [ofBuf_toBuf]
  rw [ea, eb, ey]
  rfl

/-- The take of the feature rows by the words in `main_v0`. -/
theorem stretch2 : @Eq (FVec F S32768x512 .f32) (StableHlo.after hostOps0_2 W (Proc.devRef .tc main_v2))
    (floatTake bcast_S_S32768 bcast_S32768_S32768x1_0 bcast_S_S32768x1 bcast_S1_S1x1_1 bcast_S1x1_S32768x1_0_1
      reducesTo_S32768x1_S32768_d1 h_S_ 100000#32 99999#32 bcast_S32768_S32768x512_0 bcast_S_S32768x512
      gather_S100000x512_S32768x1_S32768x512_1_0_n_n_0_1_1512_wf (W main_arg0) (W main_v0)) := by
  have ea : (StableHlo.TRef.of (T := ⟨S100000x512, .f32⟩) main_arg0).ofBuf (W (Proc.devRef .tc main_arg0))
      = (W main_arg0 : FVec F S100000x512 .f32) := rfl
  have eb : (StableHlo.TRef.of (T := ⟨S32768, .i32⟩) main_v0).ofBuf (W (Proc.devRef .tc main_v0))
      = (W main_v0 : S32768.Idx → BitVec 32) := rfl
  have ey : ∀ x : FVec F S32768x512 .f32, @Eq (FVec F S32768x512 .f32)
      ((StableHlo.TRef.of (T := ⟨S32768x512, .f32⟩) main_v2).toBuf (Val := Elt F) x) x := fun _ => rfl
  after_results_simp
  simp only [ofBuf_toBuf]
  rw [ea, eb, ey]
  rfl

/-- The take of the feature rows by the words in `main_v1`. -/
theorem stretch4 : @Eq (FVec F S4096x512 .f32) (StableHlo.after hostOps0_4 W (Proc.devRef .tc main_v4))
    (floatTake bcast_S_S4096 bcast_S4096_S4096x1_0 bcast_S_S4096x1 bcast_S1_S1x1_1 bcast_S1x1_S4096x1_0_1
      reducesTo_S4096x1_S4096_d1 h_S_ 100000#32 99999#32 bcast_S4096_S4096x512_0 bcast_S_S4096x512
      gather_S100000x512_S4096x1_S4096x512_1_0_n_n_0_1_1512_wf (W main_arg0) (W main_v1)) := by
  have ea : (StableHlo.TRef.of (T := ⟨S100000x512, .f32⟩) main_arg0).ofBuf (W (Proc.devRef .tc main_arg0))
      = (W main_arg0 : FVec F S100000x512 .f32) := rfl
  have eb : (StableHlo.TRef.of (T := ⟨S4096, .i32⟩) main_v1).ofBuf (W (Proc.devRef .tc main_v1))
      = (W main_v1 : S4096.Idx → BitVec 32) := rfl
  have ey : ∀ x : FVec F S4096x512 .f32, @Eq (FVec F S4096x512 .f32)
      ((StableHlo.TRef.of (T := ⟨S4096x512, .f32⟩) main_v4).toBuf (Val := Elt F) x) x := fun _ => rfl
  after_results_simp
  simp only [ofBuf_toBuf]
  rw [ea, eb, ey]
  rfl

/-- The changes of float format, and the two slices of the weight matrix with theirs. -/
theorem stretch3 : @Eq (FVec F S32768x512 .bf16) (StableHlo.after hostOps0_3 W (Proc.devRef .tc main_v3))
    (truncf .bf16 (W main_v2 : FVec F S32768x512 .f32) bitsLt_bf16_f32) := by
  after_results_simp
  <;> rfl

theorem stretch5_v5 : @Eq (FVec F S4096x512 .bf16) (StableHlo.after hostOps0_5 W (Proc.devRef .tc main_v5))
    (truncf .bf16 (W main_v4 : FVec F S4096x512 .f32) bitsLt_bf16_f32) := by
  after_results_simp
  <;> rfl

theorem stretch5_v7 : @Eq (FVec F S512x512 .bf16) (StableHlo.after hostOps0_5 W (Proc.devRef .tc main_v7))
    (truncf .bf16 (extractStridedSlice S512x512 ![0, 0] (W main_arg8 : FVec F S1024x512 .f32)
      slices_S1024x512_S512x512_0_0) bitsLt_bf16_f32) := by
  after_results_simp
  <;> rfl

theorem stretch5_v9 : @Eq (FVec F S512x512 .bf16) (StableHlo.after hostOps0_5 W (Proc.devRef .tc main_v9))
    (truncf .bf16 (extractStridedSlice S512x512 ![512, 0] (W main_arg8 : FVec F S1024x512 .f32)
      slices_S1024x512_S512x512_512_0) bitsLt_bf16_f32) := by
  after_results_simp
  <;> rfl

end Stretch

/-! ## The first call's operands -/

variable (m : (ℓ : Loc nD τ sig) → Buf (Elt Ideal) ℓ)

/-- The diffusion matrix reaches the call as launched. -/
theorem glue_arg4 (c : Dev nD) : (V6 m c main_arg4 : S4096x32768.Idx → EReal) = inDif1 m c :=
  (V6_of m c main_arg4 (by decide)).trans <| (V5_of m c main_arg4 (by decide)).trans <|
    (V4_of m c main_arg4 (by decide)).trans <| (V3_of m c main_arg4 (by decide)).trans <|
    (V2_of m c main_arg4 (by decide)).trans <| (V1_of m c main_arg4 (by decide)).trans rfl

/-- The word of `main_v0` at `p`: the sampled node the source index at `p` names. -/
theorem v0_apply (c : Dev nD) (h : Ranges m c) (p : Fin 32768) :
    (V1 m c main_v0 : S32768.Idx → BitVec 32) (ix1 p)
      = inNodes m c (ix1 ⟨Spec.rowOf 36864 (inSrc1 m c (ix1 p)), Spec.rowOf_lt (Nat.succ_pos 36863) _⟩) :=
  (congrFun (stretch0 (V0 m c)) (ix1 p)).trans
    (intTake_apply (N := 36863) bcast_S_S32768 bcast_S32768_S32768x1_0 bcast_S_S32768x1 bcast_S1_S1x1_1
      bcast_S1x1_S32768x1_0_1 reducesTo_S32768x1_S32768_d1 h_S_ (by decide)
      gather_S36864_S32768x1_S32768_n_0_n_n_0_1_1 rfl rfl rfl rfl (inNodes m c) (inSrc1 m c) h.src1 p)

/-- The word of `main_v1` at `p`: the sampled node the destination index at `p` names. -/
theorem v1_apply (c : Dev nD) (h : Ranges m c) (p : Fin 4096) :
    (V2 m c main_v1 : S4096.Idx → BitVec 32) (ix1 p)
      = inNodes m c (ix1 ⟨Spec.rowOf 36864 (inDst1 m c (ix1 p)), Spec.rowOf_lt (Nat.succ_pos 36863) _⟩) := by
  have e1 : (V1 m c main_arg1 : S36864.Idx → BitVec 32) = inNodes m c := V1_of m c main_arg1 (by decide)
  have e2 : (V1 m c main_arg2 : S4096.Idx → BitVec 32) = inDst1 m c := V1_of m c main_arg2 (by decide)
  refine (congrFun (stretch1 (V1 m c)) (ix1 p)).trans ?_
  rw [e1, e2]
  exact intTake_apply (N := 36863) bcast_S_S4096 bcast_S4096_S4096x1_0 bcast_S_S4096x1 bcast_S1_S1x1_1
    bcast_S1x1_S4096x1_0_1 reducesTo_S4096x1_S4096_d1 h_S_ (by decide)
    gather_S36864_S4096x1_S4096_n_0_n_n_0_1_1 rfl rfl rfl rfl (inNodes m c) (inDst1 m c) h.dst1 p

/-- The stretches' results at the buffers' contents between the items. -/
theorem v2_eq (c : Dev nD) : @Eq (FVec Ideal S32768x512 .f32) (V3 m c main_v2)
    (floatTake bcast_S_S32768 bcast_S32768_S32768x1_0 bcast_S_S32768x1 bcast_S1_S1x1_1 bcast_S1x1_S32768x1_0_1
      reducesTo_S32768x1_S32768_d1 h_S_ 100000#32 99999#32 bcast_S32768_S32768x512_0 bcast_S_S32768x512
      gather_S100000x512_S32768x1_S32768x512_1_0_n_n_0_1_1512_wf (F := Ideal) (V2 m c main_arg0) (V2 m c main_v0)) :=
  stretch2 (V2 m c)
theorem v3_eq (c : Dev nD) : @Eq (FVec Ideal S32768x512 .bf16) (V4 m c main_v3)
    (truncf .bf16 (V3 m c main_v2 : FVec Ideal S32768x512 .f32) bitsLt_bf16_f32) := stretch3 (V3 m c)
theorem v4_eq (c : Dev nD) : @Eq (FVec Ideal S4096x512 .f32) (V5 m c main_v4)
    (floatTake bcast_S_S4096 bcast_S4096_S4096x1_0 bcast_S_S4096x1 bcast_S1_S1x1_1 bcast_S1x1_S4096x1_0_1
      reducesTo_S4096x1_S4096_d1 h_S_ 100000#32 99999#32 bcast_S4096_S4096x512_0 bcast_S_S4096x512
      gather_S100000x512_S4096x1_S4096x512_1_0_n_n_0_1_1512_wf (F := Ideal) (V4 m c main_arg0) (V4 m c main_v1)) :=
  stretch4 (V4 m c)
theorem v5_eq (c : Dev nD) : @Eq (FVec Ideal S4096x512 .bf16) (V6 m c main_v5)
    (truncf .bf16 (V5 m c main_v4 : FVec Ideal S4096x512 .f32) bitsLt_bf16_f32) := stretch5_v5 (V5 m c)
theorem v7_eq (c : Dev nD) : @Eq (FVec Ideal S512x512 .bf16) (V6 m c main_v7)
    (truncf .bf16 (extractStridedSlice S512x512 ![0, 0] (V5 m c main_arg8 : FVec Ideal S1024x512 .f32)
      slices_S1024x512_S512x512_0_0) bitsLt_bf16_f32) := stretch5_v7 (V5 m c)
theorem v9_eq (c : Dev nD) : @Eq (FVec Ideal S512x512 .bf16) (V6 m c main_v9)
    (truncf .bf16 (extractStridedSlice S512x512 ![512, 0] (V5 m c main_arg8 : FVec Ideal S1024x512 .f32)
      slices_S1024x512_S512x512_512_0) bitsLt_bf16_f32) := stretch5_v9 (V5 m c)

/-- A take of the taken rows is the take by the taken words: the table's row that the word the index names among
    the words names. -/
theorem take2_of_words {N M D n : Nat} (tbl : Fin (N + 1) → Fin D → EReal) (ws : Fin (M + 1) → BitVec 32)
    (idx : Fin n → BitVec 32) (v : Fin n → BitVec 32)
    (hv : ∀ p, v p = ws ⟨Spec.rowOf (M + 1) (idx p), Spec.rowOf_lt (Nat.succ_pos M) _⟩) :
    Spec.take2 tbl v = Spec.take2 (N := M) (Spec.take2 tbl ws) idx := by
  funext r d
  show tbl ⟨Spec.rowOf (N + 1) (v r), _⟩ d = tbl ⟨Spec.rowOf (N + 1) (ws ⟨Spec.rowOf (M + 1) (idx r), _⟩), _⟩ d
  refine congrArg (fun q : Fin (N + 1) => tbl q d) (Fin.ext ?_)
  show Spec.rowOf (N + 1) (v r) = Spec.rowOf (N + 1) (ws ⟨Spec.rowOf (M + 1) (idx r), _⟩)
  rw [hv r]

/-- The source rows: the features of the nodes the source indices name among the sampled nodes. -/
theorem glue_v3 (c : Dev nD) (h : Ranges m c) :
    Spec.rd2 (V6 m c main_v3 : S32768x512.Idx → EReal)
      = Spec.take2 (N := 36863) (Spec.take2 (N := 99999) (Spec.rd2 (inFeat m c)) (Spec.rd1 (inNodes m c))) (Spec.rd1 (inSrc1 m c)) := by
  have e63 : (V6 m c main_v3 : S32768x512.Idx → EReal) = V4 m c main_v3 :=
    (V6_of m c main_v3 (by decide)).trans (V5_of m c main_v3 (by decide))
  have ef : (V2 m c main_arg0 : S100000x512.Idx → EReal) = inFeat m c :=
    (V2_of m c main_arg0 (by decide)).trans ((V1_of m c main_arg0 (by decide)).trans rfl)
  have e0 : (V2 m c main_v0 : S32768.Idx → BitVec 32) = V1 m c main_v0 := V2_of m c main_v0 (by decide)
  have hw : ∀ p : Fin 32768, InRange 100000 ((V1 m c main_v0 : S32768.Idx → BitVec 32) (ix1 p)) := fun p => by
    rw [v0_apply m c h p]
    exact h.nodes _
  have e : Spec.rd2 (V6 m c main_v3 : S32768x512.Idx → EReal)
      = Spec.take2 (N := 99999) (Spec.rd2 (inFeat m c)) (Spec.rd1 (V1 m c main_v0 : S32768.Idx → BitVec 32)) := by
    funext r d
    show (V6 m c main_v3 : S32768x512.Idx → EReal) (ix2 r d) = _
    rw [e63, v3_eq m c, truncf_apply, v2_eq m c, ef, e0]
    exact floatTake_apply (N := 99999) bcast_S_S32768 bcast_S32768_S32768x1_0 bcast_S_S32768x1 bcast_S1_S1x1_1
      bcast_S1x1_S32768x1_0_1 reducesTo_S32768x1_S32768_d1 h_S_ (by decide) bcast_S32768_S32768x512_0
      bcast_S_S32768x512 gather_S100000x512_S32768x1_S32768x512_1_0_n_n_0_1_1512_wf (inFeat m c) _ hw r d
  rw [e]
  exact take2_of_words (N := 99999) (M := 36863) _ (Spec.rd1 (inNodes m c)) (Spec.rd1 (inSrc1 m c)) _
    (fun p => v0_apply m c h p)

/-- The destination rows, likewise. -/
theorem glue_v5 (c : Dev nD) (h : Ranges m c) :
    Spec.rd2 (V6 m c main_v5 : S4096x512.Idx → EReal)
      = Spec.take2 (N := 36863) (Spec.take2 (N := 99999) (Spec.rd2 (inFeat m c)) (Spec.rd1 (inNodes m c))) (Spec.rd1 (inDst1 m c)) := by
  have ef : (V4 m c main_arg0 : S100000x512.Idx → EReal) = inFeat m c :=
    (V4_of m c main_arg0 (by decide)).trans <| (V3_of m c main_arg0 (by decide)).trans <|
      (V2_of m c main_arg0 (by decide)).trans ((V1_of m c main_arg0 (by decide)).trans rfl)
  have e1 : (V4 m c main_v1 : S4096.Idx → BitVec 32) = V2 m c main_v1 :=
    (V4_of m c main_v1 (by decide)).trans (V3_of m c main_v1 (by decide))
  have hw : ∀ p : Fin 4096, InRange 100000 ((V2 m c main_v1 : S4096.Idx → BitVec 32) (ix1 p)) := fun p => by
    rw [v1_apply m c h p]
    exact h.nodes _
  have e : Spec.rd2 (V6 m c main_v5 : S4096x512.Idx → EReal)
      = Spec.take2 (N := 99999) (Spec.rd2 (inFeat m c)) (Spec.rd1 (V2 m c main_v1 : S4096.Idx → BitVec 32)) := by
    funext r d
    show (V6 m c main_v5 : S4096x512.Idx → EReal) (ix2 r d) = _
    rw [v5_eq m c, truncf_apply, v4_eq m c, ef, e1]
    exact floatTake_apply (N := 99999) bcast_S_S4096 bcast_S4096_S4096x1_0 bcast_S_S4096x1 bcast_S1_S1x1_1
      bcast_S1x1_S4096x1_0_1 reducesTo_S4096x1_S4096_d1 h_S_ (by decide) bcast_S4096_S4096x512_0
      bcast_S_S4096x512 gather_S100000x512_S4096x1_S4096x512_1_0_n_n_0_1_1512_wf (inFeat m c) _ hw r d
  rw [e]
  exact take2_of_words (N := 99999) (M := 36863) _ (Spec.rd1 (inNodes m c)) (Spec.rd1 (inDst1 m c)) _
    (fun p => v1_apply m c h p)

/-- The two weight operands are the two halves of the first layer's weight matrix. -/
theorem glue_w1 (c : Dev nD) :
    Spec.joinW (Spec.rd2 (V6 m c main_v7 : S512x512.Idx → EReal)) (Spec.rd2 (V6 m c main_v9 : S512x512.Idx → EReal))
      = Spec.rd2 (inW1 m c) := by
  have ew : (V5 m c main_arg8 : S1024x512.Idx → EReal) = inW1 m c :=
    (V5_of m c main_arg8 (by decide)).trans <| (V4_of m c main_arg8 (by decide)).trans <|
      (V3_of m c main_arg8 (by decide)).trans <| (V2_of m c main_arg8 (by decide)).trans <|
      (V1_of m c main_arg8 (by decide)).trans rfl
  funext k d
  unfold Spec.joinW
  by_cases hk : k.val < 512
  · rw [dif_pos hk]
    show (V6 m c main_v7 : S512x512.Idx → EReal) (ix2 ⟨k.val, hk⟩ d) = inW1 m c (ix2 k d)
    rw [v7_eq m c, truncf_apply, ew]
    exact slice2_axis0_apply 0 (inW1 m c) slices_S1024x512_S512x512_0_0 ⟨k.val, hk⟩ d k (Nat.zero_add _).symm
  · rw [dif_neg hk]
    show (V6 m c main_v9 : S512x512.Idx → EReal) (ix2 ⟨k.val - 512, _⟩ d) = inW1 m c (ix2 k d)
    rw [v9_eq m c, truncf_apply, ew]
    exact slice2_axis0_apply 512 (inW1 m c) slices_S1024x512_S512x512_512_0 ⟨k.val - 512, by omega⟩ d k
      (by show k.val = 512 + (k.val - 512); omega)

end Cert.KernelIdeal.Gen

end
-- ==== Proof.KI.Glue1.lean ====
/-
  Three operands of the second pallas_call, as the host lines between the two calls leave them, in terms of the
  program's arguments: the second layer's diffusion matrix and the classifier's matrix pass through a change of float
  format, which is the identity on the extended reals; the two slices of the second layer's weight matrix, each through
  the same change of format, are its two halves.
-/
import proofs.«424208_j60103772340409_3_alg».proof.Proof.KI.Args
import Idealize.ShloMosaic.Lib.StableHlo.Run
import Idealize.ShloMosaic.Lib.Pipeline.Value

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

/-! ## The halves of a matrix of 1024 rows -/

/-- The upper half of a matrix of 1024 rows, read at (k, d): row k. -/
theorem sliceTop_apply (x : (⟨2, ![1024, 512]⟩ : Shape).Idx → EReal)
    (h : (⟨2, ![1024, 512]⟩ : Shape).Slices ![0, 0] ⟨2, ![512, 512]⟩) (k d : Fin 512) :
    extractStridedSlice ⟨2, ![512, 512]⟩ ![0, 0] x h (ix2 k d) = x (ix2 ⟨k.val, by omega⟩ d) :=
  extractStridedSlice_apply _ x h _ _ fun a => match a with
    | ⟨0, _⟩ => by show k.val = 0 + k.val; omega
    | ⟨1, _⟩ => by show d.val = 0 + d.val; omega

/-- The lower half, read at (k, d): row 512 + k. -/
theorem sliceBottom_apply (x : (⟨2, ![1024, 512]⟩ : Shape).Idx → EReal)
    (h : (⟨2, ![1024, 512]⟩ : Shape).Slices ![512, 0] ⟨2, ![512, 512]⟩) (k d : Fin 512) :
    extractStridedSlice ⟨2, ![512, 512]⟩ ![512, 0] x h (ix2 k d) = x (ix2 ⟨512 + k.val, by omega⟩ d) :=
  extractStridedSlice_apply _ x h _ _ fun a => match a with
    | ⟨0, _⟩ => by show 512 + k.val = 512 + k.val; rfl
    | ⟨1, _⟩ => by show d.val = 0 + d.val; omega

/-! ## The last stretch before the second call, from any contents -/

section Stretch
variable (W : Valuation τ sig (Elt Ideal))

/-- The diffusion matrix through the change of float format. -/
theorem hostOps1_3_v15 (i : S512x3584.Idx) :
    (StableHlo.after hostOps1_3 W (Proc.devRef .tc main_v15) : S512x3584.Idx → EReal) i
      = (W (Proc.devRef .tc main_arg7) : S512x3584.Idx → EReal) i := by
  after_results; rfl

/-- The upper half of the weights through the change of float format. -/
theorem hostOps1_3_v17 (k d : Fin 512) :
    (StableHlo.after hostOps1_3 W (Proc.devRef .tc main_v17) : S512x512.Idx → EReal) (ix2 k d)
      = (W (Proc.devRef .tc main_arg9) : S1024x512.Idx → EReal) (ix2 ⟨k.val, by omega⟩ d) := by
  after_results
  rw [truncf_apply]
  exact sliceTop_apply _ _ k d

/-- The lower half of the weights through the change of float format. -/
theorem hostOps1_3_v19 (k d : Fin 512) :
    (StableHlo.after hostOps1_3 W (Proc.devRef .tc main_v19) : S512x512.Idx → EReal) (ix2 k d)
      = (W (Proc.devRef .tc main_arg9) : S1024x512.Idx → EReal) (ix2 ⟨512 + k.val, by omega⟩ d) := by
  after_results
  rw [truncf_apply]
  exact sliceBottom_apply _ _ k d

/-- The classifier's matrix through the change of float format. -/
theorem hostOps1_3_v20 (i : S512x128.Idx) :
    (StableHlo.after hostOps1_3 W (Proc.devRef .tc main_v20) : S512x128.Idx → EReal) i
      = (W (Proc.devRef .tc main_arg10) : S512x128.Idx → EReal) i := by
  after_results; rfl

end Stretch

variable (m : (ℓ : Loc nD τ sig) → Buf (Elt Ideal) ℓ) (outs : Outs (F := Ideal))

/-! ## The arguments reach the last stretch as launched: nothing before it writes them -/

theorem v10_arg7 (c : Dev nD) : V10 m outs c main_arg7 = m ((c : Thread nD τ).loc main_arg7) :=
  (V10_of m outs c main_arg7 (by decide)).trans <| (V9_of m outs c main_arg7 (by decide)).trans <| (V8_of m outs c main_arg7 (by decide)).trans <| (V7_of m outs c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl

theorem v10_arg9 (c : Dev nD) : V10 m outs c main_arg9 = m ((c : Thread nD τ).loc main_arg9) :=
  (V10_of m outs c main_arg9 (by decide)).trans <| (V9_of m outs c main_arg9 (by decide)).trans <| (V8_of m outs c main_arg9 (by decide)).trans <| (V7_of m outs c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans rfl

theorem v10_arg10 (c : Dev nD) : V10 m outs c main_arg10 = m ((c : Thread nD τ).loc main_arg10) :=
  (V10_of m outs c main_arg10 (by decide)).trans <| (V9_of m outs c main_arg10 (by decide)).trans <| (V8_of m outs c main_arg10 (by decide)).trans <| (V7_of m outs c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans rfl

/-! ## The second call's operands -/

theorem glue_v15 (c : Dev nD) : (V11 m outs c main_v15 : S512x3584.Idx → EReal) = inDif2 m c := by
  funext i
  refine (hostOps1_3_v15 (V10 m outs c) i).trans ?_
  rw [v10_arg7]

theorem glue_w2 (c : Dev nD) :
    Spec.joinW (Spec.rd2 (V11 m outs c main_v17 : S512x512.Idx → EReal)) (Spec.rd2 (V11 m outs c main_v19 : S512x512.Idx → EReal))
      = Spec.rd2 (inW2 m c) := by
  funext k d
  unfold Spec.joinW
  split
  · next hk =>
    show (V11 m outs c main_v17 : S512x512.Idx → EReal) (ix2 ⟨k.val, hk⟩ d) = inW2 m c (ix2 k d)
    refine (hostOps1_3_v17 (V10 m outs c) ⟨k.val, hk⟩ d).trans ?_
    rw [v10_arg9]
  · next hk =>
    show (V11 m outs c main_v19 : S512x512.Idx → EReal) (ix2 ⟨k.val - 512, by omega⟩ d) = inW2 m c (ix2 k d)
    refine (hostOps1_3_v19 (V10 m outs c) ⟨k.val - 512, by omega⟩ d).trans ?_
    rw [v10_arg9]
    exact congrArg (fun j : Fin 1024 => inW2 m c (ix2 j d))
      (Fin.ext (by show 512 + (k.val - 512) = k.val; omega) : (⟨512 + (k.val - 512), by omega⟩ : Fin 1024) = k)

theorem glue_v20 (c : Dev nD) : (V11 m outs c main_v20 : S512x128.Idx → EReal) = inWc m c := by
  funext i
  refine (hostOps1_3_v20 (V10 m outs c) i).trans ?_
  rw [v10_arg10]

end Cert.KernelIdeal.Gen

end
-- ==== Proof.KI.Glue1b.lean ====
/-
  The two row operands of the second pallas_call that are taken from the first call's result: the rows the second
  layer's source and destination index words name. With every word a row number the printed take (wrap, range tests,
  gather, fill, select) is the plain take of rows, and the change of float format is the identity on the extended reals.
-/
import proofs.«424208_j60103772340409_3_alg».proof.Proof.KI.Glue0

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

/-! ## The host stretches between the calls that take rows, each as one function of the buffers it reads -/

section Stretch

variable {F : FTy → Type} [FloatOps F] (W : Valuation τ sig (Elt F))

/-- The take of the first call's result rows by the second layer's source indices, from any contents `W`. -/
theorem stretch1_0 : @Eq (FVec F S3584x512 .f32) (StableHlo.after hostOps1 W (Proc.devRef .tc main_v11))
    (floatTake bcast_S_S3584 bcast_S3584_S3584x1_0 bcast_S_S3584x1 bcast_S1_S1x1_1 bcast_S1x1_S3584x1_0_1
      reducesTo_S3584x1_S3584_d1 h_S_ 4096#32 4095#32 bcast_S3584_S3584x512_0 bcast_S_S3584x512
      gather_S4096x512_S3584x1_S3584x512_1_0_n_n_0_1_1512_wf (W main_v10) (W main_arg6)) := by
  have ea : (StableHlo.TRef.of (T := ⟨S4096x512, .f32⟩) main_v10).ofBuf (W (Proc.devRef .tc main_v10))
      = (W main_v10 : FVec F S4096x512 .f32) := rfl
  have eb : (StableHlo.TRef.of (T := ⟨S3584, .i32⟩) main_arg6).ofBuf (W (Proc.devRef .tc main_arg6))
      = (W main_arg6 : S3584.Idx → BitVec 32) := rfl
  have ey : ∀ x : FVec F S3584x512 .f32, @Eq (FVec F S3584x512 .f32)
      ((StableHlo.TRef.of (T := ⟨S3584x512, .f32⟩) main_v11).toBuf (Val := Elt F) x) x := fun _ => rfl
  after_results_simp
  simp only [ofBuf_toBuf]
  rw [ea, eb, ey]
  rfl

/-- The take of the first call's result rows by the second layer's destination indices. -/
theorem stretch1_2 : @Eq (FVec F S512x512 .f32) (StableHlo.after hostOps1_2 W (Proc.devRef .tc main_v13))
    (floatTake bcast_S_S512 bcast_S512_S512x1_0 bcast_S_S512x1 bcast_S1_S1x1_1 bcast_S1x1_S512x1_0_1
      reducesTo_S512x1_S512_d1 h_S_ 4096#32 4095#32 bcast_S512_S512x512_0 bcast_S_S512x512
      gather_S4096x512_S512x1_S512x512_1_0_n_n_0_1_1512_wf (W main_v10) (W main_arg5)) := by
  have ea : (StableHlo.TRef.of (T := ⟨S4096x512, .f32⟩) main_v10).ofBuf (W (Proc.devRef .tc main_v10))
      = (W main_v10 : FVec F S4096x512 .f32) := rfl
  have eb : (StableHlo.TRef.of (T := ⟨S512, .i32⟩) main_arg5).ofBuf (W (Proc.devRef .tc main_arg5))
      = (W main_arg5 : S512.Idx → BitVec 32) := rfl
  have ey : ∀ x : FVec F S512x512 .f32, @Eq (FVec F S512x512 .f32)
      ((StableHlo.TRef.of (T := ⟨S512x512, .f32⟩) main_v13).toBuf (Val := Elt F) x) x := fun _ => rfl
  after_results_simp
  simp only [ofBuf_toBuf]
  rw [ea, eb, ey]
  rfl

/-- The two changes of float format. -/
theorem stretch1_1 : @Eq (FVec F S3584x512 .bf16) (StableHlo.after hostOps1_1 W (Proc.devRef .tc main_v12))
    (truncf .bf16 (W main_v11 : FVec F S3584x512 .f32) bitsLt_bf16_f32) := by
  after_results_simp
  <;> rfl

theorem stretch1_3_v14 : @Eq (FVec F S512x512 .bf16) (StableHlo.after hostOps1_3 W (Proc.devRef .tc main_v14))
    (truncf .bf16 (W main_v13 : FVec F S512x512 .f32) bitsLt_bf16_f32) := by
  after_results_simp
  <;> rfl

end Stretch

/-! ## The second call's two taken operands -/

variable (m : (ℓ : Loc nD τ sig) → Buf (Elt Ideal) ℓ) (outs : Outs (F := Ideal))

/-- The stretches' results at the buffers' contents between the items. -/
theorem v11_eq (c : Dev nD) : @Eq (FVec Ideal S3584x512 .f32) (V8 m outs c main_v11)
    (floatTake bcast_S_S3584 bcast_S3584_S3584x1_0 bcast_S_S3584x1 bcast_S1_S1x1_1 bcast_S1x1_S3584x1_0_1
      reducesTo_S3584x1_S3584_d1 h_S_ 4096#32 4095#32 bcast_S3584_S3584x512_0 bcast_S_S3584x512
      gather_S4096x512_S3584x1_S3584x512_1_0_n_n_0_1_1512_wf (F := Ideal) (V7 m outs c main_v10) (V7 m outs c main_arg6)) :=
  stretch1_0 (V7 m outs c)
theorem v12_eq (c : Dev nD) : @Eq (FVec Ideal S3584x512 .bf16) (V9 m outs c main_v12)
    (truncf .bf16 (V8 m outs c main_v11 : FVec Ideal S3584x512 .f32) bitsLt_bf16_f32) := stretch1_1 (V8 m outs c)
theorem v13_eq (c : Dev nD) : @Eq (FVec Ideal S512x512 .f32) (V10 m outs c main_v13)
    (floatTake bcast_S_S512 bcast_S512_S512x1_0 bcast_S_S512x1 bcast_S1_S1x1_1 bcast_S1x1_S512x1_0_1
      reducesTo_S512x1_S512_d1 h_S_ 4096#32 4095#32 bcast_S512_S512x512_0 bcast_S_S512x512
      gather_S4096x512_S512x1_S512x512_1_0_n_n_0_1_1512_wf (F := Ideal) (V9 m outs c main_v10) (V9 m outs c main_arg5)) :=
  stretch1_2 (V9 m outs c)
theorem v14_eq (c : Dev nD) : @Eq (FVec Ideal S512x512 .bf16) (V11 m outs c main_v14)
    (truncf .bf16 (V10 m outs c main_v13 : FVec Ideal S512x512 .f32) bitsLt_bf16_f32) := stretch1_3_v14 (V10 m outs c)

/-- The first call's result buffer holds what the call left. -/
theorem v10_at7 (c : Dev nD) : (V7 m outs c main_v10 : S4096x512.Idx → EReal) = outs 7 main_v10 c :=
  Function.update_self ..

theorem glue_v12 (c : Dev nD) (h : Ranges m c) :
    Spec.rd2 (V11 m outs c main_v12 : S3584x512.Idx → EReal)
      = Spec.take2 (N := 4095) (Spec.rd2 (outs 7 main_v10 c : S4096x512.Idx → EReal)) (Spec.rd1 (inSrc2 m c)) := by
  have e12 : (V11 m outs c main_v12 : S3584x512.Idx → EReal) = V9 m outs c main_v12 :=
    (V11_of m outs c main_v12 (by decide)).trans (V10_of m outs c main_v12 (by decide))
  have ei : (V7 m outs c main_arg6 : S3584.Idx → BitVec 32) = inSrc2 m c :=
    (V7_of m outs c main_arg6 (by decide)).trans <| (V6_of m c main_arg6 (by decide)).trans <|
      (V5_of m c main_arg6 (by decide)).trans <| (V4_of m c main_arg6 (by decide)).trans <|
      (V3_of m c main_arg6 (by decide)).trans <| (V2_of m c main_arg6 (by decide)).trans <|
      (V1_of m c main_arg6 (by decide)).trans rfl
  funext r d
  show (V11 m outs c main_v12 : S3584x512.Idx → EReal) (ix2 r d) = _
  rw [e12, v12_eq m outs c, truncf_apply, v11_eq m outs c, v10_at7 m outs c, ei]
  exact floatTake_apply (N := 4095) bcast_S_S3584 bcast_S3584_S3584x1_0 bcast_S_S3584x1 bcast_S1_S1x1_1
    bcast_S1x1_S3584x1_0_1 reducesTo_S3584x1_S3584_d1 h_S_ (by decide) bcast_S3584_S3584x512_0
    bcast_S_S3584x512 gather_S4096x512_S3584x1_S3584x512_1_0_n_n_0_1_1512_wf (outs 7 main_v10 c) (inSrc2 m c) h.src2 r d

theorem glue_v14 (c : Dev nD) (h : Ranges m c) :
    Spec.rd2 (V11 m outs c main_v14 : S512x512.Idx → EReal)
      = Spec.take2 (N := 4095) (Spec.rd2 (outs 7 main_v10 c : S4096x512.Idx → EReal)) (Spec.rd1 (inDst2 m c)) := by
  have e10 : (V9 m outs c main_v10 : S4096x512.Idx → EReal) = outs 7 main_v10 c :=
    (V9_of m outs c main_v10 (by decide)).trans <| (V8_of m outs c main_v10 (by decide)).trans (v10_at7 m outs c)
  have ei : (V9 m outs c main_arg5 : S512.Idx → BitVec 32) = inDst2 m c :=
    (V9_of m outs c main_arg5 (by decide)).trans <| (V8_of m outs c main_arg5 (by decide)).trans <|
      (V7_of m outs c main_arg5 (by decide)).trans <| (V6_of m c main_arg5 (by decide)).trans <|
      (V5_of m c main_arg5 (by decide)).trans <| (V4_of m c main_arg5 (by decide)).trans <|
      (V3_of m c main_arg5 (by decide)).trans <| (V2_of m c main_arg5 (by decide)).trans <|
      (V1_of m c main_arg5 (by decide)).trans rfl
  funext r d
  show (V11 m outs c main_v14 : S512x512.Idx → EReal) (ix2 r d) = _
  rw [v14_eq m outs c, truncf_apply, v13_eq m outs c, e10, ei]
  exact floatTake_apply (N := 4095) bcast_S_S512 bcast_S512_S512x1_0 bcast_S_S512x1 bcast_S1_S1x1_1
    bcast_S1x1_S512x1_0_1 reducesTo_S512x1_S512_d1 h_S_ (by decide) bcast_S512_S512x512_0
    bcast_S_S512x512 gather_S4096x512_S512x1_S512x512_1_0_n_n_0_1_1512_wf (outs 7 main_v10 c) (inDst2 m c) h.dst2 r d

end Cert.KernelIdeal.Gen

end
-- ==== Proof.KI.Value.lean ====
/-
  The program's result, entry by entry, is the specification's function of its arguments, when every index word is a
  row number. The second call's result is the second layer, the class scores and the softmax of the arrays it is
  entered with; those arrays are the program's arguments and rows of the first call's result taken by the second
  layer's index words; the first call's result is the first layer of the arrays it is entered with, which are the
  program's arguments and feature rows taken twice over (the sampled nodes by the first layer's index words).
-/
import proofs.«424208_j60103772340409_3_alg».proof.Proof.KI.Run
import proofs.«424208_j60103772340409_3_alg».proof.Proof.KI.Val0
import proofs.«424208_j60103772340409_3_alg».proof.Proof.KI.Val1
import proofs.«424208_j60103772340409_3_alg».proof.Proof.KI.Glue0
import proofs.«424208_j60103772340409_3_alg».proof.Proof.KI.Glue1
import proofs.«424208_j60103772340409_3_alg».proof.Proof.KI.Glue1b

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- What the first call leaves, read by coordinates: the first layer. -/
theorem X0_rd2 (c : Dev nD) (h : Ranges m c) :
    Spec.rd2 (X0 (F := Ideal) m c : S4096x512.Idx → EReal)
      = Spec.layer (Spec.rd2 (inDif1 m c))
          (Spec.take2 (N := 36863) (Spec.take2 (N := 99999) (Spec.rd2 (inFeat m c)) (Spec.rd1 (inNodes m c))) (Spec.rd1 (inSrc1 m c)))
          (Spec.take2 (N := 36863) (Spec.take2 (N := 99999) (Spec.rd2 (inFeat m c)) (Spec.rd1 (inNodes m c))) (Spec.rd1 (inDst1 m c)))
          (Spec.rd2 (inW1 m c)) := by
  funext i d
  refine (arr0_apply (Vin0 (F := Ideal) m) c i d).trans ?_
  have e4 := glue_arg4 m c
  have e3 := glue_v3 m c h
  have e5 := glue_v5 m c h
  have ew := glue_w1 m c
  simp only [Vin0] at e4 e3 e5 ew ⊢
  rw [e4, e3, e5, ew]

/-- What the second call leaves, entry by entry: the specification. -/
theorem X1_apply (c : Dev nD) (h : Ranges m c) (r : Fin 512) (j : Fin 128) :
    (X1 (F := Ideal) m c : S512x128.Idx → EReal) (ix2 r j)
      = Spec.G (Spec.rd2 (inFeat m c)) (Spec.rd1 (inNodes m c)) (Spec.rd1 (inDst1 m c)) (Spec.rd1 (inSrc1 m c)) (Spec.rd2 (inDif1 m c))
          (Spec.rd1 (inDst2 m c)) (Spec.rd1 (inSrc2 m c)) (Spec.rd2 (inDif2 m c)) (Spec.rd2 (inW1 m c)) (Spec.rd2 (inW2 m c))
          (Spec.rd2 (inWc m c)) r j := by
  refine (arr1_apply (Vin1 (F := Ideal) m) c r j).trans ?_
  have e15 := glue_v15 m (outs0 m) c
  have e12 := glue_v12 m (outs0 m) c h
  have e14 := glue_v14 m (outs0 m) c h
  have ew := glue_w2 m (outs0 m) c
  have e20 := glue_v20 m (outs0 m) c
  have e0 := X0_rd2 m c h
  simp only [Vin1] at e15 e12 e14 ew e20 ⊢
  rw [e15, e12, e14, ew, e20, outs0_v10, e0]
  rfl

end Cert.KernelIdeal.Gen

end
-- ==== Proof.KI.PreRanges.lean ====
/-
  The launch precondition read back as the fact the comparison with the reference uses: on every core each of the five
  arrays of index words holds row numbers of the table it indexes. The precondition is the conjunction of eleven
  reductions by "and" to one bit; six speak of the float arrays and are not used here, five are the reductions of the
  masks (0 ≤ w) ∧ (w < N) over the sampled nodes (N = 100000), the first layer's destination and source indices
  (N = 36864) and the second layer's (N = 4096). A reduction by "and" that came out 1 met 1 at every element, and one
  element of such a mask being 1 says, of the word w it compares with the two constants, 0 ≤ w and w < N read signed.
-/
import proofs.«424208_j60103772340409_3_alg».proof.Proof.KI.Args
import proofs.«424208_j60103772340409_3_alg».proof.Defs
import proofs.«424208_j60103772340409_3_alg».proof.Proof.Gen.Pre_finite_inputs
import Idealize.ShloMosaic.Lib.StableHlo.Predicate
import Idealize.ShloMosaic.Lib.ReduceAll
import Idealize.ShloMosaic.Lib.ValueIdx

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

/-- The scalar shape has exactly one index. -/
instance scalarIdx_subsingleton : Subsingleton (⟨0, ![]⟩ : Shape).Idx := ⟨fun a b => funext fun d => d.elim0⟩

/-- One element of a range mask: the bit (w ≥ 0) ∧ (w < N), both compared signed, being 1 says that the word w is a
    row number of a table of N rows (N below 2³¹, so that the constant N reads N signed). -/
theorem inRange_of_bit (N : Nat) (hN : N < 2 ^ 31) (w : BitVec 32)
    (h : IntOp.andi (IntOp.cmpi .sge w 0#32) (IntOp.cmpi .slt w (BitVec.ofNat 32 N)) = 1#1) : InRange N w := by
  obtain ⟨h0, h1⟩ := IntOp.andi_eq_one.1 h
  rw [IntOp.cmpi_sge, show (0#32 : BitVec 32).toInt = 0 from by decide] at h0
  rw [IntOp.cmpi_slt, StableHlo.Predicate.toInt_ofNat_small N hN] at h1
  exact ⟨h0, h1⟩

/-- A conjunction of two one-bit scalars that is 1 has both conjuncts 1. -/
theorem both_of_andi {x y : IVec ⟨0, ![]⟩ 1} (h : andi x y ix0 = 1#1) : x ix0 = 1#1 ∧ y ix0 = 1#1 :=
  IntOp.andi_eq_one.1 h

/-- The "all" of a range mask over a vector of n index words: when the reduction by "and" of the mask
    (x ≥ 0) ∧ (x < N), the two constants broadcast from scalars, is 1, every word of x is a row number of a table of N
    rows. -/
theorem inRange_of_all {n : Nat} (N : Nat) (hN : N < 2 ^ 31) (x : IVec ⟨1, ![n]⟩ 32)
    (hb : (⟨0, ![]⟩ : Shape).BroadcastsInDim ⟨1, ![n]⟩ (![] : Fin 0 → Fin 1))
    (hr : (⟨1, ![n]⟩ : Shape).ReducesTo [0] ⟨0, ![]⟩) (h0 : 0 < (⟨0, ![]⟩ : Shape).numel) (init : IVec ⟨0, ![]⟩ 1)
    (e : Host.reduce IntOp.andi
        (andi (cmpi .sge x (broadcastInDim ⟨1, ![n]⟩ ![] hb (constantI ⟨0, ![]⟩ 32 0#32)))
          (cmpi .slt x (broadcastInDim ⟨1, ![n]⟩ ![] hb (constantI ⟨0, ![]⟩ 32 (BitVec.ofNat 32 N)))))
        init hr h0 ix0 = 1#1)
    (i : Fin n) : InRange N (x (ix1 i)) :=
  inRange_of_bit N hN _ (Host.reduce_andi_all _ init hr h0 ix0 e (ix1 i))

/-- THE PRECONDITION DECODED: on every core the five arrays of index words hold row numbers of the tables they index. -/
theorem ranges_of_pre [hP : Cert.Pre_finite_inputs.Facts] (m : (ℓ : Loc nD τ sig) → Buf (Elt Ideal) ℓ)
    (hpre : Cert.Pre_KernelIdeal m) (c : Dev nD) : Ranges m c := by
  have e := congrFun (hpre c) ix0
  unfold Cert.Pre_finite_inputs.fn Cert.Pre_finite_inputs.fn_part1 Cert.Pre_finite_inputs.fn_part2
    Cert.Pre_finite_inputs.fn_part3 at e
  dsimp only at e
  -- the conjunction, from its last conjunct back to the first range mask
  obtain ⟨e, hsrc2⟩ := both_of_andi e
  obtain ⟨e, hdst2⟩ := both_of_andi e
  obtain ⟨e, hsrc1⟩ := both_of_andi e
  obtain ⟨e, hdst1⟩ := both_of_andi e
  obtain ⟨-, hnodes⟩ := both_of_andi e
  exact
    { nodes := fun n => inRange_of_all 100000 (by decide) _ _ _ _ _ hnodes n
      dst1 := fun i => inRange_of_all 36864 (by decide) _ _ _ _ _ hdst1 i
      src1 := fun s => inRange_of_all 36864 (by decide) _ _ _ _ _ hsrc1 s
      dst2 := fun r => inRange_of_all 4096 (by decide) _ _ _ _ _ hdst2 r
      src2 := fun s => inRange_of_all 4096 (by decide) _ _ _ _ _ hsrc2 s }

end Cert.KernelIdeal.Gen

end
-- ==== Proof.RefImports.lean ====
/- The reference's generated run and its read-at-an-index lemmas, gathered in one import so that the
   modules that compare the two programs' values name a single dependency. -/
import proofs.«424208_j60103772340409_3_alg».proof.Proof.Gen.ReferenceIdeal.Run
import proofs.«424208_j60103772340409_3_alg».proof.Proof.Gen.ReferenceIdeal.Read
-- ==== Proof.RefIsG.lean ====
/-
  The reference program's result, entry by entry, is the specification's function of its arguments. Each
  `x[idx]` of the reference wraps negative words and gathers rows (the gather keeps its position inside the table):
  that is the specification's take. A layer multiplies the two joined halves by the 1024-row weight matrix in one
  product: the sum over the 1024 joined columns is the sum over the first 512 plus the sum over the last 512.
  The softmax subtracts each row's maximum, exponentiates, and divides by the row's sum.
-/
import proofs.«424208_j60103772340409_3_alg».proof.Proof.RefImports
import proofs.«424208_j60103772340409_3_alg».proof.Proof.Spec
import proofs.«424208_j60103772340409_3_alg».proof.Proof.LibRowTake
import proofs.«424208_j60103772340409_3_alg».proof.Proof.LibMatmulAt
import proofs.«424208_j60103772340409_3_alg».proof.Proof.LibDotAt
import proofs.«424208_j60103772340409_3_alg».proof.Proof.LibSumSplit
import proofs.«424208_j60103772340409_3_alg».proof.Proof.LibKeepdims
import proofs.«424208_j60103772340409_3_alg».proof.Proof.LibRowOps
import proofs.«424208_j60103772340409_3_alg».proof.Proof.LibKernelHost
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.RefValue

open Idealize.ShloMosaic Idealize.ShloMosaic.TcCoe Idealize.ShloMosaic.ValueIdx Idealize.SL.Sem
open Idealize.ShloMosaic.Pipeline (Dat)

/-! ## The stages as mathematics, for any sizes -/

/-- ROWS TAKEN BY INDEX WORDS. A gather of a table's rows whose start column holds the wrapped index words is the
    specification's take: the gather reads the word signed and keeps the position inside the table. -/
theorem gather_take {N D n : Nat}
    (wf : GatherDims.WF ⟨2, ![N + 1, D]⟩ ⟨2, ![n, 1]⟩ ⟨2, ![n, D]⟩ [1] [0] [] [0] [] 1 ![1, D])
    (tbl : (⟨2, ![N + 1, D]⟩ : Shape).Idx → EReal) (col : IVec ⟨2, ![n, 1]⟩ 32) (idx : Fin n → BitVec 32)
    (hcol : ∀ r : Fin n, col (ix2 r (0 : Fin 1)) = Spec.wrap (N + 1) (idx r)) (r : Fin n) (c : Fin D) :
    Host.gather (LibRowTake.rowTakeDims (N + 1) D n wf) tbl col (ix2 r c)
      = Spec.take2 (N := N) (Spec.rd2 tbl) idx r c := by
  rw [LibRowTake.gather_rowTake_apply (Nat.succ_pos N) wf tbl col r c]
  unfold Spec.take2 Spec.rd2
  refine congrArg (fun q : Fin (N + 1) => tbl (ix2 q c)) (Fin.ext ?_)
  show min (col (ix2 r (0 : Fin 1))).toInt.toNat (N + 1 - 1) = Spec.rowOf (N + 1) (idx r)
  rw [hcol r]
  rfl

/-- TWO HALVES JOINED BY COLUMNS: the first 512 columns read the left operand, -/
theorem concat_cols_left {B : Nat} (l r : (⟨2, ![B, 512]⟩ : Shape).Idx → EReal)
    (h : Shape.Concatenates [(⟨2, ![B, 512]⟩ : Shape), (⟨2, ![B, 512]⟩ : Shape)] ⟨2, ![B, 1024]⟩ 1)
    (i : Fin B) (f : Fin 512) (hf : f.val < 1024) :
    concatenate ⟨2, ![B, 1024]⟩ 1 [⟨⟨2, ![B, 512]⟩, l⟩, ⟨⟨2, ![B, 512]⟩, r⟩] h (ix2 i (⟨f.val, hf⟩ : Fin 1024)) = l (ix2 i f) :=
  concatenate_pair_apply_left 1 l r h (ix2 i (⟨f.val, hf⟩ : Fin 1024)) rfl (ix2 i f) fun b => by
    match b with
    | ⟨0, _⟩ => rfl
    | ⟨1, _⟩ => rfl

/-- and the last 512 the right operand. -/
theorem concat_cols_right {B : Nat} (l r : (⟨2, ![B, 512]⟩ : Shape).Idx → EReal)
    (h : Shape.Concatenates [(⟨2, ![B, 512]⟩ : Shape), (⟨2, ![B, 512]⟩ : Shape)] ⟨2, ![B, 1024]⟩ 1)
    (i : Fin B) (f : Fin 512) (hf : 512 + f.val < 1024) :
    concatenate ⟨2, ![B, 1024]⟩ 1 [⟨⟨2, ![B, 512]⟩, l⟩, ⟨⟨2, ![B, 512]⟩, r⟩] h (ix2 i (⟨512 + f.val, hf⟩ : Fin 1024)) = r (ix2 i f) :=
  concatenate_pair_apply_right 1 l r h (ix2 i (⟨512 + f.val, hf⟩ : Fin 1024)) rfl rfl (ix2 i f)
    (fun b hb => by
      match b with
      | ⟨0, _⟩ => rfl
      | ⟨1, _⟩ => exact absurd rfl hb)
    (by show f.val + 512 = 512 + f.val; omega)

/-- A sum over 1024 terms is the sum of the first 512 plus the sum of the last 512. -/
theorem sum_halves {M : Type} [AddCommMonoid M] (g : Fin 1024 → M) :
    ∑ k : Fin 1024, g k = (∑ f : Fin 512, g ⟨f.val, by omega⟩) + ∑ f : Fin 512, g ⟨512 + f.val, by omega⟩ :=
  Fin.sum_univ_add (a := 512) (b := 512) g

/-- A LAYER FROM ITS JOINED ROWS. If the joined array's first 512 columns hold the diffusion product and its last 512
    the destination rows, the positive part of its product with the weight matrix is the specification's layer. -/
theorem layer_of_joined {S B : Nat} (dif : Fin B → Fin S → EReal) (xs : Fin S → Fin 512 → EReal)
    (xd : Fin B → Fin 512 → EReal) (cat : (⟨2, ![B, 1024]⟩ : Shape).Idx → EReal)
    (w : (⟨2, ![1024, 512]⟩ : Shape).Idx → EReal)
    (hl : ∀ (i : Fin B) (f : Fin 512) (h : f.val < 1024), cat (ix2 i (⟨f.val, h⟩ : Fin 1024)) = ∑ s : Fin S, dif i s * xs s f)
    (hr : ∀ (i : Fin B) (f : Fin 512) (h : 512 + f.val < 1024), cat (ix2 i (⟨512 + f.val, h⟩ : Fin 1024)) = xd i f)
    (i : Fin B) (d : Fin 512) :
    max (∑ k : Fin 1024, cat (ix2 i k) * w (ix2 k d)) 0 = Spec.layer dif xs xd (Spec.rd2 w) i d := by
  unfold Spec.layer Spec.rd2
  rw [sum_halves fun k : Fin 1024 => cat (ix2 i k) * w (ix2 k d)]
  refine congrArg (max · 0) (congrArg₂ (· + ·) ?_ ?_)
  · exact Finset.sum_congr rfl fun f _ => by rw [hl i f]
  · exact Finset.sum_congr rfl fun f _ => by rw [hr i f]

/-- THE ROW MAXIMUM. The host's maximum over the last axis, at row r: the fold of `max` over the row from the initial
    value. -/
theorem hostReduceMax_row_apply {a b : Nat} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (r : Fin a) :
    Host.reduce FloatOps.maximumf x init h' hu (ix1 r)
      = (Finset.univ : Finset (Fin b)).fold max (init ix0) (fun k : Fin b => x (ix2 r k)) := by
  rw [Host.reduce_eq_fold_single FloatOps.maximumf x init h' h hu (ix1 r), eq_ix0 (Shape.Idx.first hu)]
  have e : (x ∘ h.lift (ix1 r)) = fun k : Fin b => x (ix2 r k) := funext fun k => congrArg x (RowOps.lift_row h r k)
  rw [e]
  rfl

/-- THE SOFTMAX OF A ROW from its stages: the row's maximum (taken from −∞, and once more against −∞), the
    exponentials of the shifted scores, their sum from zero, the quotient. -/
theorem softmaxRow_of_stages (l : Fin 128 → EReal) (mx sm : EReal) (ex : Fin 128 → EReal)
    (hmx : mx = max (Ideal.ofBits .f32 0xFF800000#32) ((Finset.univ : Finset (Fin 128)).fold max (Ideal.ofBits .f32 0xFF800000#32) l))
    (hex : ∀ k, ex k = Ideal.exp (l k - mx))
    (hsm : sm = Ideal.ofBits .f32 0x00000000#32 + ∑ k : Fin 128, ex k) (j : Fin 128) :
    Ideal.div (ex j) sm = Spec.softmaxRow l j := by
  have hbot : Ideal.ofBits .f32 0xFF800000#32 = (⊥ : EReal) := by simp [Ideal.ofBits, Ideal.ieee]
  have hmx' : mx = Spec.rowMax l := by
    rw [hmx, hbot]
    exact max_eq_right bot_le
  unfold Spec.softmaxRow
  rw [hsm, Ideal.ofBits_zero_f32, zero_add, hex j, hmx']
  exact congrArg (Ideal.div _) (Finset.sum_congr rfl fun k _ => by rw [hex k, hmx'])

/-! ## The program's stretches, for any sizes -/

/-- THE INDEX WORDS OF `x[idx]`: each word below zero moved up by the table's row count, the result kept as a column. -/
theorem wrapCol_apply {n : Nat} (N : Nat) (idx : IVec ⟨1, ![n]⟩ 32)
    (hb : (⟨0, ![]⟩ : Shape).BroadcastsInDim ⟨1, ![n]⟩ ![]) (hc : (⟨1, ![n]⟩ : Shape).BroadcastsInDim ⟨2, ![n, 1]⟩ ![0])
    (r : Fin n) (u : Fin 1) :
    broadcastInDim ⟨2, ![n, 1]⟩ ![0] hc
        (select (cmpi .slt idx (broadcastInDim ⟨1, ![n]⟩ ![] hb (constantI ⟨0, ![]⟩ 32 0#32)))
          (addi idx (broadcastInDim ⟨1, ![n]⟩ ![] hb (constantI ⟨0, ![]⟩ 32 (BitVec.ofNat 32 N)))) idx) (ix2 r u)
      = Spec.wrap N (idx (ix1 r)) := by
  refine (RowOps.bcastInDim_col_apply hc _ r u).trans ?_
  show Scalar.select (IntOp.cmpi .slt (idx (ix1 r)) (broadcastInDim ⟨1, ![n]⟩ ![] hb (constantI ⟨0, ![]⟩ 32 0#32) (ix1 r)))
      (IntOp.addi (idx (ix1 r)) (broadcastInDim ⟨1, ![n]⟩ ![] hb (constantI ⟨0, ![]⟩ 32 (BitVec.ofNat 32 N)) (ix1 r)))
      (idx (ix1 r)) = _
  rw [RowOps.bcastInDim_scalar_apply, RowOps.bcastInDim_scalar_apply]
  rfl

/-- ONE LAYER OF THE REFERENCE: source and destination rows taken from a table by wrapped index columns, the source
    rows weighted by the diffusion matrix, the two joined by columns, the product with the weight matrix, the
    positive part. -/
theorem layer_stage {S B T : Nat} (tbl : FVec Ideal ⟨2, ![T + 1, 512]⟩ .f32)
    (colS : IVec ⟨2, ![S, 1]⟩ 32) (colD : IVec ⟨2, ![B, 1]⟩ 32) (src : Fin S → BitVec 32) (dst : Fin B → BitVec 32)
    (hS : ∀ r : Fin S, colS (ix2 r (0 : Fin 1)) = Spec.wrap (T + 1) (src r))
    (hD : ∀ r : Fin B, colD (ix2 r (0 : Fin 1)) = Spec.wrap (T + 1) (dst r))
    (dif : FVec Ideal ⟨2, ![B, S]⟩ .f32) (w : FVec Ideal ⟨2, ![1024, 512]⟩ .f32)
    (dd1 : DotDims ⟨2, ![B, S]⟩ ⟨2, ![S, 512]⟩ ⟨2, ![B, 512]⟩) (hd1 : LibBridge.DimsPlain dd1)
    (dd2 : DotDims ⟨2, ![B, 1024]⟩ ⟨2, ![1024, 512]⟩ ⟨2, ![B, 512]⟩) (hd2 : LibBridge.DimsPlain dd2)
    (wf1 : GatherDims.WF ⟨2, ![T + 1, 512]⟩ ⟨2, ![S, 1]⟩ ⟨2, ![S, 512]⟩ [1] [0] [] [0] [] 1 ![1, 512])
    (wf2 : GatherDims.WF ⟨2, ![T + 1, 512]⟩ ⟨2, ![B, 1]⟩ ⟨2, ![B, 512]⟩ [1] [0] [] [0] [] 1 ![1, 512])
    (hcat : Shape.Concatenates [(⟨2, ![B, 512]⟩ : Shape), (⟨2, ![B, 512]⟩ : Shape)] ⟨2, ![B, 1024]⟩ 1)
    (hb0 : (⟨0, ![]⟩ : Shape).BroadcastsInDim ⟨2, ![B, 512]⟩ ![]) (i : Fin B) (d : Fin 512) :
    maximumf
        (Host.dotGeneral dd2 none
          (concatenate ⟨2, ![B, 1024]⟩ 1
            [⟨⟨2, ![B, 512]⟩, Host.dotGeneral dd1 none dif
                (Host.gather (LibRowTake.rowTakeDims (T + 1) 512 S wf1) tbl colS : FVec Ideal ⟨2, ![S, 512]⟩ .f32)⟩,
             ⟨⟨2, ![B, 512]⟩, (Host.gather (LibRowTake.rowTakeDims (T + 1) 512 B wf2) tbl colD : FVec Ideal ⟨2, ![B, 512]⟩ .f32)⟩]
            hcat) w)
        (broadcastInDim ⟨2, ![B, 512]⟩ ![] hb0 (constant (F := Ideal) ⟨0, ![]⟩ .f32 0x00000000#32)) (ix2 i d)
      = Spec.layer (Spec.rd2 dif) (Spec.take2 (N := T) (Spec.rd2 tbl) src) (Spec.take2 (N := T) (Spec.rd2 tbl) dst)
          (Spec.rd2 w) i d := by
  rw [maximumf_apply, RowOps.bcastInDim_scalar_apply, LibBridge.dotGeneral_plain_apply dd2 hd2]
  refine (congrArg (max _) Ideal.ofBits_zero_f32).trans ?_
  refine layer_of_joined (Spec.rd2 dif) _ _ _ w (fun i f h => ?_) (fun i f h => ?_) i d
  · rw [concat_cols_left, LibBridge.dotGeneral_plain_apply dd1 hd1]
    exact Finset.sum_congr rfl fun s _ => congrArg (dif (ix2 i s) * ·) (gather_take wf1 tbl colS src hS s f)
  · rw [concat_cols_right]
    exact gather_take wf2 tbl colD dst hD i f

/-- THE CLASS SCORES: the product of the last layer's rows with the classifier's matrix. -/
theorem logits_stage {R : Nat} (h2 : FVec Ideal ⟨2, ![R, 512]⟩ .f32) (wc : FVec Ideal ⟨2, ![512, 128]⟩ .f32)
    (dd : DotDims ⟨2, ![R, 512]⟩ ⟨2, ![512, 128]⟩ ⟨2, ![R, 128]⟩) (hd : LibBridge.DimsPlain dd) (r : Fin R) (j : Fin 128) :
    Host.dotGeneral dd none h2 wc (ix2 r j) = Spec.logits (Spec.rd2 h2 r) (Spec.rd2 wc) j :=
  LibBridge.dotGeneral_plain_apply dd hd none h2 wc r j

/-- THE SOFTMAX TAIL: from the scores `lg`, their row maxima `mx` (against −∞ once more), the exponentials `e` of
    the shifted scores, and the quotient by the row sums. -/
theorem softmax_stage {R : Nat} (lg e : FVec Ideal ⟨2, ![R, 128]⟩ .f32) (mx : FVec Ideal ⟨1, ![R]⟩ .f32)
    (hred' : (⟨2, ![R, 128]⟩ : Shape).ReducesTo [1] ⟨1, ![R]⟩) (hred : (⟨2, ![R, 128]⟩ : Shape).Reduces [1] ⟨1, ![R]⟩)
    (hu : 0 < (⟨0, ![]⟩ : Shape).numel)
    (hb : (⟨0, ![]⟩ : Shape).BroadcastsInDim ⟨1, ![R]⟩ ![]) (hc : (⟨1, ![R]⟩ : Shape).BroadcastsInDim ⟨2, ![R, 1]⟩ ![0])
    (hcs : (⟨2, ![R, 1]⟩ : Shape).BroadcastsInDim ⟨2, ![R, 128]⟩ ![0, 1])
    (hmx : mx = maximumf (broadcastInDim ⟨1, ![R]⟩ ![] hb (constant (F := Ideal) ⟨0, ![]⟩ .f32 0xFF800000#32))
        (Host.reduce FloatOps.maximumf lg (constant (F := Ideal) ⟨0, ![]⟩ .f32 0xFF800000#32) hred' hu))
    (he : e = Host.exp (subf lg (broadcastInDim (s := ⟨2, ![R, 1]⟩) ⟨2, ![R, 128]⟩ ![0, 1] hcs (broadcastInDim (s := ⟨1, ![R]⟩) ⟨2, ![R, 1]⟩ ![0] hc mx))))
    (r : Fin R) (j : Fin 128) :
    Host.divf e (broadcastInDim (s := ⟨2, ![R, 1]⟩) ⟨2, ![R, 128]⟩ ![0, 1] hcs (broadcastInDim (s := ⟨1, ![R]⟩) ⟨2, ![R, 1]⟩ ![0] hc
        (Host.reduceAdd e (constant (F := Ideal) ⟨0, ![]⟩ .f32 0x00000000#32) hred' hu))) (ix2 r j)
      = Spec.softmaxRow (Spec.rd2 lg r) j := by
  have hex : ∀ k : Fin 128, e (ix2 r k) = Ideal.exp (Spec.rd2 lg r k - mx (ix1 r)) := fun k => by
    rw [he]
    show Ideal.exp (lg (ix2 r k) - broadcastInDim (s := ⟨2, ![R, 1]⟩) ⟨2, ![R, 128]⟩ ![0, 1] hcs (broadcastInDim (s := ⟨1, ![R]⟩) ⟨2, ![R, 1]⟩ ![0] hc mx) (ix2 r k)) = _
    rw [RowOps.bcastInDim_cols_apply, RowOps.bcastInDim_col_apply]
    rfl
  refine (show _ = Ideal.div (e (ix2 r j)) (Host.reduceAdd e (constant (F := Ideal) ⟨0, ![]⟩ .f32 0x00000000#32) hred' hu (ix1 r)) from ?_).trans
    (softmaxRow_of_stages (Spec.rd2 lg r) (mx (ix1 r)) _ (fun k => e (ix2 r k)) ?_ hex ?_ j)
  · show Ideal.div (e (ix2 r j)) (broadcastInDim (s := ⟨2, ![R, 1]⟩) ⟨2, ![R, 128]⟩ ![0, 1] hcs (broadcastInDim (s := ⟨1, ![R]⟩) ⟨2, ![R, 1]⟩ ![0] hc _) (ix2 r j)) = _
    rw [RowOps.bcastInDim_cols_apply, RowOps.bcastInDim_col_apply]
  · rw [hmx, maximumf_apply, RowOps.bcastInDim_scalar_apply, hostReduceMax_row_apply lg _ hred' hu hred r]
    rfl
  · rw [RowOps.hostReduceAdd_row_apply e _ hred' hu hred r]
    rfl

open Cert.ReferenceIdeal

/-! ## The reference program, stretch by stretch -/

/-- The index words `x1` wrapped against a table of 100000 rows, as the column the gather reads. -/
theorem col_nodes (x1 : (⟨S36864, .i32⟩ : BufTy).Contents (Elt Ideal)) (r : Fin 36864) :
    Read.val_main_v5 (F := Ideal) x1 (ix2 r (0 : Fin 1)) = Spec.wrap 100000 (Spec.rd1 x1 r) := by
  unfold Read.val_main_v5 Read.val_main_v4 Read.val_main_v3 Read.val_main_v2 Read.val_main_v1 Read.val_main_v0 Read.val_main_c Read.val_main_c_0
  exact wrapCol_apply 100000 x1 Gen.bcast_S_S36864 Gen.bcast_S36864_S36864x1_0 r 0

/-- The index words `x3` wrapped against a table of 36864 rows, as the column the gather reads. -/
theorem col_src1 (x3 : (⟨S32768, .i32⟩ : BufTy).Contents (Elt Ideal)) (r : Fin 32768) :
    Read.val_main_v12 (F := Ideal) x3 (ix2 r (0 : Fin 1)) = Spec.wrap 36864 (Spec.rd1 x3 r) := by
  unfold Read.val_main_v12 Read.val_main_v11 Read.val_main_v10 Read.val_main_v9 Read.val_main_v8 Read.val_main_v7 Read.val_main_c_1 Read.val_main_c_2
  exact wrapCol_apply 36864 x3 Gen.bcast_S_S32768 Gen.bcast_S32768_S32768x1_0 r 0

/-- The index words `x2` wrapped against a table of 36864 rows, as the column the gather reads. -/
theorem col_dst1 (x2 : (⟨S4096, .i32⟩ : BufTy).Contents (Elt Ideal)) (r : Fin 4096) :
    Read.val_main_v20 (F := Ideal) x2 (ix2 r (0 : Fin 1)) = Spec.wrap 36864 (Spec.rd1 x2 r) := by
  unfold Read.val_main_v20 Read.val_main_v19 Read.val_main_v18 Read.val_main_v17 Read.val_main_v16 Read.val_main_v15 Read.val_main_c_3 Read.val_main_c_4
  exact wrapCol_apply 36864 x2 Gen.bcast_S_S4096 Gen.bcast_S4096_S4096x1_0 r 0

/-- The index words `x6` wrapped against a table of 4096 rows, as the column the gather reads. -/
theorem col_src2 (x6 : (⟨S3584, .i32⟩ : BufTy).Contents (Elt Ideal)) (r : Fin 3584) :
    Read.val_main_v30 (F := Ideal) x6 (ix2 r (0 : Fin 1)) = Spec.wrap 4096 (Spec.rd1 x6 r) := by
  unfold Read.val_main_v30 Read.val_main_v29 Read.val_main_v28 Read.val_main_v27 Read.val_main_v26 Read.val_main_v25 Read.val_main_c_5 Read.val_main_c_6
  exact wrapCol_apply 4096 x6 Gen.bcast_S_S3584 Gen.bcast_S3584_S3584x1_0 r 0

/-- The index words `x5` wrapped against a table of 4096 rows, as the column the gather reads. -/
theorem col_dst2 (x5 : (⟨S512, .i32⟩ : BufTy).Contents (Elt Ideal)) (r : Fin 512) :
    Read.val_main_v38 (F := Ideal) x5 (ix2 r (0 : Fin 1)) = Spec.wrap 4096 (Spec.rd1 x5 r) := by
  unfold Read.val_main_v38 Read.val_main_v37 Read.val_main_v36 Read.val_main_v35 Read.val_main_v34 Read.val_main_v33 Read.val_main_c_7 Read.val_main_c_8
  exact wrapCol_apply 4096 x5 Gen.bcast_S_S512 Gen.bcast_S512_S512x1_0 r 0

/-- The node features taken by the sampled nodes. -/
theorem take_nodes (x0 : (⟨S100000x512, .f32⟩ : BufTy).Contents (Elt Ideal)) (x1 : (⟨S36864, .i32⟩ : BufTy).Contents (Elt Ideal)) (n : Fin 36864) (c : Fin 512) :
    Read.val_main_v6 (F := Ideal) x0 x1 (ix2 n c) = Spec.take2 (N := 99999) (Spec.rd2 x0) (Spec.rd1 x1) n c := by
  unfold Read.val_main_v6
  exact gather_take (N := 99999) gather_S100000x512_S36864x1_S36864x512_1_0_n_n_0_1_1512.wf x0 (Read.val_main_v5 x1)
    (Spec.rd1 x1) (col_nodes x1) n c

/-- The first layer, over the taken node features as its table. -/
theorem layer1 (x0 : (⟨S100000x512, .f32⟩ : BufTy).Contents (Elt Ideal)) (x1 : (⟨S36864, .i32⟩ : BufTy).Contents (Elt Ideal)) (x2 : (⟨S4096, .i32⟩ : BufTy).Contents (Elt Ideal)) (x3 : (⟨S32768, .i32⟩ : BufTy).Contents (Elt Ideal)) (x4 : (⟨S4096x32768, .f32⟩ : BufTy).Contents (Elt Ideal)) (x8 : (⟨S1024x512, .f32⟩ : BufTy).Contents (Elt Ideal)) (i : Fin 4096) (d : Fin 512) :
    Read.val_main_v24 (F := Ideal) x0 x1 x2 x3 x4 x8 (ix2 i d)
      = Spec.layer (Spec.rd2 x4) (Spec.take2 (N := 36863) (Spec.rd2 (Read.val_main_v6 (F := Ideal) x0 x1)) (Spec.rd1 x3))
          (Spec.take2 (N := 36863) (Spec.rd2 (Read.val_main_v6 (F := Ideal) x0 x1)) (Spec.rd1 x2)) (Spec.rd2 x8) i d := by
  unfold Read.val_main_v24 Read.val_main_v23 Read.val_main_v22 Read.val_main_v21 Read.val_main_v14 Read.val_main_v13
    Read.val_main_call0_v0 Read.val_main_call0_cst
  exact layer_stage (S := 32768) (B := 4096) (T := 36863) (Read.val_main_v6 (F := Ideal) x0 x1) (Read.val_main_v12 x3) (Read.val_main_v20 x2)
    (Spec.rd1 x3) (Spec.rd1 x2) (col_src1 x3) (col_dst1 x2) x4 x8
    dot_S4096x32768_S32768x512_S4096x512_1_0_0_1_n_n ⟨rfl, rfl, rfl, rfl, rfl, rfl⟩ dot_S4096x1024_S1024x512_S4096x512_1_0_0_1_n_n ⟨rfl, rfl, rfl, rfl, rfl, rfl⟩
    gather_S36864x512_S32768x1_S32768x512_1_0_n_n_0_1_1512.wf gather_S36864x512_S4096x1_S4096x512_1_0_n_n_0_1_1512.wf
    Gen.concatenates_S4096x512_S4096x512_S4096x1024_d1 Gen.bcast_S_S4096x512 i d

/-- The second layer, over the first layer's rows as its table. -/
theorem layer2 (x0 : (⟨S100000x512, .f32⟩ : BufTy).Contents (Elt Ideal)) (x1 : (⟨S36864, .i32⟩ : BufTy).Contents (Elt Ideal)) (x2 : (⟨S4096, .i32⟩ : BufTy).Contents (Elt Ideal)) (x3 : (⟨S32768, .i32⟩ : BufTy).Contents (Elt Ideal)) (x4 : (⟨S4096x32768, .f32⟩ : BufTy).Contents (Elt Ideal)) (x5 : (⟨S512, .i32⟩ : BufTy).Contents (Elt Ideal)) (x6 : (⟨S3584, .i32⟩ : BufTy).Contents (Elt Ideal)) (x7 : (⟨S512x3584, .f32⟩ : BufTy).Contents (Elt Ideal)) (x8 : (⟨S1024x512, .f32⟩ : BufTy).Contents (Elt Ideal)) (x9 : (⟨S1024x512, .f32⟩ : BufTy).Contents (Elt Ideal)) (i : Fin 512) (d : Fin 512) :
    Read.val_main_v42 (F := Ideal) x0 x1 x2 x3 x4 x5 x6 x7 x8 x9 (ix2 i d)
      = Spec.layer (Spec.rd2 x7) (Spec.take2 (N := 4095) (Spec.rd2 (Read.val_main_v24 (F := Ideal) x0 x1 x2 x3 x4 x8)) (Spec.rd1 x6))
          (Spec.take2 (N := 4095) (Spec.rd2 (Read.val_main_v24 (F := Ideal) x0 x1 x2 x3 x4 x8)) (Spec.rd1 x5)) (Spec.rd2 x9) i d := by
  unfold Read.val_main_v42 Read.val_main_v41 Read.val_main_v40 Read.val_main_v39 Read.val_main_v32 Read.val_main_v31
    Read.val_main_call1_v0 Read.val_main_call1_cst
  exact layer_stage (S := 3584) (B := 512) (T := 4095) (Read.val_main_v24 (F := Ideal) x0 x1 x2 x3 x4 x8) (Read.val_main_v30 x6) (Read.val_main_v38 x5)
    (Spec.rd1 x6) (Spec.rd1 x5) (col_src2 x6) (col_dst2 x5) x7 x9
    dot_S512x3584_S3584x512_S512x512_1_0_0_1_n_n ⟨rfl, rfl, rfl, rfl, rfl, rfl⟩ dot_S512x1024_S1024x512_S512x512_1_0_0_1_n_n ⟨rfl, rfl, rfl, rfl, rfl, rfl⟩
    gather_S4096x512_S3584x1_S3584x512_1_0_n_n_0_1_1512.wf gather_S4096x512_S512x1_S512x512_1_0_n_n_0_1_1512.wf
    Gen.concatenates_S512x512_S512x512_S512x1024_d1 Gen.bcast_S_S512x512 i d

/-- The class scores of the second layer's rows. -/
theorem scores (x0 : (⟨S100000x512, .f32⟩ : BufTy).Contents (Elt Ideal)) (x1 : (⟨S36864, .i32⟩ : BufTy).Contents (Elt Ideal)) (x2 : (⟨S4096, .i32⟩ : BufTy).Contents (Elt Ideal)) (x3 : (⟨S32768, .i32⟩ : BufTy).Contents (Elt Ideal)) (x4 : (⟨S4096x32768, .f32⟩ : BufTy).Contents (Elt Ideal)) (x5 : (⟨S512, .i32⟩ : BufTy).Contents (Elt Ideal)) (x6 : (⟨S3584, .i32⟩ : BufTy).Contents (Elt Ideal)) (x7 : (⟨S512x3584, .f32⟩ : BufTy).Contents (Elt Ideal)) (x8 : (⟨S1024x512, .f32⟩ : BufTy).Contents (Elt Ideal)) (x9 : (⟨S1024x512, .f32⟩ : BufTy).Contents (Elt Ideal)) (x10 : (⟨S512x128, .f32⟩ : BufTy).Contents (Elt Ideal)) (r : Fin 512) (j : Fin 128) :
    Read.val_main_v43 (F := Ideal) x0 x1 x2 x3 x4 x5 x6 x7 x8 x9 x10 (ix2 r j)
      = Spec.logits (Spec.rd2 (Read.val_main_v42 (F := Ideal) x0 x1 x2 x3 x4 x5 x6 x7 x8 x9) r) (Spec.rd2 x10) j := by
  unfold Read.val_main_v43
  exact logits_stage (R := 512) (Read.val_main_v42 (F := Ideal) x0 x1 x2 x3 x4 x5 x6 x7 x8 x9) x10 dot_S512x512_S512x128_S512x128_1_0_0_1_n_n ⟨rfl, rfl, rfl, rfl, rfl, rfl⟩ r j

/-- The softmax of each row of scores. -/
theorem softmaxTail (x0 : (⟨S100000x512, .f32⟩ : BufTy).Contents (Elt Ideal)) (x1 : (⟨S36864, .i32⟩ : BufTy).Contents (Elt Ideal)) (x2 : (⟨S4096, .i32⟩ : BufTy).Contents (Elt Ideal)) (x3 : (⟨S32768, .i32⟩ : BufTy).Contents (Elt Ideal)) (x4 : (⟨S4096x32768, .f32⟩ : BufTy).Contents (Elt Ideal)) (x5 : (⟨S512, .i32⟩ : BufTy).Contents (Elt Ideal)) (x6 : (⟨S3584, .i32⟩ : BufTy).Contents (Elt Ideal)) (x7 : (⟨S512x3584, .f32⟩ : BufTy).Contents (Elt Ideal)) (x8 : (⟨S1024x512, .f32⟩ : BufTy).Contents (Elt Ideal)) (x9 : (⟨S1024x512, .f32⟩ : BufTy).Contents (Elt Ideal)) (x10 : (⟨S512x128, .f32⟩ : BufTy).Contents (Elt Ideal)) (r : Fin 512) (j : Fin 128) :
    Read.val_main_v54 (F := Ideal) x0 x1 x2 x3 x4 x5 x6 x7 x8 x9 x10 (ix2 r j)
      = Spec.softmaxRow (Spec.rd2 (Read.val_main_v43 (F := Ideal) x0 x1 x2 x3 x4 x5 x6 x7 x8 x9 x10) r) j := by
  unfold Read.val_main_v54 Read.val_main_v53 Read.val_main_v52 Read.val_main_v51 Read.val_main_cst_10
  exact softmax_stage (R := 512) (Read.val_main_v43 (F := Ideal) x0 x1 x2 x3 x4 x5 x6 x7 x8 x9 x10) (Read.val_main_v50 (F := Ideal) x0 x1 x2 x3 x4 x5 x6 x7 x8 x9 x10)
    (Read.val_main_v46 (F := Ideal) x0 x1 x2 x3 x4 x5 x6 x7 x8 x9 x10) Gen.reducesTo_S512x128_S512_d1 (by decide) Gen.h_S_
    Gen.bcast_S_S512 Gen.bcast_S512_S512x1_0 Gen.bcast_S512x1_S512x128_0_1
    (by unfold Read.val_main_v46 Read.val_main_v45 Read.val_main_v44 Read.val_main_cst_9 Read.val_main_cst; rfl)
    (by unfold Read.val_main_v50 Read.val_main_v49 Read.val_main_v48 Read.val_main_v47; rfl) r j

/-- The reference's last stage at row `r`, class `j`. -/
theorem ref_eq (x0 : (⟨S100000x512, .f32⟩ : BufTy).Contents (Elt Ideal)) (x1 : (⟨S36864, .i32⟩ : BufTy).Contents (Elt Ideal))
    (x2 : (⟨S4096, .i32⟩ : BufTy).Contents (Elt Ideal)) (x3 : (⟨S32768, .i32⟩ : BufTy).Contents (Elt Ideal))
    (x4 : (⟨S4096x32768, .f32⟩ : BufTy).Contents (Elt Ideal)) (x5 : (⟨S512, .i32⟩ : BufTy).Contents (Elt Ideal))
    (x6 : (⟨S3584, .i32⟩ : BufTy).Contents (Elt Ideal)) (x7 : (⟨S512x3584, .f32⟩ : BufTy).Contents (Elt Ideal))
    (x8 : (⟨S1024x512, .f32⟩ : BufTy).Contents (Elt Ideal)) (x9 : (⟨S1024x512, .f32⟩ : BufTy).Contents (Elt Ideal))
    (x10 : (⟨S512x128, .f32⟩ : BufTy).Contents (Elt Ideal)) (r : Fin 512) (j : Fin 128) :
    Cert.ReferenceIdeal.Read.val_main_v54 (F := Ideal) x0 x1 x2 x3 x4 x5 x6 x7 x8 x9 x10 (ix2 r j)
      = Spec.G (Spec.rd2 x0) (Spec.rd1 x1) (Spec.rd1 x2) (Spec.rd1 x3) (Spec.rd2 x4) (Spec.rd1 x5) (Spec.rd1 x6) (Spec.rd2 x7)
          (Spec.rd2 x8) (Spec.rd2 x9) (Spec.rd2 x10) r j := by
  -- the taken node features, then each layer's rows, as the specification's functions
  have hX0 : (Spec.rd2 (Read.val_main_v6 (F := Ideal) x0 x1) : Fin (36863 + 1) → Fin 512 → EReal)
      = Spec.take2 (N := 99999) (Spec.rd2 x0) (Spec.rd1 x1) :=
    funext fun n => funext fun c => take_nodes x0 x1 n c
  have hX1 : (Spec.rd2 (Read.val_main_v24 (F := Ideal) x0 x1 x2 x3 x4 x8) : Fin (4095 + 1) → Fin 512 → EReal)
      = Spec.layer (Spec.rd2 x4) (Spec.take2 (N := 36863) (Spec.take2 (N := 99999) (Spec.rd2 x0) (Spec.rd1 x1)) (Spec.rd1 x3))
          (Spec.take2 (N := 36863) (Spec.take2 (N := 99999) (Spec.rd2 x0) (Spec.rd1 x1)) (Spec.rd1 x2)) (Spec.rd2 x8) :=
    funext fun i => funext fun d => (layer1 x0 x1 x2 x3 x4 x8 i d).trans
      (congrArg (fun X : Fin (36863 + 1) → Fin 512 → EReal =>
        Spec.layer (Spec.rd2 x4) (Spec.take2 (N := 36863) X (Spec.rd1 x3)) (Spec.take2 (N := 36863) X (Spec.rd1 x2)) (Spec.rd2 x8) i d) hX0)
  have hX2 : (Spec.rd2 (Read.val_main_v42 (F := Ideal) x0 x1 x2 x3 x4 x5 x6 x7 x8 x9) : Fin 512 → Fin 512 → EReal)
      = Spec.layer (Spec.rd2 x7) (Spec.take2 (N := 4095) (Spec.layer (Spec.rd2 x4) (Spec.take2 (N := 36863) (Spec.take2 (N := 99999) (Spec.rd2 x0) (Spec.rd1 x1)) (Spec.rd1 x3))
          (Spec.take2 (N := 36863) (Spec.take2 (N := 99999) (Spec.rd2 x0) (Spec.rd1 x1)) (Spec.rd1 x2)) (Spec.rd2 x8)) (Spec.rd1 x6))
          (Spec.take2 (N := 4095) (Spec.layer (Spec.rd2 x4) (Spec.take2 (N := 36863) (Spec.take2 (N := 99999) (Spec.rd2 x0) (Spec.rd1 x1)) (Spec.rd1 x3))
          (Spec.take2 (N := 36863) (Spec.take2 (N := 99999) (Spec.rd2 x0) (Spec.rd1 x1)) (Spec.rd1 x2)) (Spec.rd2 x8)) (Spec.rd1 x5)) (Spec.rd2 x9) :=
    funext fun i => funext fun d => (layer2 x0 x1 x2 x3 x4 x5 x6 x7 x8 x9 i d).trans
      (congrArg (fun X : Fin (4095 + 1) → Fin 512 → EReal =>
        Spec.layer (Spec.rd2 x7) (Spec.take2 (N := 4095) X (Spec.rd1 x6)) (Spec.take2 (N := 4095) X (Spec.rd1 x5)) (Spec.rd2 x9) i d) hX1)
  -- the scores of row r
  have hlg : Spec.rd2 (Read.val_main_v43 (F := Ideal) x0 x1 x2 x3 x4 x5 x6 x7 x8 x9 x10) r
      = Spec.logits ((Spec.layer (Spec.rd2 x7) (Spec.take2 (N := 4095) (Spec.layer (Spec.rd2 x4) (Spec.take2 (N := 36863) (Spec.take2 (N := 99999) (Spec.rd2 x0) (Spec.rd1 x1)) (Spec.rd1 x3))
          (Spec.take2 (N := 36863) (Spec.take2 (N := 99999) (Spec.rd2 x0) (Spec.rd1 x1)) (Spec.rd1 x2)) (Spec.rd2 x8)) (Spec.rd1 x6))
          (Spec.take2 (N := 4095) (Spec.layer (Spec.rd2 x4) (Spec.take2 (N := 36863) (Spec.take2 (N := 99999) (Spec.rd2 x0) (Spec.rd1 x1)) (Spec.rd1 x3))
          (Spec.take2 (N := 36863) (Spec.take2 (N := 99999) (Spec.rd2 x0) (Spec.rd1 x1)) (Spec.rd1 x2)) (Spec.rd2 x8)) (Spec.rd1 x5)) (Spec.rd2 x9)) r) (Spec.rd2 x10) :=
    funext fun k => (scores x0 x1 x2 x3 x4 x5 x6 x7 x8 x9 x10 r k).trans
      (congrArg (fun X : Fin 512 → Fin 512 → EReal => Spec.logits (X r) (Spec.rd2 x10) k) hX2)
  exact (softmaxTail x0 x1 x2 x3 x4 x5 x6 x7 x8 x9 x10 r j).trans (congrArg (fun l : Fin 128 → EReal => Spec.softmaxRow l j) hlg)

end Cert.RefValue

end
-- ==== Proof.lean ====
/-
  A two-layer graph network — features gathered for the sampled nodes, two layers that each mix a weighted sum of
  source rows with the destination rows through a 1024 × 512 weight matrix and keep the positive part, a classifier
  and a softmax — as a program of two TensorCore pallas_calls among host lines, against its plain jnp reference, over
  the extended reals.

  The frames. @main is twelve items: six stretches of host lines, the first call, four stretches, the second call.
  The launch theorem for a list of segments takes each call as a record: its arrays split out of the core's unscoped
  buffers at entry and put back at exit, and the kernel body's obligation at every grid point. The first call's kernel
  carries a scratch accumulator over the 16 inner points of each row block (cleared at the first, turned into the
  output block at the last); the second keeps nothing. No host line and no call writes an argument. The reference has
  no kernel: its frame is its run with the result dropped.

  The value. With every index word a row number of the table it indexes (outside that the reference itself indexes
  out of range), a take that fills where the word is out of range is the plain take of rows, and a take of a take is
  the take by the taken words: so the first call's operands are the feature rows the reference gathers. A block
  product accumulated over the 16 column blocks is the whole product; the product of the two joined halves with the
  1024-row weights is the sum of the two half products; both softmaxes subtract the row's maximum. Sums in a
  commutative monoid regroup freely, so nothing needs the inputs to be finite.
-/
import proofs.«424208_j60103772340409_3_alg».proof.Defs
import proofs.«424208_j60103772340409_3_alg».proof.Proof.Gen.Kernel
import proofs.«424208_j60103772340409_3_alg».proof.Proof.Gen.KernelIdeal
import proofs.«424208_j60103772340409_3_alg».proof.Proof.Gen.ReferenceIdeal
import proofs.«424208_j60103772340409_3_alg».proof.Proof.Gen.Pre_finite_inputs
import proofs.«424208_j60103772340409_3_alg».proof.Proof.K.Body0
import proofs.«424208_j60103772340409_3_alg».proof.Proof.K.Body1
import proofs.«424208_j60103772340409_3_alg».proof.Proof.K.Run
import proofs.«424208_j60103772340409_3_alg».proof.Proof.KI.Body0
import proofs.«424208_j60103772340409_3_alg».proof.Proof.KI.Body1
import proofs.«424208_j60103772340409_3_alg».proof.Proof.KI.Run
import proofs.«424208_j60103772340409_3_alg».proof.Proof.KI.Value
import proofs.«424208_j60103772340409_3_alg».proof.Proof.KI.PreRanges
import proofs.«424208_j60103772340409_3_alg».proof.Proof.RefImports
import proofs.«424208_j60103772340409_3_alg».proof.Proof.RefIsG
import Idealize.ShloMosaic.Adequacy
import Idealize.ShloMosaic.Init

noncomputable section

namespace Cert.Proof

open Idealize.ShloMosaic Idealize.ShloMosaic.ValueIdx Idealize.SL.Sem

/-- The word-level program runs and leaves its arguments as launched. -/
theorem frame_k : Cert.frame_Kernel := fun m ρ _ =>
  Cert.Kernel.Gen.run_frame (F := Bits) m ρ (fun c => Cert.Kernel.Gen.body_obligation0 _ c) (fun c => Cert.Kernel.Gen.hin0 _ c)
    (fun c => Cert.Kernel.Gen.hout0 _ c) (fun c => Cert.Kernel.Gen.body_obligation1 _ c)

/-- So does the program read at the extended reals. -/
theorem frame_ki : Cert.frame_KernelIdeal := fun m ρ _ =>
  Cert.KernelIdeal.Gen.run_frame (F := Ideal) m ρ (fun c => Cert.KernelIdeal.Gen.body_obligation0 _ c) (fun c => Cert.KernelIdeal.Gen.hin0 _ c)
    (fun c => Cert.KernelIdeal.Gen.hout0 _ c) (fun c => Cert.KernelIdeal.Gen.body_obligation1 _ c)

/-- The reference's frame is its run with the result dropped. -/
theorem frame_r : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specification's function of the arguments in
    their result buffers. -/
theorem algebraic : Cert.algebraic_KernelIdeal_ReferenceIdeal := by
  intro m ρ m' ρ' hpre hagree
  refine ⟨fun c => Cert.KernelIdeal.Gen.X1 (F := Ideal) m c,
    Cert.KernelIdeal.Gen.run_value (F := Ideal) m ρ (fun c => Cert.KernelIdeal.Gen.body_obligation0 _ c) (fun c => Cert.KernelIdeal.Gen.hin0 _ c)
      (fun c => Cert.KernelIdeal.Gen.hout0 _ c) (fun c => Cert.KernelIdeal.Gen.body_obligation1 _ c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq]
  obtain ⟨a0, a1, a2, a3, a4, a5, a6, a7, a8, a9, a10⟩ := hagree c
  rw [a0, a1, a2, a3, a4, a5, a6, a7, a8, a9, a10]
  funext idx
  obtain ⟨r, j, rfl⟩ : ∃ (r : Fin 512) (j : Fin 128), idx = ix2 r j := ⟨idx 0, idx 1, eq_ix2 idx⟩
  rw [Cert.RefValue.ref_eq]
  exact (Cert.KernelIdeal.Gen.X1_apply m c (Cert.KernelIdeal.Gen.ranges_of_pre m hpre c) r j).symm

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
